-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x768 : Shape := ⟨2, ![256, 768]⟩
abbrev S768 : Shape := ⟨1, ![768]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg9 : FVec F S256x768 .f32) (main_arg10 : FVec F S768 .f32) (main_v33 : IVec S_ 1) : IVec S_ 1 :=
  let main_v34 : FVec F S256x768 .f32 := Host.absf main_arg9
  let main_cst_12 : FVec F S_ .f32 := constant S_ .f32 0x7F800000#32
  let main_v35 : FVec F S256x768 .f32 := broadcastInDim S256x768 ![] bcast_S_S256x768 main_cst_12
  let main_v36 : IVec S256x768 1 := cmpf .olt main_v34 main_v35
  let main_c_13 : IVec S_ 1 := constantI S_ 1 1#1
  let main_v37 : IVec S_ 1 := (fun x v => Host.reduce IntOp.andi x v reducesTo_S256x768_S_d0_1 h_S_) main_v36 main_c_13
  let main_v38 : IVec S_ 1 := andi main_v33 main_v37
  let main_v39 : FVec F S768 .f32 := Host.absf main_arg10
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x768 .f32) (main_arg10 : FVec F S768 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x768 .f32) (main_arg1 : IVec S2x800000 32) (main_arg2 : IVec S50000 32) (main_arg3 : FVec F S768x256 .f32) (main_arg4 : FVec F S256 .f32) (main_arg5 : FVec F S256x256 .f32) (main_arg6 : FVec F S256 .f32) (main_arg7 : FVec F S256x256 .f32) (main_arg8 : FVec F S256 .f32) (main_arg9 : FVec F S256x768 .f32) (main_arg10 : FVec F S768 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x768 : Shape := ⟨2, ![256, 768]⟩
abbrev S768 : Shape := ⟨1, ![768]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S2000x768 : Shape := ⟨2, ![2000, 768]⟩
abbrev S2000x256 : Shape := ⟨2, ![2000, 256]⟩
abbrev S800000x256 : Shape := ⟨2, ![800000, 256]⟩
abbrev S1x256 : Shape := ⟨2, ![1, 256]⟩
abbrev S2000x1 : Shape := ⟨2, ![2000, 1]⟩
abbrev S64x256 : Shape := ⟨2, ![64, 256]⟩
abbrev S64x1 : Shape := ⟨2, ![64, 1]⟩
abbrev S1x64 : Shape := ⟨2, ![1, 64]⟩
abbrev S2000x64 : Shape := ⟨2, ![2000, 64]⟩
abbrev S1x768 : Shape := ⟨2, ![1, 768]⟩
abbrev S64x768 : Shape := ⟨2, ![64, 768]⟩

abbrev nBuf : Space → Nat
  | .hbm => 110
  | .vmem => 52
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S50000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x768, .f32⟩
  | .hbm, ⟨10, _⟩ => ⟨S768, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000x1, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S800000x256, .f32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x256, .f32⟩
  | .hbm, ⟨74, _⟩ => ⟨S800000x256, .f32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S800000x256, .f32⟩
  | .hbm, ⟨93, _⟩ => ⟨S800000x256, .f32⟩
  | .hbm, ⟨94, _⟩ => ⟨S_, .f32⟩
  | .hbm, ⟨95, _⟩ => ⟨S50000x256, .f32⟩
  | .hbm, ⟨96, _⟩ => ⟨S800000x1, .i32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x1, .i32⟩
  | .hbm, ⟨101, _⟩ => ⟨S64x256, .f32⟩
  | .hbm, ⟨102, _⟩ => ⟨S64x1, .f32⟩
  | .hbm, ⟨103, _⟩ => ⟨S_, .f32⟩
  | .hbm, ⟨104, _⟩ => ⟨S64x1, .f32⟩
  | .hbm, ⟨105, _⟩ => ⟨S64x1, .f32⟩
  | .hbm, ⟨106, _⟩ => ⟨S64x256, .f32⟩
  | .hbm, ⟨107, _⟩ => ⟨S64x256, .f32⟩
  | .hbm, ⟨108, _⟩ => ⟨S1x768, .f32⟩
  | .hbm, ⟨109, _⟩ => ⟨S64x768, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x1, .f32⟩
  | .local _ .vmem, ⟨38, _⟩ => ⟨S2000x1, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x1, .i32⟩
  | .local _ .vmem, ⟨45, _⟩ => ⟨S2000x1, .i32⟩
  | .local _ .vmem, ⟨46, _⟩ => ⟨S64x256, .f32⟩
  | .local _ .vmem, ⟨47, _⟩ => ⟨S64x1, .f32⟩
  | .local _ .vmem, ⟨48, _⟩ => ⟨S64x256, .f32⟩
  | .local _ .vmem, ⟨49, _⟩ => ⟨S256x768, .f32⟩
  | .local _ .vmem, ⟨50, _⟩ => ⟨S1x768, .f32⟩
  | .local _ .vmem, ⟨51, _⟩ => ⟨S64x768, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74_0 : Ref sig .tc := ⟨.hbm, 101, rfl⟩
abbrev main_v74_1 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc7_sem0_0 : DmaSem sig := 48
abbrev cc7_sem1_0 : DmaSem sig := 49
abbrev cc7_sem2_0 : DmaSem sig := 50
abbrev cc7_sem3_0 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x768 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x768 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S50000_S50000x1 : S50000.ShapeCasts S50000x1
  inb_S64x256_S64x256_0_0 : ∀ a, (![0, 0] : Fin 2 → Nat) a + S64x256.size a ≤ S64x256.size a
  h_S64x256 : 0 < S64x256.numel
  inb_S64x1_S64x1_0_0 : ∀ a, (![0, 0] : Fin 2 → Nat) a + S64x1.size a ≤ S64x1.size a
  h_S64x1 : 0 < S64x1.numel
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  shapeCasts_S64x256_S64x256 : S64x256.ShapeCasts S64x256
  shapeCasts_S64x1_S64x1 : S64x1.ShapeCasts S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  shapeCasts_S768_S1x768 : S768.ShapeCasts S1x768
  inb_S256x768_S256x768_0_0 : ∀ a, (![0, 0] : Fin 2 → Nat) a + S256x768.size a ≤ S256x768.size a
  h_S256x768 : 0 < S256x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S64x768 : S1x768.Broadcasts S64x768
  inb_S64x768_S64x768_0_0 : ∀ a, (![0, 0] : Fin 2 → Nat) a + S64x768.size a ≤ S64x768.size a
  h_S64x768 : 0 < S64x768.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x768_S768x256_S2000x256_1_0_0_1_n_n_wf : DotDims.WF S2000x768 S768x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x64_S2000x256_S64x256_0_0_1_1_n_n_wf : DotDims.WF S2000x64 S2000x256 S64x256 [0] [0] [1] [1] [] []
  dot_S2000x64_S2000x1_S64x1_0_0_1_1_n_n_wf : DotDims.WF S2000x64 S2000x1 S64x1 [0] [0] [1] [1] [] []
  dot_S64x256_S256x768_S64x768_1_0_0_1_n_n_wf : DotDims.WF S64x256 S256x768 S64x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S50000x256.size a
  hwx5_4 : ∀ i : grid5.Coords, EltTy.bits .f32 = 32 ∨ (Rect.block (s := S50000x256) S2000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .i32 = 32 ∨ (Rect.block (s := S50000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x256.size a ≤ S64x256.size a
  hwx6_2 : ∀ i : grid6.Coords, EltTy.bits .f32 = 32 ∨ (Rect.block (s := S64x256) S64x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x256.size a ≤ S64x256.size a
  hwx7_0 : ∀ i : grid7.Coords, EltTy.bits .f32 = 32 ∨ (Rect.block (s := S64x256) S64x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x768.size a ≤ S256x768.size a
  hwx7_1 : ∀ i : grid7.Coords, EltTy.bits .f32 = 32 ∨ (Rect.block (s := S256x768) S256x768.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x768.size a ≤ S1x768.size a
  hwx7_2 : ∀ i : grid7.Coords, EltTy.bits .f32 = 32 ∨ (Rect.block (s := S1x768) S1x768.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x768.size a ≤ S64x768.size a
  hwx7_3 : ∀ i : grid7.Coords, EltTy.bits .f32 = 32 ∨ (Rect.block (s := S64x768) S64x768.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x64_S2000x256_S64x256_0_0_1_1_n_n : DotDims S2000x64 S2000x256 S64x256 where
  lhsContracting := [0]
  rhsContracting := [0]
  lhsNonContracting := [1]
  rhsNonContracting := [1]
  lhsBatch := []
  rhsBatch := []
  wf := dot_S2000x64_S2000x256_S64x256_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v72) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74_0) S64x256.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v74_1) S64x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v78) S64x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S256x768.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S1x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S64x768.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x768 : Shape := ⟨2, ![256, 768]⟩
abbrev S768 : Shape := ⟨1, ![768]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x768 : Shape := ⟨2, ![64, 768]⟩
abbrev S1x768 : Shape := ⟨2, ![1, 768]⟩

abbrev nBuf : Space → Nat
  | .hbm => 203
  | .vmem => 0
  | .smem => 0
  | _ => 0

abbrev hbmTy0_0 (i : Nat) : BufTy := match i % 128 with
  | 0 => ⟨S50000x768, .f32⟩
  | 1 => ⟨S2x800000, .i32⟩
  | 2 => ⟨S50000, .i32⟩
  | 3 => ⟨S768x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x768, .f32⟩
  | 10 => ⟨S768, .f32⟩
  | 11 => ⟨S1x800000, .i32⟩
  | 12 => ⟨S800000, .i32⟩
  | 13 => ⟨S1x800000, .i32⟩
  | 14 => ⟨S800000, .i32⟩
  | 15 => ⟨S50000x256, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x256, .f32⟩
  | 56 => ⟨S800000x256, .f32⟩
  | 57 => ⟨S_, .f32⟩
  | 58 => ⟨S50000x256, .f32⟩
  | 59 => ⟨S800000x1, .i32⟩
  | 60 => ⟨S50000x256, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S800000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S800000x256, .f32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000, .f32⟩
  | 119 => ⟨S50000x1, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x768, .f32⟩

abbrev hbmTy0_1 (i : Nat) : BufTy := match i % 128 with
  | 0 => ⟨S50000x256, .f32⟩
  | 1 => ⟨S50000x256, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S800000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x256, .f32⟩
  | 41 => ⟨S800000x256, .f32⟩
  | 42 => ⟨S800000x256, .f32⟩
  | 43 => ⟨S_, .f32⟩
  | 44 => ⟨S50000x256, .f32⟩
  | 45 => ⟨S800000x1, .i32⟩
  | 46 => ⟨S50000x256, .f32⟩
  | 47 => ⟨S50000, .f32⟩
  | 48 => ⟨S50000x1, .f32⟩
  | 49 => ⟨S50000x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S64x256, .f32⟩
  | 57 => ⟨S50000x1, .i32⟩
  | 58 => ⟨S64x256, .f32⟩
  | 59 => ⟨S_, .f32⟩
  | 60 => ⟨S50000, .f32⟩
  | 61 => ⟨S_, .f32⟩
  | 62 => ⟨S64, .f32⟩
  | 63 => ⟨S50000x1, .i32⟩
  | 64 => ⟨S64, .f32⟩
  | 65 => ⟨S_, .f32⟩
  | 66 => ⟨S64, .f32⟩
  | 67 => ⟨S64, .f32⟩
  | 68 => ⟨S64x1, .f32⟩
  | 69 => ⟨S64x256, .f32⟩
  | 70 => ⟨S64x256, .f32⟩
  | 71 => ⟨S64x768, .f32⟩
  | 72 => ⟨S1x768, .f32⟩
  | 73 => ⟨S64x768, .f32⟩
  | 74 => ⟨S64x768, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_25 : Ref sig .tc := ⟨.hbm, 160, rfl⟩
abbrev main_v118 : Ref sig .tc := ⟨.hbm, 161, rfl⟩
abbrev main_v119 : Ref sig .tc := ⟨.hbm, 162, rfl⟩
abbrev main_c_26 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  dot_S50000x768_S768x256_S50000x256_1_0_0_1_n_n_wf : DotDims.WF S50000x768 S768x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x768_S64x768_1_0_0_1_n_n_wf : DotDims.WF S64x256 S256x768 S64x768 [1] [0] [0] [1] [] []

variable [Facts₀]

def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf

class Facts : Prop extends Facts₀ where

variable [Facts]
-- ==== Proof.Spec.lean ====
/-
  The graph network both programs compute, written once as functions of the argument arrays.

  With `src`, `dst` the two rows of the edge list and `deg v = 1 + #{e | dst e = v}`, `dinv = deg^(-1/2)`:
  a layer maps node features `h` (already multiplied by its weight matrix) to
  `conv h b = (Σ_{e : dst e = v} h[src e] · dinv[src e] · dinv[dst e]) + dinv[v]² · h[v] + b`;
  three layers follow one another, the first two through `max(·, 0)`; the node features are then averaged per
  graph (`batch` names each node's graph; an empty graph divides by 1) and mapped by the last weight matrix plus bias.
  Every function below is the composition of host operations the reference program applies, so that the
  reference's run is this term literally; the kernel program is shown to compute the same functions region by region.
-/
import proofs.«415408_j54211077210246_1_alg».proof.ReferenceIdeal
import proofs.«415408_j54211077210246_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- An array of the given shape and element type, as the host operations take it. -/
abbrev Arr (S : Shape) (e : EltTy) : Type := (⟨S, e⟩ : BufTy).Contents (Elt F)

/-- Row 0 of the edge list: each edge's source node. -/
def srcOf (ei : Arr (F := F) S2x800000 .i32) : Arr (F := F) S800000 .i32 :=
  shapeCast _ (extractStridedSlice S1x800000 ![0, 0] ei slices_S2x800000_S1x800000_0_0) shapeCasts_S1x800000_S800000

/-- Row 1 of the edge list: each edge's target node. -/
def dstOf (ei : Arr (F := F) S2x800000 .i32) : Arr (F := F) S800000 .i32 :=
  shapeCast _ (extractStridedSlice S1x800000 ![1, 0] ei slices_S2x800000_S1x800000_1_0) shapeCasts_S1x800000_S800000

/-- Node indices as a gather takes them: a negative index counts from the end (`i + 50000`), as a column. -/
def wrapCol (i : Arr (F := F) S800000 .i32) : Arr (F := F) S800000x1 .i32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The targets as the scatter takes them: a column, not wrapped. -/
def dstCol (ei : Arr (F := F) S2x800000 .i32) : Arr (F := F) S800000x1 .i32 :=
  broadcastInDim S800000x1 ![0] bcast_S800000_S800000x1_0 (dstOf ei)

/-- The zero node-feature array. -/
def zeroNodes : Arr (F := F) S50000x256 .f32 :=
  broadcastInDim S50000x256 ![] bcast_S_S50000x256 (constant S_ .f32 0x00000000#32)

/-- `dinv v = (1 + #{e | dst e = v})^(-1/2)`. -/
def dinv (ei : Arr (F := F) S2x800000 .i32) : Arr (F := F) S50000 .f32 :=
  Host.rsqrt (addf (Host.scatterAdd scatter_S50000_S800000x1_S800000_n_0_0_1
      (broadcastInDim S50000 ![] bcast_S_S50000 (constant S_ .f32 0x00000000#32)) (dstCol ei)
      (broadcastInDim S800000 ![] bcast_S_S800000 (constant S_ .f32 0x3F800000#32)))
    (broadcastInDim S50000 ![] bcast_S_S50000 (constant S_ .f32 0x3F800000#32)))

/-- Each edge's weight `dinv[src e] · dinv[dst e]`, as a column. -/
def normCol (ei : Arr (F := F) S2x800000 .i32) : Arr (F := F) S800000x1 .f32 :=
  broadcastInDim S800000x1 ![0] bcast_S800000_S800000x1_0
    (mulf (Host.gather gather_S50000_S800000x1_S800000_n_0_n_n_0_1_1 (dinv ei) (wrapCol (srcOf ei)))
      (Host.gather gather_S50000_S800000x1_S800000_n_0_n_n_0_1_1 (dinv ei) (wrapCol (dstOf ei))))

/-- A per-node value as a column over the nodes. -/
def colOf (d : Arr (F := F) S50000 .f32) : Arr (F := F) S50000x1 .f32 :=
  broadcastInDim S50000x1 ![0] bcast_S50000_S50000x1_0 d

/-- `dinv` as a column over the nodes. -/
def dinvCol (ei : Arr (F := F) S2x800000 .i32) : Arr (F := F) S50000x1 .f32 := colOf (dinv ei)

/-- The neighbours' sum: `Σ_{e : dst e = v} h[src e] · norm e`, from the edge weights as a column. -/
def aggOf (src dst : Arr (F := F) S800000 .i32) (nrm : Arr (F := F) S800000x1 .f32) (h : Arr (F := F) S50000x256 .f32) :
    Arr (F := F) S50000x256 .f32 :=
  Host.scatterAdd scatter_S50000x256_S800000x1_S800000x256_1_0_0_1 zeroNodes
    (broadcastInDim S800000x1 ![0] bcast_S800000_S800000x1_0 dst)
    (mulf (Host.gather gather_S50000x256_S800000x1_S800000x256_1_0_n_n_0_1_1256 h (wrapCol src))
      (broadcastInDim S800000x256 ![0, 1] bcast_S800000x1_S800000x256_0_1 nrm))

/-- The neighbours' sum of a layer. -/
def agg (ei : Arr (F := F) S2x800000 .i32) (h : Arr (F := F) S50000x256 .f32) : Arr (F := F) S50000x256 .f32 :=
  aggOf (srcOf ei) (dstOf ei) (normCol ei) h

/-- A layer from its neighbours' sum `a`: `(a + dinv² · h) + b`. -/
def combine (d : Arr (F := F) S50000 .f32) (a h : Arr (F := F) S50000x256 .f32) (b : Arr (F := F) S256 .f32) :
    Arr (F := F) S50000x256 .f32 :=
  addf (addf a (mulf (broadcastInDim S50000x256 ![0, 1] bcast_S50000x1_S50000x256_0_1 (colOf (mulf d d))) h))
    (broadcastInDim S50000x256 ![0, 1] bcast_S1x256_S50000x256_0_1 (broadcastInDim S1x256 ![1] bcast_S256_S1x256_1 b))

/-- One layer: `conv h b = (agg h + dinv² · h) + b`. -/
def conv (ei : Arr (F := F) S2x800000 .i32) (h : Arr (F := F) S50000x256 .f32) (b : Arr (F := F) S256 .f32) :
    Arr (F := F) S50000x256 .f32 :=
  combine (dinv ei) (agg ei h) h b

/-- `max(·, 0)`. -/
def relu (x : Arr (F := F) S50000x256 .f32) : Arr (F := F) S50000x256 .f32 := maximumf x zeroNodes

/-- The first layer's product `x · W1`. -/
def mmIn (x : Arr (F := F) S50000x768 .f32) (W : Arr (F := F) S768x256 .f32) : Arr (F := F) S50000x256 .f32 :=
  Host.dotGeneral dot_S50000x768_S768x256_S50000x256_1_0_0_1_n_n none x W

/-- A hidden layer's product `h · W`. -/
def mmHid (h : Arr (F := F) S50000x256 .f32) (W : Arr (F := F) S256x256 .f32) : Arr (F := F) S50000x256 .f32 :=
  Host.dotGeneral dot_S50000x256_S256x256_S50000x256_1_0_0_1_n_n none h W

/-- Each node's graph, as the pooling scatter takes it: a column. -/
def batchCol (batch : Arr (F := F) S50000 .i32) : Arr (F := F) S50000x1 .i32 :=
  broadcastInDim S50000x1 ![0] bcast_S50000_S50000x1_0 batch

/-- Per graph, the sum of its nodes' features. -/
def poolSum (bc : Arr (F := F) S50000x1 .i32) (h : Arr (F := F) S50000x256 .f32) : Arr (F := F) S64x256 .f32 :=
  Host.scatterAdd scatter_S64x256_S50000x1_S50000x256_1_0_0_1
    (broadcastInDim S64x256 ![] bcast_S_S64x256 (constant S_ .f32 0x00000000#32)) bc h

/-- Per graph, the number of its nodes. -/
def poolCnt (bc : Arr (F := F) S50000x1 .i32) : Arr (F := F) S64 .f32 :=
  Host.scatterAdd scatter_S64_S50000x1_S50000_n_0_0_1
    (broadcastInDim S64 ![] bcast_S_S64 (constant S_ .f32 0x00000000#32)) bc
    (broadcastInDim S50000 ![] bcast_S_S50000 (constant S_ .f32 0x3F800000#32))

/-- A per-graph value as a column over the graphs. -/
def cntCol (n : Arr (F := F) S64 .f32) : Arr (F := F) S64x1 .f32 :=
  broadcastInDim S64x1 ![0] bcast_S64_S64x1_0 n

/-- The per-graph mean from the sum `s` and the count `n`: `s / max(n, 1)`. -/
def meanOf (s : Arr (F := F) S64x256 .f32) (n : Arr (F := F) S64 .f32) : Arr (F := F) S64x256 .f32 :=
  Host.divf s (broadcastInDim S64x256 ![0, 1] bcast_S64x1_S64x256_0_1
    (cntCol (maximumf n (broadcastInDim S64 ![] bcast_S_S64 (constant S_ .f32 0x3F800000#32)))))

/-- The per-graph mean of the node features. -/
def pool (batch : Arr (F := F) S50000 .i32) (h : Arr (F := F) S50000x256 .f32) : Arr (F := F) S64x256 .f32 :=
  meanOf (poolSum (batchCol batch) h) (poolCnt (batchCol batch))

/-- The output layer `g · Wl + bl`. -/
def outLayer (g : Arr (F := F) S64x256 .f32) (Wl : Arr (F := F) S256x768 .f32) (bl : Arr (F := F) S768 .f32) :
    Arr (F := F) S64x768 .f32 :=
  addf (Host.dotGeneral dot_S64x256_S256x768_S64x768_1_0_0_1_n_n none g Wl)
    (broadcastInDim S64x768 ![0, 1] bcast_S1x768_S64x768_0_1 (broadcastInDim S1x768 ![1] bcast_S768_S1x768_1 bl))

/-- The three layers: the node features before pooling. -/
def nodes (x : Arr (F := F) S50000x768 .f32) (ei : Arr (F := F) S2x800000 .i32)
    (W1 : Arr (F := F) S768x256 .f32) (b1 : Arr (F := F) S256 .f32) (W2 : Arr (F := F) S256x256 .f32) (b2 : Arr (F := F) S256 .f32)
    (W3 : Arr (F := F) S256x256 .f32) (b3 : Arr (F := F) S256 .f32) : Arr (F := F) S50000x256 .f32 :=
  conv ei (mmHid (relu (conv ei (mmHid (relu (conv ei (mmIn x W1) b1)) W2) b2)) W3) b3

/-- The whole network. -/
def result (x : Arr (F := F) S50000x768 .f32) (ei : Arr (F := F) S2x800000 .i32) (batch : Arr (F := F) S50000 .i32)
    (W1 : Arr (F := F) S768x256 .f32) (b1 : Arr (F := F) S256 .f32) (W2 : Arr (F := F) S256x256 .f32) (b2 : Arr (F := F) S256 .f32)
    (W3 : Arr (F := F) S256x256 .f32) (b3 : Arr (F := F) S256 .f32) (Wl : Arr (F := F) S256x768 .f32) (bl : Arr (F := F) S768 .f32) :
    Arr (F := F) S64x768 .f32 :=
  outLayer (pool batch (nodes x ei W1 b1 W2 b2 W3 b3)) Wl bl

end Cert.Spec

end
-- ==== Proof.Keep.lean ====
/-
  A stretch of host operations writes only its own result buffers: every other buffer holds after the stretch what it
  held before. One list of written buffers per stretch, checked against the stretch's operations once; a buffer outside
  the list is then carried across by a membership test.
-/
import proofs.«415408_j54211077210246_1_alg».proof.Proof.Gen.KernelIdeal.Launch
import Idealize.ShloMosaic.Lib.StableHlo.Run

noncomputable section

namespace Cert.KernelIdeal.Keep

open Cert.KernelIdeal Cert.KernelIdeal.Gen Idealize.ShloMosaic Idealize.ShloMosaic.TcCoe Idealize.SL.Sem Idealize.ShloMosaic.StableHlo

variable {F : FTy → Type} [FloatOps F]

/-- The buffers the operations of stretch 0 write. -/
def written0 : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_v27]

theorem writes0 : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 0 leaves a buffer it does not write as it found it. -/
theorem keep0 (V : Valuation τ sig (Elt F)) (r : Ref sig .tc) (hr : r ∉ written0) :
    StableHlo.after hostOps0 V (Proc.devRef .tc r) = V (Proc.devRef .tc r) :=
  StableHlo.after_of_writes_sub hostOps0 V writes0 hr

/-- The buffers the operations of stretch 1 write. -/
def written1 : List (Ref sig .tc) :=
  [main_c_5, main_v29, main_v30, main_c_6, main_v31, main_v32, main_v33, main_v34, main_v35, main_v36, main_v37, main_cst_7, main_v38, main_v39, main_v40, main_v41]

theorem writes1 : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 1 leaves a buffer it does not write as it found it. -/
theorem keep1 (V : Valuation τ sig (Elt F)) (r : Ref sig .tc) (hr : r ∉ written1) :
    StableHlo.after hostOps1 V (Proc.devRef .tc r) = V (Proc.devRef .tc r) :=
  StableHlo.after_of_writes_sub hostOps1 V writes1 hr

/-- The buffers the operations of stretch 3 write. -/
def written3 : List (Ref sig .tc) :=
  [main_c_8, main_v44, main_v45, main_c_9, main_v46, main_v47, main_v48, main_v49, main_v50, main_v51, main_v52, main_cst_10, main_v53, main_v54, main_v55, main_v56]

theorem writes3 : (hostOps3 : List (HloOp τ sig (Elt F))).Forall fun op => op.writes ⊆ ((written3).map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 3 leaves a buffer it does not write as it found it. -/
theorem keep3 (V : Valuation τ sig (Elt F)) (r : Ref sig .tc) (hr : r ∉ written3) :
    StableHlo.after hostOps3 V (Proc.devRef .tc r) = V (Proc.devRef .tc r) :=
  StableHlo.after_of_writes_sub hostOps3 V writes3 hr

/-- The buffers the operations of stretch 5 write. -/
def written5 : List (Ref sig .tc) :=
  [main_c_11, main_v59, main_v60, main_c_12, main_v61, main_v62, main_v63, main_v64, main_v65, main_v66, main_v67, main_cst_13, main_v68, main_v69, main_v70, main_v71]

theorem writes5 : (hostOps5 : List (HloOp τ sig (Elt F))).Forall fun op => op.writes ⊆ ((written5).map (Proc.devRef (τ := τ) .tc)).toFinset := by
  simp only [hostOps5, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 5 leaves a buffer it does not write as it found it. -/
theorem keep5 (V : Valuation τ sig (Elt F)) (r : Ref sig .tc) (hr : r ∉ written5) :
    StableHlo.after hostOps5 V (Proc.devRef .tc r) = V (Proc.devRef .tc r) :=
  StableHlo.after_of_writes_sub hostOps5 V writes5 hr

/-- The buffers the operations of stretch 6 write. -/
def written6 : List (Ref sig .tc) :=
  [main_v73]

theorem writes6 : (hostOps6 : List (HloOp τ sig (Elt F))).Forall fun op => op.writes ⊆ ((written6).map (Proc.devRef (τ := τ) .tc)).toFinset := by
  simp only [hostOps6, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 6 leaves a buffer it does not write as it found it. -/
theorem keep6 (V : Valuation τ sig (Elt F)) (r : Ref sig .tc) (hr : r ∉ written6) :
    StableHlo.after hostOps6 V (Proc.devRef .tc r) = V (Proc.devRef .tc r) :=
  StableHlo.after_of_writes_sub hostOps6 V writes6 hr

/-- The buffers the operations of stretch 7 write. -/
def written7 : List (Ref sig .tc) :=
  [main_cst_14, main_v75, main_v76, main_v77, main_v78, main_v79]

theorem writes7 : (hostOps7 : List (HloOp τ sig (Elt F))).Forall fun op => op.writes ⊆ ((written7).map (Proc.devRef (τ := τ) .tc)).toFinset := by
  simp only [hostOps7, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map_of_mem (by decide)))

/-- Stretch 7 leaves a buffer it does not write as it found it. -/
theorem keep7 (V : Valuation τ sig (Elt F)) (r : Ref sig .tc) (hr : r ∉ written7) :
    StableHlo.after hostOps7 V (Proc.devRef .tc r) = V (Proc.devRef .tc r) :=
  StableHlo.after_of_writes_sub hostOps7 V writes7 hr

end Cert.KernelIdeal.Keep

end
-- ==== Proof.HostSide.lean ====
/-
  What each stretch of host operations of the kernel program leaves in the buffers the kernels read, as functions
  of the buffers the stretch reads: the same host operations the reference applies (`Cert.Spec`), whatever the
  contents the stretch is entered with.
-/
import proofs.«415408_j54211077210246_1_alg».proof.Proof.Gen.KernelIdeal.Launch
import proofs.«415408_j54211077210246_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-! ## Before the first kernel: the edge list's rows, `dinv` as a column, the edge weights as a column -/

set_option maxHeartbeats 4000000 in
theorem h0_src (W : Valuation τ sig (Elt F)) :
    StableHlo.after hostOps0 W (Proc.devRef .tc main_v1) = Cert.Spec.srcOf (F := F) (W (Proc.devRef .tc main_arg1)) := by
  after_results_simp
  rfl

set_option maxHeartbeats 4000000 in
theorem h0_dst (W : Valuation τ sig (Elt F)) :
    StableHlo.after hostOps0 W (Proc.devRef .tc main_v3) = Cert.Spec.dstOf (F := F) (W (Proc.devRef .tc main_arg1)) := by
  after_results_simp
  rfl

set_option maxHeartbeats 4000000 in
theorem h0_dinvCol (W : Valuation τ sig (Elt F)) :
    StableHlo.after hostOps0 W (Proc.devRef .tc main_v11) = Cert.Spec.dinvCol (F := F) (W (Proc.devRef .tc main_arg1)) := by
  after_results_simp
  rfl

set_option maxHeartbeats 4000000 in
theorem h0_normCol (W : Valuation τ sig (Elt F)) :
    StableHlo.after hostOps0 W (Proc.devRef .tc main_v27) = Cert.Spec.normCol (F := F) (W (Proc.devRef .tc main_arg1)) := by
  after_results_simp
  rfl

/-! ## Before each combine kernel: the neighbours' sum of the layer's product, and the bias as a row -/

set_option maxHeartbeats 4000000 in
theorem h1_agg (W : Valuation τ sig (Elt F)) :
    StableHlo.after hostOps1 W (Proc.devRef .tc main_v40)
      = Cert.Spec.aggOf (F := F) (W (Proc.devRef .tc main_v1)) (W (Proc.devRef .tc main_v3)) (W (Proc.devRef .tc main_v27)) (W (Proc.devRef .tc main_v28)) := by
  after_results_simp
  rfl

set_option maxHeartbeats 4000000 in
theorem h1_bias (W : Valuation τ sig (Elt F)) :
    StableHlo.after hostOps1 W (Proc.devRef .tc main_v41) = shapeCast S1x256 (W (Proc.devRef .tc main_arg4)) Facts₀.shapeCasts_S256_S1x256 := by
  after_results_simp
  rfl

set_option maxHeartbeats 4000000 in
theorem h3_agg (W : Valuation τ sig (Elt F)) :
    StableHlo.after hostOps3 W (Proc.devRef .tc main_v55)
      = Cert.Spec.aggOf (F := F) (W (Proc.devRef .tc main_v1)) (W (Proc.devRef .tc main_v3)) (W (Proc.devRef .tc main_v27)) (W (Proc.devRef .tc main_v43)) := by
  after_results_simp
  rfl

set_option maxHeartbeats 4000000 in
theorem h3_bias (W : Valuation τ sig (Elt F)) :
    StableHlo.after hostOps3 W (Proc.devRef .tc main_v56) = shapeCast S1x256 (W (Proc.devRef .tc main_arg6)) Facts₀.shapeCasts_S256_S1x256 := by
  after_results_simp
  rfl

set_option maxHeartbeats 4000000 in
theorem h5_agg (W : Valuation τ sig (Elt F)) :
    StableHlo.after hostOps5 W (Proc.devRef .tc main_v70)
      = Cert.Spec.aggOf (F := F) (W (Proc.devRef .tc main_v1)) (W (Proc.devRef .tc main_v3)) (W (Proc.devRef .tc main_v27)) (W (Proc.devRef .tc main_v58)) := by
  after_results_simp
  rfl

set_option maxHeartbeats 4000000 in
theorem h5_bias (W : Valuation τ sig (Elt F)) :
    StableHlo.after hostOps5 W (Proc.devRef .tc main_v71) = shapeCast S1x256 (W (Proc.devRef .tc main_arg8)) Facts₀.shapeCasts_S256_S1x256 := by
  after_results_simp
  rfl

/-! ## Before the pooling kernel: each node's graph as a column -/

set_option maxHeartbeats 4000000 in
theorem h6_batch (W : Valuation τ sig (Elt F)) :
    StableHlo.after hostOps6 W (Proc.devRef .tc main_v73) = shapeCast S50000x1 (W (Proc.devRef .tc main_arg2)) Facts₀.shapeCasts_S50000_S50000x1 := by
  after_results_simp
  rfl

/-! ## Before the output kernel: the mean from the pooling kernel's sum and count column, and the output bias as a row -/

set_option maxHeartbeats 4000000 in
theorem h7_mean (W : Valuation τ sig (Elt F)) :
    StableHlo.after hostOps7 W (Proc.devRef .tc main_v78)
      = Host.divf (W (Proc.devRef .tc main_v74_0)) (broadcastInDim S64x256 ![0, 1] Facts₀.bcast_S64x1_S64x256_0_1
          (maximumf (W (Proc.devRef .tc main_v74_1)) (broadcastInDim S64x1 ![] Facts₀.bcast_S_S64x1 (constant S_ .f32 0x3F800000#32)))) := by
  after_results_simp

set_option maxHeartbeats 4000000 in
theorem h7_bias (W : Valuation τ sig (Elt F)) :
    StableHlo.after hostOps7 W (Proc.devRef .tc main_v79) = shapeCast S1x768 (W (Proc.devRef .tc main_arg10)) Facts₀.shapeCasts_S768_S1x768 := by
  after_results_simp
  rfl

end Cert.KernelIdeal.HostSide

end
-- ==== Proof.Glue.lean ====
/-
  Two places where the kernel program lays a small array out by another operation than the reference does.
-/
import proofs.«415408_j54211077210246_1_alg».proof.KernelIdeal
import proofs.«415408_j54211077210246_1_alg».proof.Proof.Gen.KernelIdeal
import proofs.«415408_j54211077210246_1_alg».proof.Proof.Spec
import Idealize.ShloMosaic.Lib.ValueIdx
import Idealize.ShloMosaic.Lib.Pipeline.Value

noncomputable section

namespace Cert.KernelIdeal.Glue

open Idealize.ShloMosaic Idealize.ShloMosaic.TcCoe Idealize.ShloMosaic.ValueIdx
open Cert.KernelIdeal Cert.KernelIdeal.Gen

variable {F : FTy → Type} [FloatOps F]

/-- The node-to-graph words as a column: the reshape [50000] → [50000, 1] the kernel program applies is the
    broadcast along axis 0 the reference applies. -/
theorem batch_col (b : Cert.Spec.Arr (F := F) S50000 .i32) :
    shapeCast S50000x1 b Facts₀.shapeCasts_S50000_S50000x1 = Cert.Spec.batchCol (F := F) b := by
  funext j
  -- both sides read b at the row of j: the reshape keeps the row-major position, the broadcast keeps axis 0
  have h1 : (j 1).val = 0 := by
    have h := (j 1).isLt
    have e : (j 1).val < 1 := h
    omega
  have e1 := shapeCast_apply b Facts₀.shapeCasts_S50000_S50000x1 j (ix1 (j 0 : Fin 50000)) (by
    rw [Shape.rowMajor_val_two, Shape.rowMajor_val_one]
    show (j 0).val = (j 0).val * 1 + (j 1).val
    omega)
  refine e1.trans (Eq.symm ?_)
  unfold Cert.Spec.batchCol
  exact broadcastInDim_apply _ _ b j (ix1 (j 0 : Fin 50000)) (by
    intro a
    match a with
    | ⟨0, _⟩ => rfl)

/-- The mean from the count held as a column [64, 1] (as the pooling kernel leaves it): taking the maximum with 1 on the
    column and then spreading it over the features is the reference's maximum on the vector [64], made a column, spread. -/
theorem mean_of_col (s : Cert.Spec.Arr (F := Ideal) S64x256 .f32) (n : Cert.Spec.Arr (F := Ideal) Cert.ReferenceIdeal.S64 .f32) :
    Host.divf s (broadcastInDim S64x256 ![0, 1] Facts₀.bcast_S64x1_S64x256_0_1
        (maximumf (Cert.Spec.cntCol n) (broadcastInDim S64x1 ![] Facts₀.bcast_S_S64x1 (constant S_ .f32 0x3F800000#32))))
      = Cert.Spec.meanOf (F := Ideal) s n := by
  -- the maximum with 1 commutes with making the count a column: both read max (n g) 1 at (g, 0)
  have hcol : maximumf (Cert.Spec.cntCol n) (broadcastInDim S64x1 ![] Facts₀.bcast_S_S64x1 (constant S_ .f32 0x3F800000#32))
      = Cert.Spec.cntCol (F := Ideal) (maximumf (F := Ideal) n (broadcastInDim Cert.ReferenceIdeal.S64 ![] Cert.ReferenceIdeal.Facts₀.bcast_S_S64
          (constant S_ .f32 0x3F800000#32))) := by
    funext j
    unfold Cert.Spec.cntCol
    have hk : ∀ a : Fin 1, ((ix1 (j 0 : Fin 64)) a).val = if Cert.ReferenceIdeal.S64.size a = 1 then 0 else (j ((![0] : Fin 1 → Fin 2) a)).val := by
      intro a
      match a with
      | ⟨0, _⟩ => rfl
    rw [maximumf_apply]
    rw [broadcastInDim_apply _ _ n j (ix1 (j 0 : Fin 64)) hk]
    rw [broadcastInDim_apply _ _ (maximumf (F := Ideal) n _) j (ix1 (j 0 : Fin 64)) hk]
    rw [maximumf_apply]
    rfl
  unfold Cert.Spec.meanOf
  rw [hcol]

end Cert.KernelIdeal.Glue

end
-- ==== Proof.Lin0.lean ====
/-
  The first projection kernel. Over 25 grid points, point t multiplies rows 2000·t … 2000·t+1999 of x [50000, 768]
  by the whole of W1 [768, 256] into a zero accumulator and writes the product to the same rows of the output.
  Row i of the output is therefore Σ_k x[i, k] · W1[k, j], the host product `Cert.Spec.mmIn`.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Lin0

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## A matrix product read at an index

For dimension numbers that contract the left operand's axis 1 with the right operand's axis 0 and keep no batch axis,
the operand indices at output index (a, b) and contraction position c are (a, c) and (c, b). -/

section Product

variable {m k n : Nat} (D : DotDims ⟨2, ![m, k]⟩ ⟨2, ![k, n]⟩ ⟨2, ![m, n]⟩)

/-- One axis is contracted. -/
theorem contr_rank (hlc : D.lhsContracting = [1]) : D.contr.rank = 1 := by
  rw [D.rank_contr, hlc]; rfl

/-- Its extent is the operands' inner extent. -/
theorem contr_size (hlc : D.lhsContracting = [1]) : D.contr.size ⟨0, by rw [contr_rank D hlc]; exact Nat.one_pos⟩ = k := by
  rw [D.size_contr 0 (by rw [hlc]; exact Nat.one_pos)]
  simp [hlc]

/-- The left operand's row is the output's row. -/
theorem lhs_row (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln])

/-- The right operand's column is the output's column. -/
theorem rhs_col (hlb : D.lhsBatch = []) (hln : D.lhsNonContracting = [0]) (hrb : D.rhsBatch = []) (hrn : D.rhsNonContracting = [1])
    (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln, hrn])

/-- The sum over the contraction index is the sum over the inner coordinate of the products of the entries. -/
theorem sum_contr {φ₁ φ₂ : FTy} (hlb : D.lhsBatch = []) (hln : D.lhsNonContracting = [0]) (hlc : D.lhsContracting = [1])
    (hrb : D.rhsBatch = []) (hrn : D.rhsNonContracting = [1]) (hrc : D.rhsContracting = [0])
    (A : FVec Ideal ⟨2, ![m, k]⟩ φ₁) (B : FVec Ideal ⟨2, ![k, n]⟩ φ₂) (j : (⟨2, ![m, n]⟩ : Shape).Idx) :
    ∑ q : D.contr.Idx, A (D.lhsIdx j q) * B (D.rhsIdx j q) = ∑ c : Fin k, A (ix2 (j 0) c) * B (ix2 c (j 1)) := by
  rw [← Equiv.sum_comp (contrEquiv1 D k (contr_rank D hlc) (contr_size D hlc)).symm]
  refine Finset.sum_congr rfl fun c _ => ?_
  have hc := contrEquiv1_symm_val D k (contr_rank D hlc) (contr_size D hlc) c
  have hl : D.lhsIdx j ((contrEquiv1 D k (contr_rank D hlc) (contr_size D hlc)).symm c) = ix2 (j 0) c := by
    funext a; apply Fin.ext
    match a with
    | ⟨0, _⟩ => exact lhs_row D hlb hln j _
    | ⟨1, _⟩ => exact (D.lhsIdx_val_of_single hlc j _).trans hc
  have hr : D.rhsIdx j ((contrEquiv1 D k (contr_rank D hlc) (contr_size D hlc)).symm c) = ix2 c (j 1) := by
    funext a; apply Fin.ext
    match a with
    | ⟨0, _⟩ => exact (D.rhsIdx_val_of_single hrc j _).trans hc
    | ⟨1, _⟩ => exact rhs_col D hlb hln hrb hrn j _
  rw [hl, hr]
  rfl

end Product

/-! ## The two products of this region at an index -/

/-- The block product the body computes: a change of float format is the identity at the ideal values, and the
    accumulator is zero. -/
theorem pay_at (x0 : Vec Ideal S2000x768 .f32) (x1 : Vec Ideal S768x256 .f32) (j : S2000x256.Idx) :
    k0_pay1 x0 x1 j = ∑ c : Fin 768, x0 (ix2 (j 0) c) * x1 (ix2 c (j 1)) := by
  unfold k0_pay1
  refine (Ideal.matmul_constant_zero_apply dot_S2000x768_S768x256_S2000x256_1_0_0_1_n_n none
    (truncf (F := Ideal) .bf16 x0 bitsLt_bf16_f32) (truncf (F := Ideal) .bf16 x1 bitsLt_bf16_f32) j).trans ?_
  exact sum_contr dot_S2000x768_S768x256_S2000x256_1_0_0_1_n_n rfl rfl rfl rfl rfl rfl
    (truncf (F := Ideal) .bf16 x0 bitsLt_bf16_f32) (truncf (F := Ideal) .bf16 x1 bitsLt_bf16_f32) j

/-- The host product at an index. -/
theorem mm_at (X : Cert.Spec.Arr (F := Ideal) S50000x768 .f32) (W : Cert.Spec.Arr (F := Ideal) S768x256 .f32) (i : S50000x256.Idx) :
    Cert.Spec.mmIn (F := Ideal) X W i = ∑ c : Fin 768, X (ix2 (i 0) c) * W (ix2 c (i 1)) := by
  unfold Cert.Spec.mmIn
  refine (Ideal.dotGeneral_apply Cert.ReferenceIdeal.dot_S50000x768_S768x256_S50000x256_1_0_0_1_n_n none _ X W i).trans ?_
  exact sum_contr Cert.ReferenceIdeal.dot_S50000x768_S768x256_S50000x256_1_0_0_1_n_n rfl rfl rfl rfl rfl rfl X W i

/-! ## From blocks to the array -/

theorem origin2 : (![0, 0] : Fin 2 → Nat) = fun _ => 0 := funext fun a => by fin_cases a <;> rfl

/-- What the body leaves in the output block, at an index: its one store covers the block. -/
theorem out_at (x0 : Vec Ideal S2000x768 .f32) (x1 : Vec Ideal S768x256 .f32) (j : S2000x256.Idx) :
    out0_2 x0 x1 j = ∑ c : Fin 768, x0 (ix2 (j 0) c) * x1 (ix2 c (j 1)) := by
  unfold out0_2
  rw [View.canon_unit_zero origin2]
  simp only [View.ld_unit_zero (S := S2000x768) origin2, View.ld_unit_zero (S := S768x256) origin2]
  exact pay_at x0 x1 j

/-- The index maps over the grid: point t takes row block t of x and of the output, and all of W. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Point t writes back block t of the host product of the two arrays. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.mmIn (F := Ideal) (V c main_arg0) (V c main_arg3)) := by
  show (cfg0.win 2).cut (grid0.coords t) ((dat0 V c).after 2 t) = _
  rw [after0_2]
  obtain ⟨e20, e21, e00, e01, e10, e11⟩ := idx_facts t
  funext y
  refine (out_at (iblk0 V c 0 t) (iblk0 V c 1 t) ((cfg0.win 2).xinj (grid0.coords t) y)).trans
    ((Finset.sum_congr rfl fun k _ => ?_).trans
      (mm_at (V c main_arg0) (V c main_arg3) (((cfg0.win 2).blk t).view.emb y)).symm)
  have h0 : iblk0 V c 0 t (ix2 ((cfg0.win 2).xinj (grid0.coords t) y 0) k)
      = V c main_arg0 (ix2 (((cfg0.win 2).blk t).view.emb y 0) k) := by
    show V c main_arg0 (((cfg0.win 0).blk t).view.emb (ix2 ((cfg0.win 2).xinj (grid0.coords t) y 0) k)) = _
    refine congrArg (V c main_arg0) (funext fun a => Fin.ext ?_)
    match a with
    | ⟨0, _⟩ =>
      show win0_0.index t (0 : Fin 2) * 2000 + 1 * (y 0).val = win0_2.index t (0 : Fin 2) * 2000 + 1 * (y 0).val
      omega
    | ⟨1, _⟩ =>
      show win0_0.index t (1 : Fin 2) * 768 + 1 * k.val = k.val
      omega
  have h1 : iblk0 V c 1 t (ix2 k ((cfg0.win 2).xinj (grid0.coords t) y 1))
      = V c main_arg3 (ix2 k (((cfg0.win 2).blk t).view.emb y 1)) := by
    show V c main_arg3 (((cfg0.win 1).blk t).view.emb (ix2 k ((cfg0.win 2).xinj (grid0.coords t) y 1))) = _
    refine congrArg (V c main_arg3) (funext fun a => Fin.ext ?_)
    match a with
    | ⟨0, _⟩ =>
      show win0_1.index t (0 : Fin 2) * 768 + 1 * k.val = k.val
      omega
    | ⟨1, _⟩ =>
      show win0_1.index t (1 : Fin 2) * 256 + 1 * (y 1).val = win0_2.index t (1 : Fin 2) * 256 + 1 * (y 1).val
      omega
  rw [h0, h1]

/-- An index of the array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v28).slice (win0_2.rect t)).set ↔ _
  rw [View.set_slice_whole, Rect.mem_set_unit]
  exact Iff.rfl

/-- Row r of the array lies in the block of point r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨e20, e21, -⟩ := idx_facts t
  have ht : (t : Nat) = (i 0).val / 2000 := rfl
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- After region 0 its output array is the product of its two input arrays as the region finds them. -/
theorem lin0_value (V : (c : Dev nD) → (b : Ref sig .tc) → Buf (Elt Ideal) ((c : Thread nD τ).loc b)) (c : Dev nD) :
    (dat0 (F := Ideal) V c).arrAt 2 cfg0.N = Cert.Spec.mmIn (F := Ideal) (V c main_arg0) (V c main_arg3) :=
  (dat0 (F := Ideal) V c).arrAt_eq_of_cover 2 (Cert.Spec.mmIn (F := Ideal) (V c main_arg0) (V c main_arg3))
    (fun t _ => flushed_eq V c t) cover

end Cert.KernelIdeal.Lin0

end
-- ==== Proof.Lin2.lean ====
/-
  The second projection kernel: rows 2000·t … 2000·t+1999 of h [50000, 256] times the whole of W2 [256, 256] per grid
  point t, so the output is the host product `Cert.Spec.mmHid` of its two inputs.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Lin2

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## A matrix product read at an index

For dimension numbers that contract the left operand's axis 1 with the right operand's axis 0 and keep no batch axis,
the operand indices at output index (a, b) and contraction position c are (a, c) and (c, b). -/

section Product

variable {m k n : Nat} (D : DotDims ⟨2, ![m, k]⟩ ⟨2, ![k, n]⟩ ⟨2, ![m, n]⟩)

/-- One axis is contracted. -/
theorem contr_rank (hlc : D.lhsContracting = [1]) : D.contr.rank = 1 := by
  rw [D.rank_contr, hlc]; rfl

/-- Its extent is the operands' inner extent. -/
theorem contr_size (hlc : D.lhsContracting = [1]) : D.contr.size ⟨0, by rw [contr_rank D hlc]; exact Nat.one_pos⟩ = k := by
  rw [D.size_contr 0 (by rw [hlc]; exact Nat.one_pos)]
  simp [hlc]

/-- The left operand's row is the output's row. -/
theorem lhs_row (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln])

/-- The right operand's column is the output's column. -/
theorem rhs_col (hlb : D.lhsBatch = []) (hln : D.lhsNonContracting = [0]) (hrb : D.rhsBatch = []) (hrn : D.rhsNonContracting = [1])
    (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln, hrn])

/-- The sum over the contraction index is the sum over the inner coordinate of the products of the entries. -/
theorem sum_contr {φ₁ φ₂ : FTy} (hlb : D.lhsBatch = []) (hln : D.lhsNonContracting = [0]) (hlc : D.lhsContracting = [1])
    (hrb : D.rhsBatch = []) (hrn : D.rhsNonContracting = [1]) (hrc : D.rhsContracting = [0])
    (A : FVec Ideal ⟨2, ![m, k]⟩ φ₁) (B : FVec Ideal ⟨2, ![k, n]⟩ φ₂) (j : (⟨2, ![m, n]⟩ : Shape).Idx) :
    ∑ q : D.contr.Idx, A (D.lhsIdx j q) * B (D.rhsIdx j q) = ∑ c : Fin k, A (ix2 (j 0) c) * B (ix2 c (j 1)) := by
  rw [← Equiv.sum_comp (contrEquiv1 D k (contr_rank D hlc) (contr_size D hlc)).symm]
  refine Finset.sum_congr rfl fun c _ => ?_
  have hc := contrEquiv1_symm_val D k (contr_rank D hlc) (contr_size D hlc) c
  have hl : D.lhsIdx j ((contrEquiv1 D k (contr_rank D hlc) (contr_size D hlc)).symm c) = ix2 (j 0) c := by
    funext a; apply Fin.ext
    match a with
    | ⟨0, _⟩ => exact lhs_row D hlb hln j _
    | ⟨1, _⟩ => exact (D.lhsIdx_val_of_single hlc j _).trans hc
  have hr : D.rhsIdx j ((contrEquiv1 D k (contr_rank D hlc) (contr_size D hlc)).symm c) = ix2 c (j 1) := by
    funext a; apply Fin.ext
    match a with
    | ⟨0, _⟩ => exact (D.rhsIdx_val_of_single hrc j _).trans hc
    | ⟨1, _⟩ => exact rhs_col D hlb hln hrb hrn j _
  rw [hl, hr]
  rfl

end Product

/-! ## The two products of this region at an index -/

/-- The block product the body computes: a reshape to the same shape and a change of float format are the identity at
    the ideal values, and the accumulator is zero. -/
theorem pay_at (x0 : Vec Ideal S2000x256 .f32) (x1 : Vec Ideal S256x256 .f32) (j : S2000x256.Idx) :
    k2_pay1 x0 x1 j = ∑ c : Fin 256, x0 (ix2 (j 0) c) * x1 (ix2 c (j 1)) := by
  unfold k2_pay1
  refine (Ideal.matmul_constant_zero_apply dot_S2000x256_S256x256_S2000x256_1_0_0_1_n_n none
    (truncf (F := Ideal) .bf16 (shapeCast S2000x256 x0 shapeCasts_S2000x256_S2000x256) bitsLt_bf16_f32)
    (truncf (F := Ideal) .bf16 x1 bitsLt_bf16_f32) j).trans ?_
  rw [shapeCast_self x0 shapeCasts_S2000x256_S2000x256]
  exact sum_contr dot_S2000x256_S256x256_S2000x256_1_0_0_1_n_n rfl rfl rfl rfl rfl rfl
    (truncf (F := Ideal) .bf16 x0 bitsLt_bf16_f32) (truncf (F := Ideal) .bf16 x1 bitsLt_bf16_f32) j

/-- The host product at an index. -/
theorem mm_at (X : Cert.Spec.Arr (F := Ideal) S50000x256 .f32) (W : Cert.Spec.Arr (F := Ideal) S256x256 .f32) (i : S50000x256.Idx) :
    Cert.Spec.mmHid (F := Ideal) X W i = ∑ c : Fin 256, X (ix2 (i 0) c) * W (ix2 c (i 1)) := by
  unfold Cert.Spec.mmHid
  refine (Ideal.dotGeneral_apply Cert.ReferenceIdeal.dot_S50000x256_S256x256_S50000x256_1_0_0_1_n_n none _ X W i).trans ?_
  exact sum_contr Cert.ReferenceIdeal.dot_S50000x256_S256x256_S50000x256_1_0_0_1_n_n rfl rfl rfl rfl rfl rfl X W i

/-! ## From blocks to the array -/

theorem origin2 : (![0, 0] : Fin 2 → Nat) = fun _ => 0 := funext fun a => by fin_cases a <;> rfl

/-- What the body leaves in the output block, at an index: its one store covers the block. -/
theorem out_at (x0 : Vec Ideal S2000x256 .f32) (x1 : Vec Ideal S256x256 .f32) (j : S2000x256.Idx) :
    out2_2 x0 x1 j = ∑ c : Fin 256, x0 (ix2 (j 0) c) * x1 (ix2 c (j 1)) := by
  unfold out2_2
  rw [View.canon_unit_zero origin2]
  simp only [View.ld_unit_zero (S := S2000x256) origin2, View.ld_unit_zero (S := S256x256) origin2]
  exact pay_at x0 x1 j

/-- The index maps over the grid: point t takes row block t of h and of the output, and all of W. -/
theorem idx_facts : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Point t writes back block t of the host product of the two arrays. -/
theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.mmHid (F := Ideal) (V c main_v42) (V c main_arg5)) := by
  show (cfg2.win 2).cut (grid2.coords t) ((dat2 V c).after 2 t) = _
  rw [after2_2]
  obtain ⟨e20, e21, e00, e01, e10, e11⟩ := idx_facts t
  funext y
  refine (out_at (iblk2 V c 0 t) (iblk2 V c 1 t) ((cfg2.win 2).xinj (grid2.coords t) y)).trans
    ((Finset.sum_congr rfl fun k _ => ?_).trans
      (mm_at (V c main_v42) (V c main_arg5) (((cfg2.win 2).blk t).view.emb y)).symm)
  have h0 : iblk2 V c 0 t (ix2 ((cfg2.win 2).xinj (grid2.coords t) y 0) k)
      = V c main_v42 (ix2 (((cfg2.win 2).blk t).view.emb y 0) k) := by
    show V c main_v42 (((cfg2.win 0).blk t).view.emb (ix2 ((cfg2.win 2).xinj (grid2.coords t) y 0) k)) = _
    refine congrArg (V c main_v42) (funext fun a => Fin.ext ?_)
    match a with
    | ⟨0, _⟩ =>
      show win2_0.index t (0 : Fin 2) * 2000 + 1 * (y 0).val = win2_2.index t (0 : Fin 2) * 2000 + 1 * (y 0).val
      omega
    | ⟨1, _⟩ =>
      show win2_0.index t (1 : Fin 2) * 256 + 1 * k.val = k.val
      omega
  have h1 : iblk2 V c 1 t (ix2 k ((cfg2.win 2).xinj (grid2.coords t) y 1))
      = V c main_arg5 (ix2 k (((cfg2.win 2).blk t).view.emb y 1)) := by
    show V c main_arg5 (((cfg2.win 1).blk t).view.emb (ix2 k ((cfg2.win 2).xinj (grid2.coords t) y 1))) = _
    refine congrArg (V c main_arg5) (funext fun a => Fin.ext ?_)
    match a with
    | ⟨0, _⟩ =>
      show win2_1.index t (0 : Fin 2) * 256 + 1 * k.val = k.val
      omega
    | ⟨1, _⟩ =>
      show win2_1.index t (1 : Fin 2) * 256 + 1 * (y 1).val = win2_2.index t (1 : Fin 2) * 256 + 1 * (y 1).val
      omega
  rw [h0, h1]

/-- An index of the array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v43).slice (win2_2.rect t)).set ↔ _
  rw [View.set_slice_whole, Rect.mem_set_unit]
  exact Iff.rfl

/-- Row r of the array lies in the block of point r / 2000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 25 := N_2
  let t : Fin cfg2.N := ⟨(i 0).val / 2000, by show (i 0).val / 2000 < grid2.N; omega⟩
  obtain ⟨e20, e21, -⟩ := idx_facts t
  have ht : (t : Nat) = (i 0).val / 2000 := rfl
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- After region 2 its output array is the product of its two input arrays as the region finds them. -/
theorem lin2_value (V : (c : Dev nD) → (b : Ref sig .tc) → Buf (Elt Ideal) ((c : Thread nD τ).loc b)) (c : Dev nD) :
    (dat2 (F := Ideal) V c).arrAt 2 cfg2.N = Cert.Spec.mmHid (F := Ideal) (V c main_v42) (V c main_arg5) :=
  (dat2 (F := Ideal) V c).arrAt_eq_of_cover 2 (Cert.Spec.mmHid (F := Ideal) (V c main_v42) (V c main_arg5))
    (fun t _ => flushed_eq V c t) cover

end Cert.KernelIdeal.Lin2

end
-- ==== Proof.Lin4.lean ====
/-
  The third projection kernel: rows 2000·t … 2000·t+1999 of h [50000, 256] times the whole of W3 [256, 256] per grid
  point t, so the output is the host product `Cert.Spec.mmHid` of its two inputs.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Lin4

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## A matrix product read at an index

For dimension numbers that contract the left operand's axis 1 with the right operand's axis 0 and keep no batch axis,
the operand indices at output index (a, b) and contraction position c are (a, c) and (c, b). -/

section Product

variable {m k n : Nat} (D : DotDims ⟨2, ![m, k]⟩ ⟨2, ![k, n]⟩ ⟨2, ![m, n]⟩)

/-- One axis is contracted. -/
theorem contr_rank (hlc : D.lhsContracting = [1]) : D.contr.rank = 1 := by
  rw [D.rank_contr, hlc]; rfl

/-- Its extent is the operands' inner extent. -/
theorem contr_size (hlc : D.lhsContracting = [1]) : D.contr.size ⟨0, by rw [contr_rank D hlc]; exact Nat.one_pos⟩ = k := by
  rw [D.size_contr 0 (by rw [hlc]; exact Nat.one_pos)]
  simp [hlc]

/-- The left operand's row is the output's row. -/
theorem lhs_row (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln])

/-- The right operand's column is the output's column. -/
theorem rhs_col (hlb : D.lhsBatch = []) (hln : D.lhsNonContracting = [0]) (hrb : D.rhsBatch = []) (hrn : D.rhsNonContracting = [1])
    (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln, hrn])

/-- The sum over the contraction index is the sum over the inner coordinate of the products of the entries. -/
theorem sum_contr {φ₁ φ₂ : FTy} (hlb : D.lhsBatch = []) (hln : D.lhsNonContracting = [0]) (hlc : D.lhsContracting = [1])
    (hrb : D.rhsBatch = []) (hrn : D.rhsNonContracting = [1]) (hrc : D.rhsContracting = [0])
    (A : FVec Ideal ⟨2, ![m, k]⟩ φ₁) (B : FVec Ideal ⟨2, ![k, n]⟩ φ₂) (j : (⟨2, ![m, n]⟩ : Shape).Idx) :
    ∑ q : D.contr.Idx, A (D.lhsIdx j q) * B (D.rhsIdx j q) = ∑ c : Fin k, A (ix2 (j 0) c) * B (ix2 c (j 1)) := by
  rw [← Equiv.sum_comp (contrEquiv1 D k (contr_rank D hlc) (contr_size D hlc)).symm]
  refine Finset.sum_congr rfl fun c _ => ?_
  have hc := contrEquiv1_symm_val D k (contr_rank D hlc) (contr_size D hlc) c
  have hl : D.lhsIdx j ((contrEquiv1 D k (contr_rank D hlc) (contr_size D hlc)).symm c) = ix2 (j 0) c := by
    funext a; apply Fin.ext
    match a with
    | ⟨0, _⟩ => exact lhs_row D hlb hln j _
    | ⟨1, _⟩ => exact (D.lhsIdx_val_of_single hlc j _).trans hc
  have hr : D.rhsIdx j ((contrEquiv1 D k (contr_rank D hlc) (contr_size D hlc)).symm c) = ix2 c (j 1) := by
    funext a; apply Fin.ext
    match a with
    | ⟨0, _⟩ => exact (D.rhsIdx_val_of_single hrc j _).trans hc
    | ⟨1, _⟩ => exact rhs_col D hlb hln hrb hrn j _
  rw [hl, hr]
  rfl

end Product

/-! ## The two products of this region at an index -/

/-- The block product the body computes: a reshape to the same shape and a change of float format are the identity at
    the ideal values, and the accumulator is zero. -/
theorem pay_at (x0 : Vec Ideal S2000x256 .f32) (x1 : Vec Ideal S256x256 .f32) (j : S2000x256.Idx) :
    k4_pay1 x0 x1 j = ∑ c : Fin 256, x0 (ix2 (j 0) c) * x1 (ix2 c (j 1)) := by
  unfold k4_pay1
  refine (Ideal.matmul_constant_zero_apply dot_S2000x256_S256x256_S2000x256_1_0_0_1_n_n none
    (truncf (F := Ideal) .bf16 (shapeCast S2000x256 x0 shapeCasts_S2000x256_S2000x256) bitsLt_bf16_f32)
    (truncf (F := Ideal) .bf16 x1 bitsLt_bf16_f32) j).trans ?_
  rw [shapeCast_self x0 shapeCasts_S2000x256_S2000x256]
  exact sum_contr dot_S2000x256_S256x256_S2000x256_1_0_0_1_n_n rfl rfl rfl rfl rfl rfl
    (truncf (F := Ideal) .bf16 x0 bitsLt_bf16_f32) (truncf (F := Ideal) .bf16 x1 bitsLt_bf16_f32) j

/-- The host product at an index. -/
theorem mm_at (X : Cert.Spec.Arr (F := Ideal) S50000x256 .f32) (W : Cert.Spec.Arr (F := Ideal) S256x256 .f32) (i : S50000x256.Idx) :
    Cert.Spec.mmHid (F := Ideal) X W i = ∑ c : Fin 256, X (ix2 (i 0) c) * W (ix2 c (i 1)) := by
  unfold Cert.Spec.mmHid
  refine (Ideal.dotGeneral_apply Cert.ReferenceIdeal.dot_S50000x256_S256x256_S50000x256_1_0_0_1_n_n none _ X W i).trans ?_
  exact sum_contr Cert.ReferenceIdeal.dot_S50000x256_S256x256_S50000x256_1_0_0_1_n_n rfl rfl rfl rfl rfl rfl X W i

/-! ## From blocks to the array -/

theorem origin2 : (![0, 0] : Fin 2 → Nat) = fun _ => 0 := funext fun a => by fin_cases a <;> rfl

/-- What the body leaves in the output block, at an index: its one store covers the block. -/
theorem out_at (x0 : Vec Ideal S2000x256 .f32) (x1 : Vec Ideal S256x256 .f32) (j : S2000x256.Idx) :
    out4_2 x0 x1 j = ∑ c : Fin 256, x0 (ix2 (j 0) c) * x1 (ix2 c (j 1)) := by
  unfold out4_2
  rw [View.canon_unit_zero origin2]
  simp only [View.ld_unit_zero (S := S2000x256) origin2, View.ld_unit_zero (S := S256x256) origin2]
  exact pay_at x0 x1 j

/-- The index maps over the grid: point t takes row block t of h and of the output, and all of W. -/
theorem idx_facts : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Point t writes back block t of the host product of the two arrays. -/
theorem flushed_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.Spec.mmHid (F := Ideal) (V c main_v57) (V c main_arg7)) := by
  show (cfg4.win 2).cut (grid4.coords t) ((dat4 V c).after 2 t) = _
  rw [after4_2]
  obtain ⟨e20, e21, e00, e01, e10, e11⟩ := idx_facts t
  funext y
  refine (out_at (iblk4 V c 0 t) (iblk4 V c 1 t) ((cfg4.win 2).xinj (grid4.coords t) y)).trans
    ((Finset.sum_congr rfl fun k _ => ?_).trans
      (mm_at (V c main_v57) (V c main_arg7) (((cfg4.win 2).blk t).view.emb y)).symm)
  have h0 : iblk4 V c 0 t (ix2 ((cfg4.win 2).xinj (grid4.coords t) y 0) k)
      = V c main_v57 (ix2 (((cfg4.win 2).blk t).view.emb y 0) k) := by
    show V c main_v57 (((cfg4.win 0).blk t).view.emb (ix2 ((cfg4.win 2).xinj (grid4.coords t) y 0) k)) = _
    refine congrArg (V c main_v57) (funext fun a => Fin.ext ?_)
    match a with
    | ⟨0, _⟩ =>
      show win4_0.index t (0 : Fin 2) * 2000 + 1 * (y 0).val = win4_2.index t (0 : Fin 2) * 2000 + 1 * (y 0).val
      omega
    | ⟨1, _⟩ =>
      show win4_0.index t (1 : Fin 2) * 256 + 1 * k.val = k.val
      omega
  have h1 : iblk4 V c 1 t (ix2 k ((cfg4.win 2).xinj (grid4.coords t) y 1))
      = V c main_arg7 (ix2 k (((cfg4.win 2).blk t).view.emb y 1)) := by
    show V c main_arg7 (((cfg4.win 1).blk t).view.emb (ix2 k ((cfg4.win 2).xinj (grid4.coords t) y 1))) = _
    refine congrArg (V c main_arg7) (funext fun a => Fin.ext ?_)
    match a with
    | ⟨0, _⟩ =>
      show win4_1.index t (0 : Fin 2) * 256 + 1 * k.val = k.val
      omega
    | ⟨1, _⟩ =>
      show win4_1.index t (1 : Fin 2) * 256 + 1 * (y 1).val = win4_2.index t (1 : Fin 2) * 256 + 1 * (y 1).val
      omega
  rw [h0, h1]

/-- An index of the array is in point t's block iff each coordinate is in the block's range on its axis. -/
theorem mem_blk (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v58).slice (win4_2.rect t)).set ↔ _
  rw [View.set_slice_whole, Rect.mem_set_unit]
  exact Iff.rfl

/-- Row r of the array lies in the block of point r / 2000. -/
theorem cover (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : grid4.N = 25 := N_4
  let t : Fin cfg4.N := ⟨(i 0).val / 2000, by show (i 0).val / 2000 < grid4.N; omega⟩
  obtain ⟨e20, e21, -⟩ := idx_facts t
  have ht : (t : Nat) = (i 0).val / 2000 := rfl
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 256 ≤ (i 1).val ∧ (i 1).val < win4_2.index t (1 : Fin 2) * 256 + 256
    omega

/-- After region 4 its output array is the product of its two input arrays as the region finds them. -/
theorem lin4_value (V : (c : Dev nD) → (b : Ref sig .tc) → Buf (Elt Ideal) ((c : Thread nD τ).loc b)) (c : Dev nD) :
    (dat4 (F := Ideal) V c).arrAt 2 cfg4.N = Cert.Spec.mmHid (F := Ideal) (V c main_v57) (V c main_arg7) :=
  (dat4 (F := Ideal) V c).arrAt_eq_of_cover 2 (Cert.Spec.mmHid (F := Ideal) (V c main_v57) (V c main_arg7))
    (fun t _ => flushed_eq V c t) cover

end Cert.KernelIdeal.Lin4

end
-- ==== Proof.Comb1.lean ====
/-
  The first combine kernel, pointwise on row blocks of 2000: out[i, j] = max((a[i, j] + (d[i, 0] · d[i, 0]) · h[i, j]) + b[0, j], 0)
  from the neighbours' sum a, the projection h, a column d [50000, 1] and a bias row b [1, 256]. When the column is a
  per-node vector laid out as a column and the row a bias vector reshaped, this is `relu (combine d a h b)` of `Cert.Spec`.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Comb1

open Idealize.ShloMosaic Idealize.ShloMosaic.TcCoe Idealize.SL.Sem
open Idealize.ShloMosaic.Pipeline (Dat Cfg Window)
open Cert.KernelIdeal Cert.KernelIdeal.Gen
open Idealize.ShloMosaic.ValueIdx

theorem hz : (![0, 0] : Fin 2 → Nat) = fun _ => 0 := funext fun a => by fin_cases a <;> rfl

/-! ## The body's arithmetic and the layer, each at one index -/

/-- The body's arithmetic read at a block index: row `p` of the column, column `q` of the bias row. -/
theorem pay_apply (x0 : Vec Ideal S2000x1 .f32) (x2 x5 : Vec Ideal S2000x256 .f32) (x10 : Vec Ideal S1x256 .f32)
    (p : Fin 2000) (q : Fin 256) :
    k1_pay1 x0 x2 x5 x10 (ix2 p q)
      = max ((x2 (ix2 p q) + (x0 (ix2 p 0) * x0 (ix2 p 0)) * x5 (ix2 p q)) + x10 (ix2 0 q)) (Ideal.ofBits .f32 0x00000000#32) := by
  unfold k1_pay1
  simp only [shapeCast_self]
  rw [maximumf_apply, addf_apply, addf_apply, mulf_apply, broadcast_apply]
  rw [broadcastTo_apply _ broadcasts_S2000x1_S2000x256 (ix2 p q) (ix2 p 0)
      (fun a => by match a with | ⟨0, _⟩ => rfl | ⟨1, _⟩ => rfl),
    broadcastTo_apply _ broadcasts_S1x256_S2000x256 (ix2 p q) (ix2 0 q)
      (fun a => by match a with | ⟨0, _⟩ => rfl | ⟨1, _⟩ => rfl),
    mulf_apply]
  rfl

/-- The layer read at node `r` and feature `q`. -/
theorem layer_apply (d : Cert.Spec.Arr (F := Ideal) S50000 .f32) (A H : Cert.Spec.Arr (F := Ideal) S50000x256 .f32)
    (b : Cert.Spec.Arr (F := Ideal) S256 .f32) (r : Fin 50000) (q : Fin 256) :
    Cert.Spec.relu (Cert.Spec.combine d A H b) (ix2 r q)
      = max ((A (ix2 r q) + (d (ix1 r) * d (ix1 r)) * H (ix2 r q)) + b (ix1 q)) (Ideal.ofBits .f32 0x00000000#32) := by
  unfold Cert.Spec.relu Cert.Spec.combine Cert.Spec.zeroNodes Cert.Spec.colOf
  rw [maximumf_apply, addf_apply, addf_apply, mulf_apply]
  rw [broadcastInDim_apply _ Cert.ReferenceIdeal.Gen.bcast_S_S50000x256 _ (ix2 r q) ix0 (fun a => a.elim0), constant_apply]
  rw [broadcastInDim_apply _ Cert.ReferenceIdeal.Gen.bcast_S50000x1_S50000x256_0_1 _ (ix2 r q) (ix2 r 0)
      (fun a => by match a with | ⟨0, _⟩ => rfl | ⟨1, _⟩ => rfl),
    broadcastInDim_apply _ Cert.ReferenceIdeal.Gen.bcast_S50000_S50000x1_0 _ (ix2 r 0) (ix1 r)
      (fun a => by match a with | ⟨0, _⟩ => rfl),
    mulf_apply]
  rw [broadcastInDim_apply _ Cert.ReferenceIdeal.Gen.bcast_S1x256_S50000x256_0_1 _ (ix2 r q) (ix2 0 q)
      (fun a => by match a with | ⟨0, _⟩ => rfl | ⟨1, _⟩ => rfl),
    broadcastInDim_apply _ Cert.ReferenceIdeal.Gen.bcast_S256_S1x256_1 _ (ix2 0 q) (ix1 q)
      (fun a => by match a with | ⟨0, _⟩ => rfl)]

/-- A per-node vector laid out as a column, read at row `r`. -/
theorem col_apply (d : Cert.Spec.Arr (F := Ideal) S50000 .f32) (r : Fin 50000) : Cert.Spec.colOf d (ix2 r 0) = d (ix1 r) := by
  unfold Cert.Spec.colOf
  exact broadcastInDim_apply _ Cert.ReferenceIdeal.Gen.bcast_S50000_S50000x1_0 _ (ix2 r 0) (ix1 r)
    (fun a => by match a with | ⟨0, _⟩ => rfl)

/-- A bias vector reshaped to one row, read at column `q`. -/
theorem row_apply (b : Cert.Spec.Arr (F := Ideal) S256 .f32) (q : Fin 256) :
    shapeCast S1x256 b Facts₀.shapeCasts_S256_S1x256 (ix2 0 q) = b (ix1 q) :=
  shapeCast_apply b Facts₀.shapeCasts_S256_S1x256 (ix2 0 q) (ix1 q) (by
    rw [Shape.rowMajor_val_one, Shape.rowMajor_val_two]
    show q.val = 0 * 256 + q.val
    omega)

/-! ## The blocks in the arrays -/

/-- The index maps over the 25 grid points: the row-blocked inputs and the output sit at block (t, 0), the bias row at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the neighbours' sum's block at point `t` is row `2000 t + p` of the array. -/
theorem read_sum (A : S50000x256.Idx → Elt Ideal .f32) (t : Fin cfg1.N) (p : Fin 2000) (q : Fin 256) (r : Fin 50000)
    (hr : r.val = t.val * 2000 + p.val) : ((cfg1.win 0).blk t).view.read (Elt Ideal) A (ix2 p q) = A (ix2 r q) := by
  obtain ⟨e0, e1, -⟩ := idx_facts t
  show A (((cfg1.win 0).blk t).view.emb (ix2 p q)) = A (ix2 r q)
  refine congrArg A (funext fun a => Fin.ext ?_)
  match a with
  | ⟨0, _⟩ => show win1_0.index t (0 : Fin 2) * 2000 + 1 * p.val = r.val; omega
  | ⟨1, _⟩ => show win1_0.index t (1 : Fin 2) * 256 + 1 * q.val = q.val; omega

/-- The same for the projection's block. -/
theorem read_proj (A : S50000x256.Idx → Elt Ideal .f32) (t : Fin cfg1.N) (p : Fin 2000) (q : Fin 256) (r : Fin 50000)
    (hr : r.val = t.val * 2000 + p.val) : ((cfg1.win 1).blk t).view.read (Elt Ideal) A (ix2 p q) = A (ix2 r q) := by
  obtain ⟨-, -, e0, e1, -⟩ := idx_facts t
  show A (((cfg1.win 1).blk t).view.emb (ix2 p q)) = A (ix2 r q)
  refine congrArg A (funext fun a => Fin.ext ?_)
  match a with
  | ⟨0, _⟩ => show win1_1.index t (0 : Fin 2) * 2000 + 1 * p.val = r.val; omega
  | ⟨1, _⟩ => show win1_1.index t (1 : Fin 2) * 256 + 1 * q.val = q.val; omega

/-- Row `p` of the column's block at point `t` is row `2000 t + p` of the column. -/
theorem read_col (A : S50000x1.Idx → Elt Ideal .f32) (t : Fin cfg1.N) (p : Fin 2000) (r : Fin 50000)
    (hr : r.val = t.val * 2000 + p.val) : ((cfg1.win 2).blk t).view.read (Elt Ideal) A (ix2 p 0) = A (ix2 r 0) := by
  obtain ⟨-, -, -, -, e0, e1, -⟩ := idx_facts t
  show A (((cfg1.win 2).blk t).view.emb (ix2 p 0)) = A (ix2 r 0)
  refine congrArg A (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The bias row's block is the whole row at every point. -/
theorem read_row (A : S1x256.Idx → Elt Ideal .f32) (t : Fin cfg1.N) (q : Fin 256) :
    ((cfg1.win 3).blk t).view.read (Elt Ideal) A (ix2 0 q) = A (ix2 0 q) := by
  obtain ⟨-, -, -, -, -, -, e0, e1, -⟩ := idx_facts t
  show A (((cfg1.win 3).blk t).view.emb (ix2 0 q)) = A (ix2 0 q)
  refine congrArg A (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- What point `t` writes back is block `t` of the layer of the region's inputs. -/
theorem flushed_eq (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v41 = shapeCast S1x256 b Facts₀.shapeCasts_S256_S1x256)
    (t : Fin cfg1.N) :
    (dat1 (F := Ideal) V c).flushed 4 t
      = ((cfg1.win 4).blk t).view.read (Elt Ideal) (Cert.Spec.relu (Cert.Spec.combine d (V c main_v40) (V c main_v28) b)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  have hN : t.val < 25 := Nat.lt_of_lt_of_eq t.isLt N_1
  funext j
  have hj0 : (j 0).val < 2000 := (j 0).isLt
  have hj1 : (j 1).val < 256 := (j 1).isLt
  obtain ⟨p, hp⟩ : ∃ p : Fin 2000, p.val = (j 0).val := ⟨⟨(j 0).val, hj0⟩, rfl⟩
  obtain ⟨q, hq⟩ : ∃ q : Fin 256, q.val = (j 1).val := ⟨⟨(j 1).val, hj1⟩, rfl⟩
  obtain ⟨r, hr⟩ : ∃ r : Fin 50000, r.val = t.val * 2000 + p.val := ⟨⟨t.val * 2000 + p.val, by have := p.isLt; omega⟩, rfl⟩
  have hx : (cfg1.win 4).xinj (grid1.coords t) j = ix2 p q := funext fun a => Fin.ext (by
    match a with
    | ⟨0, _⟩ => exact hp.symm
    | ⟨1, _⟩ => exact hq.symm)
  have hy : ((cfg1.win 4).blk t).view.emb j = ix2 r q := funext fun a => Fin.ext (by
    match a with
    | ⟨0, _⟩ => show win1_4.index t (0 : Fin 2) * 2000 + 1 * (j 0).val = r.val; omega
    | ⟨1, _⟩ => show win1_4.index t (1 : Fin 2) * 256 + 1 * (j 1).val = q.val; omega)
  show k1_pay1 (iblk1 V c 2 t) (iblk1 V c 0 t) (iblk1 V c 1 t) (iblk1 V c 3 t) ((cfg1.win 4).xinj (grid1.coords t) j)
    = (Cert.Spec.relu (Cert.Spec.combine d (V c main_v40) (V c main_v28) b)) (((cfg1.win 4).blk t).view.emb j)
  rw [hx, hy, pay_apply, layer_apply]
  have h0 : iblk1 V c 0 t (ix2 p q) = V c main_v40 (ix2 r q) := read_sum (V c main_v40) t p q r hr
  have h1 : iblk1 V c 1 t (ix2 p q) = V c main_v28 (ix2 r q) := read_proj (V c main_v28) t p q r hr
  have h2 : iblk1 V c 2 t (ix2 p 0) = d (ix1 r) :=
    (read_col (V c main_v11) t p r hr).trans ((congrFun hd (ix2 r 0)).trans (col_apply d r))
  have h3 : iblk1 V c 3 t (ix2 0 q) = b (ix1 q) :=
    (read_row (V c main_v41) t q).trans ((congrFun hb (ix2 0 q)).trans (row_apply b q))
  rw [h0, h1, h2, h3]

/-! ## The blocks tile the array -/

/-- An index of the output array is in point `t`'s block iff each coordinate is in the block's range on its axis. -/
theorem mem_blk (t : Fin cfg1.N) (i : S50000x256.Idx) :
    i ∈ ((cfg1.win 4).blk t).view.set
      ↔ ∀ a : Fin 2, win1_4.index t a * S2000x256.size a ≤ (i a).val ∧ (i a).val < win1_4.index t a * S2000x256.size a + S2000x256.size a := by
  show i ∈ ((View.whole main_v42).slice (win1_4.rect t)).set ↔ _
  rw [View.set_slice_whole, Rect.mem_set_unit]
  exact Iff.rfl

/-- Row `i` is in the block of point `i / 2000`, which writes back. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- After region 1 its output array is the layer of its inputs, given what its column and row windows hold. -/
theorem comb1_value (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v41 = shapeCast S1x256 b Facts₀.shapeCasts_S256_S1x256) :
    (dat1 (F := Ideal) V c).arrAt 4 cfg1.N = Cert.Spec.relu (Cert.Spec.combine d (V c main_v40) (V c main_v28) b) :=
  (dat1 (F := Ideal) V c).arrAt_eq_of_cover 4 _ (fun t _ => flushed_eq V c d b hd hb t) cover

end Cert.KernelIdeal.Comb1

end
-- ==== Proof.Comb3.lean ====
/-
  The second combine kernel, pointwise on row blocks of 2000: out[i, j] = max((a[i, j] + (d[i, 0] · d[i, 0]) · h[i, j]) + b[0, j], 0),
  which is `relu (combine d a h b)` of `Cert.Spec` when the column window holds a per-node vector as a column and the row
  window a bias vector reshaped.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Comb3

open Idealize.ShloMosaic Idealize.ShloMosaic.TcCoe Idealize.SL.Sem
open Idealize.ShloMosaic.Pipeline (Dat Cfg Window)
open Cert.KernelIdeal Cert.KernelIdeal.Gen
open Idealize.ShloMosaic.ValueIdx

theorem hz : (![0, 0] : Fin 2 → Nat) = fun _ => 0 := funext fun a => by fin_cases a <;> rfl

/-! ## The body's arithmetic and the layer, each at one index -/

/-- The body's arithmetic read at a block index: row `p` of the column, column `q` of the bias row. -/
theorem pay_apply (x0 : Vec Ideal S2000x1 .f32) (x2 x5 : Vec Ideal S2000x256 .f32) (x10 : Vec Ideal S1x256 .f32)
    (p : Fin 2000) (q : Fin 256) :
    k3_pay1 x0 x2 x5 x10 (ix2 p q)
      = max ((x2 (ix2 p q) + (x0 (ix2 p 0) * x0 (ix2 p 0)) * x5 (ix2 p q)) + x10 (ix2 0 q)) (Ideal.ofBits .f32 0x00000000#32) := by
  unfold k3_pay1
  simp only [shapeCast_self]
  rw [maximumf_apply, addf_apply, addf_apply, mulf_apply, broadcast_apply]
  rw [broadcastTo_apply _ broadcasts_S2000x1_S2000x256 (ix2 p q) (ix2 p 0)
      (fun a => by match a with | ⟨0, _⟩ => rfl | ⟨1, _⟩ => rfl),
    broadcastTo_apply _ broadcasts_S1x256_S2000x256 (ix2 p q) (ix2 0 q)
      (fun a => by match a with | ⟨0, _⟩ => rfl | ⟨1, _⟩ => rfl),
    mulf_apply]
  rfl

/-- The layer read at node `r` and feature `q`. -/
theorem layer_apply (d : Cert.Spec.Arr (F := Ideal) S50000 .f32) (A H : Cert.Spec.Arr (F := Ideal) S50000x256 .f32)
    (b : Cert.Spec.Arr (F := Ideal) S256 .f32) (r : Fin 50000) (q : Fin 256) :
    Cert.Spec.relu (Cert.Spec.combine d A H b) (ix2 r q)
      = max ((A (ix2 r q) + (d (ix1 r) * d (ix1 r)) * H (ix2 r q)) + b (ix1 q)) (Ideal.ofBits .f32 0x00000000#32) := by
  unfold Cert.Spec.relu Cert.Spec.combine Cert.Spec.zeroNodes Cert.Spec.colOf
  rw [maximumf_apply, addf_apply, addf_apply, mulf_apply]
  rw [broadcastInDim_apply _ Cert.ReferenceIdeal.Gen.bcast_S_S50000x256 _ (ix2 r q) ix0 (fun a => a.elim0), constant_apply]
  rw [broadcastInDim_apply _ Cert.ReferenceIdeal.Gen.bcast_S50000x1_S50000x256_0_1 _ (ix2 r q) (ix2 r 0)
      (fun a => by match a with | ⟨0, _⟩ => rfl | ⟨1, _⟩ => rfl),
    broadcastInDim_apply _ Cert.ReferenceIdeal.Gen.bcast_S50000_S50000x1_0 _ (ix2 r 0) (ix1 r)
      (fun a => by match a with | ⟨0, _⟩ => rfl),
    mulf_apply]
  rw [broadcastInDim_apply _ Cert.ReferenceIdeal.Gen.bcast_S1x256_S50000x256_0_1 _ (ix2 r q) (ix2 0 q)
      (fun a => by match a with | ⟨0, _⟩ => rfl | ⟨1, _⟩ => rfl),
    broadcastInDim_apply _ Cert.ReferenceIdeal.Gen.bcast_S256_S1x256_1 _ (ix2 0 q) (ix1 q)
      (fun a => by match a with | ⟨0, _⟩ => rfl)]

/-- A per-node vector laid out as a column, read at row `r`. -/
theorem col_apply (d : Cert.Spec.Arr (F := Ideal) S50000 .f32) (r : Fin 50000) : Cert.Spec.colOf d (ix2 r 0) = d (ix1 r) := by
  unfold Cert.Spec.colOf
  exact broadcastInDim_apply _ Cert.ReferenceIdeal.Gen.bcast_S50000_S50000x1_0 _ (ix2 r 0) (ix1 r)
    (fun a => by match a with | ⟨0, _⟩ => rfl)

/-- A bias vector reshaped to one row, read at column `q`. -/
theorem row_apply (b : Cert.Spec.Arr (F := Ideal) S256 .f32) (q : Fin 256) :
    shapeCast S1x256 b Facts₀.shapeCasts_S256_S1x256 (ix2 0 q) = b (ix1 q) :=
  shapeCast_apply b Facts₀.shapeCasts_S256_S1x256 (ix2 0 q) (ix1 q) (by
    rw [Shape.rowMajor_val_one, Shape.rowMajor_val_two]
    show q.val = 0 * 256 + q.val
    omega)

/-! ## The blocks in the arrays -/

/-- The index maps over the 25 grid points: the row-blocked inputs and the output sit at block (t, 0), the bias row at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of the neighbours' sum's block at point `t` is row `2000 t + p` of the array. -/
theorem read_sum (A : S50000x256.Idx → Elt Ideal .f32) (t : Fin cfg3.N) (p : Fin 2000) (q : Fin 256) (r : Fin 50000)
    (hr : r.val = t.val * 2000 + p.val) : ((cfg3.win 0).blk t).view.read (Elt Ideal) A (ix2 p q) = A (ix2 r q) := by
  obtain ⟨e0, e1, -⟩ := idx_facts t
  show A (((cfg3.win 0).blk t).view.emb (ix2 p q)) = A (ix2 r q)
  refine congrArg A (funext fun a => Fin.ext ?_)
  match a with
  | ⟨0, _⟩ => show win3_0.index t (0 : Fin 2) * 2000 + 1 * p.val = r.val; omega
  | ⟨1, _⟩ => show win3_0.index t (1 : Fin 2) * 256 + 1 * q.val = q.val; omega

/-- The same for the projection's block. -/
theorem read_proj (A : S50000x256.Idx → Elt Ideal .f32) (t : Fin cfg3.N) (p : Fin 2000) (q : Fin 256) (r : Fin 50000)
    (hr : r.val = t.val * 2000 + p.val) : ((cfg3.win 1).blk t).view.read (Elt Ideal) A (ix2 p q) = A (ix2 r q) := by
  obtain ⟨-, -, e0, e1, -⟩ := idx_facts t
  show A (((cfg3.win 1).blk t).view.emb (ix2 p q)) = A (ix2 r q)
  refine congrArg A (funext fun a => Fin.ext ?_)
  match a with
  | ⟨0, _⟩ => show win3_1.index t (0 : Fin 2) * 2000 + 1 * p.val = r.val; omega
  | ⟨1, _⟩ => show win3_1.index t (1 : Fin 2) * 256 + 1 * q.val = q.val; omega

/-- Row `p` of the column's block at point `t` is row `2000 t + p` of the column. -/
theorem read_col (A : S50000x1.Idx → Elt Ideal .f32) (t : Fin cfg3.N) (p : Fin 2000) (r : Fin 50000)
    (hr : r.val = t.val * 2000 + p.val) : ((cfg3.win 2).blk t).view.read (Elt Ideal) A (ix2 p 0) = A (ix2 r 0) := by
  obtain ⟨-, -, -, -, e0, e1, -⟩ := idx_facts t
  show A (((cfg3.win 2).blk t).view.emb (ix2 p 0)) = A (ix2 r 0)
  refine congrArg A (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- The bias row's block is the whole row at every point. -/
theorem read_row (A : S1x256.Idx → Elt Ideal .f32) (t : Fin cfg3.N) (q : Fin 256) :
    ((cfg3.win 3).blk t).view.read (Elt Ideal) A (ix2 0 q) = A (ix2 0 q) := by
  obtain ⟨-, -, -, -, -, -, e0, e1, -⟩ := idx_facts t
  show A (((cfg3.win 3).blk t).view.emb (ix2 0 q)) = A (ix2 0 q)
  refine congrArg A (funext fun a => Fin.ext ?_)
  match a with
  | ⟨0, _⟩ => show win3_3.index t (0 : Fin 2) * 1 + 1 * 0 = 0; omega
  | ⟨1, _⟩ => show win3_3.index t (1 : Fin 2) * 256 + 1 * q.val = q.val; omega

/-- What point `t` writes back is block `t` of the layer of the region's inputs. -/
theorem flushed_eq (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v56 = shapeCast S1x256 b Facts₀.shapeCasts_S256_S1x256)
    (t : Fin cfg3.N) :
    (dat3 (F := Ideal) V c).flushed 4 t
      = ((cfg3.win 4).blk t).view.read (Elt Ideal) (Cert.Spec.relu (Cert.Spec.combine d (V c main_v55) (V c main_v43) b)) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  have hN : t.val < 25 := Nat.lt_of_lt_of_eq t.isLt N_3
  funext j
  have hj0 : (j 0).val < 2000 := (j 0).isLt
  have hj1 : (j 1).val < 256 := (j 1).isLt
  obtain ⟨p, hp⟩ : ∃ p : Fin 2000, p.val = (j 0).val := ⟨⟨(j 0).val, hj0⟩, rfl⟩
  obtain ⟨q, hq⟩ : ∃ q : Fin 256, q.val = (j 1).val := ⟨⟨(j 1).val, hj1⟩, rfl⟩
  obtain ⟨r, hr⟩ : ∃ r : Fin 50000, r.val = t.val * 2000 + p.val := ⟨⟨t.val * 2000 + p.val, by have := p.isLt; omega⟩, rfl⟩
  have hx : (cfg3.win 4).xinj (grid3.coords t) j = ix2 p q := funext fun a => Fin.ext (by
    match a with
    | ⟨0, _⟩ => exact hp.symm
    | ⟨1, _⟩ => exact hq.symm)
  have hy : ((cfg3.win 4).blk t).view.emb j = ix2 r q := funext fun a => Fin.ext (by
    match a with
    | ⟨0, _⟩ => show win3_4.index t (0 : Fin 2) * 2000 + 1 * (j 0).val = r.val; omega
    | ⟨1, _⟩ => show win3_4.index t (1 : Fin 2) * 256 + 1 * (j 1).val = q.val; omega)
  show k3_pay1 (iblk3 V c 2 t) (iblk3 V c 0 t) (iblk3 V c 1 t) (iblk3 V c 3 t) ((cfg3.win 4).xinj (grid3.coords t) j)
    = (Cert.Spec.relu (Cert.Spec.combine d (V c main_v55) (V c main_v43) b)) (((cfg3.win 4).blk t).view.emb j)
  rw [hx, hy, pay_apply, layer_apply]
  have h0 : iblk3 V c 0 t (ix2 p q) = V c main_v55 (ix2 r q) := read_sum (V c main_v55) t p q r hr
  have h1 : iblk3 V c 1 t (ix2 p q) = V c main_v43 (ix2 r q) := read_proj (V c main_v43) t p q r hr
  have h2 : iblk3 V c 2 t (ix2 p 0) = d (ix1 r) :=
    (read_col (V c main_v11) t p r hr).trans ((congrFun hd (ix2 r 0)).trans (col_apply d r))
  have h3 : iblk3 V c 3 t (ix2 0 q) = b (ix1 q) :=
    (read_row (V c main_v56) t q).trans ((congrFun hb (ix2 0 q)).trans (row_apply b q))
  rw [h0, h1, h2, h3]

/-! ## The blocks tile the array -/

/-- An index of the output array is in point `t`'s block iff each coordinate is in the block's range on its axis. -/
theorem mem_blk (t : Fin cfg3.N) (i : S50000x256.Idx) :
    i ∈ ((cfg3.win 4).blk t).view.set
      ↔ ∀ a : Fin 2, win3_4.index t a * S2000x256.size a ≤ (i a).val ∧ (i a).val < win3_4.index t a * S2000x256.size a + S2000x256.size a := by
  show i ∈ ((View.whole main_v57).slice (win3_4.rect t)).set ↔ _
  rw [View.set_slice_whole, Rect.mem_set_unit]
  exact Iff.rfl

/-- Row `i` is in the block of point `i / 2000`, which writes back. -/
theorem cover (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, Nat.lt_of_lt_of_eq (by omega : (i 0).val / 2000 < 25) N_3.symm⟩, rfl⟩
  obtain ⟨-, -, -, -, -, -, -, -, e0, e1⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- After region 3 its output array is the layer of its inputs, given what its column and row windows hold. -/
theorem comb3_value (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v56 = shapeCast S1x256 b Facts₀.shapeCasts_S256_S1x256) :
    (dat3 (F := Ideal) V c).arrAt 4 cfg3.N = Cert.Spec.relu (Cert.Spec.combine d (V c main_v55) (V c main_v43) b) :=
  (dat3 (F := Ideal) V c).arrAt_eq_of_cover 4 _ (fun t _ => flushed_eq V c d b hd hb t) cover

end Cert.KernelIdeal.Comb3

end
-- ==== Proof.Comb5.lean ====
/-
  The third combine kernel (no maximum), pointwise on row blocks of 2000: out[i, j] = (a[i, j] + (d[i, 0] · d[i, 0]) · h[i, j]) + b[0, j],
  which is `combine d a h b` of `Cert.Spec` when the column window holds a per-node vector as a column and the row window a
  bias vector reshaped.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Comb5

open Idealize.ShloMosaic Idealize.ShloMosaic.TcCoe Idealize.SL.Sem
open Idealize.ShloMosaic.Pipeline (Dat Cfg Window)
open Cert.KernelIdeal Cert.KernelIdeal.Gen
open Idealize.ShloMosaic.ValueIdx

theorem hz : (![0, 0] : Fin 2 → Nat) = fun _ => 0 := funext fun a => by fin_cases a <;> rfl

/-! ## The body's arithmetic and the layer, each at one index -/

/-- The body's arithmetic read at a block index: row `p` of the column, column `q` of the bias row. -/
theorem pay_apply (x0 : Vec Ideal S2000x1 .f32) (x2 x5 : Vec Ideal S2000x256 .f32) (x10 : Vec Ideal S1x256 .f32)
    (p : Fin 2000) (q : Fin 256) :
    k5_pay1 x0 x2 x5 x10 (ix2 p q)
      = (x2 (ix2 p q) + (x0 (ix2 p 0) * x0 (ix2 p 0)) * x5 (ix2 p q)) + x10 (ix2 0 q) := by
  unfold k5_pay1
  simp only [shapeCast_self]
  rw [addf_apply, addf_apply, mulf_apply]
  rw [broadcastTo_apply _ broadcasts_S2000x1_S2000x256 (ix2 p q) (ix2 p 0)
      (fun a => by match a with | ⟨0, _⟩ => rfl | ⟨1, _⟩ => rfl),
    broadcastTo_apply _ broadcasts_S1x256_S2000x256 (ix2 p q) (ix2 0 q)
      (fun a => by match a with | ⟨0, _⟩ => rfl | ⟨1, _⟩ => rfl),
    mulf_apply]

/-- The layer read at node `r` and feature `q`. -/
theorem layer_apply (d : Cert.Spec.Arr (F := Ideal) S50000 .f32) (A H : Cert.Spec.Arr (F := Ideal) S50000x256 .f32)
    (b : Cert.Spec.Arr (F := Ideal) S256 .f32) (r : Fin 50000) (q : Fin 256) :
    Cert.Spec.combine d A H b (ix2 r q)
      = (A (ix2 r q) + (d (ix1 r) * d (ix1 r)) * H (ix2 r q)) + b (ix1 q) := by
  unfold Cert.Spec.combine Cert.Spec.colOf
  rw [addf_apply, addf_apply, mulf_apply]
  rw [broadcastInDim_apply _ Cert.ReferenceIdeal.Gen.bcast_S50000x1_S50000x256_0_1 _ (ix2 r q) (ix2 r 0)
      (fun a => by match a with | ⟨0, _⟩ => rfl | ⟨1, _⟩ => rfl),
    broadcastInDim_apply _ Cert.ReferenceIdeal.Gen.bcast_S50000_S50000x1_0 _ (ix2 r 0) (ix1 r)
      (fun a => by match a with | ⟨0, _⟩ => rfl),
    mulf_apply]
  rw [broadcastInDim_apply _ Cert.ReferenceIdeal.Gen.bcast_S1x256_S50000x256_0_1 _ (ix2 r q) (ix2 0 q)
      (fun a => by match a with | ⟨0, _⟩ => rfl | ⟨1, _⟩ => rfl),
    broadcastInDim_apply _ Cert.ReferenceIdeal.Gen.bcast_S256_S1x256_1 _ (ix2 0 q) (ix1 q)
      (fun a => by match a with | ⟨0, _⟩ => rfl)]

/-- A per-node vector laid out as a column, read at row `r`. -/
theorem col_apply (d : Cert.Spec.Arr (F := Ideal) S50000 .f32) (r : Fin 50000) : Cert.Spec.colOf d (ix2 r 0) = d (ix1 r) := by
  unfold Cert.Spec.colOf
  exact broadcastInDim_apply _ Cert.ReferenceIdeal.Gen.bcast_S50000_S50000x1_0 _ (ix2 r 0) (ix1 r)
    (fun a => by match a with | ⟨0, _⟩ => rfl)

/-- A bias vector reshaped to one row, read at column `q`. -/
theorem row_apply (b : Cert.Spec.Arr (F := Ideal) S256 .f32) (q : Fin 256) :
    shapeCast S1x256 b Facts₀.shapeCasts_S256_S1x256 (ix2 0 q) = b (ix1 q) :=
  shapeCast_apply b Facts₀.shapeCasts_S256_S1x256 (ix2 0 q) (ix1 q) (by
    rw [Shape.rowMajor_val_one, Shape.rowMajor_val_two]
    show q.val = 0 * 256 + q.val
    omega)

/-! ## The blocks in the arrays -/

/-- The index maps over the 25 grid points: the row-blocked inputs and the output sit at block (t, 0), the bias row at (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row `p` of the neighbours' sum's block at point `t` is row `2000 t + p` of the array. -/
theorem read_sum (A : S50000x256.Idx → Elt Ideal .f32) (t : Fin cfg5.N) (p : Fin 2000) (q : Fin 256) (r : Fin 50000)
    (hr : r.val = t.val * 2000 + p.val) : ((cfg5.win 0).blk t).view.read (Elt Ideal) A (ix2 p q) = A (ix2 r q) := by
  obtain ⟨e0, e1, -⟩ := idx_facts t
  show A (((cfg5.win 0).blk t).view.emb (ix2 p q)) = A (ix2 r q)
  refine congrArg A (funext fun a => Fin.ext ?_)
  match a with
  | ⟨0, _⟩ => show win5_0.index t (0 : Fin 2) * 2000 + 1 * p.val = r.val; omega
  | ⟨1, _⟩ => show win5_0.index t (1 : Fin 2) * 256 + 1 * q.val = q.val; omega

/-- The same for the projection's block. -/
theorem read_proj (A : S50000x256.Idx → Elt Ideal .f32) (t : Fin cfg5.N) (p : Fin 2000) (q : Fin 256) (r : Fin 50000)
    (hr : r.val = t.val * 2000 + p.val) : ((cfg5.win 1).blk t).view.read (Elt Ideal) A (ix2 p q) = A (ix2 r q) := by
  obtain ⟨-, -, e0, e1, -⟩ := idx_facts t
  show A (((cfg5.win 1).blk t).view.emb (ix2 p q)) = A (ix2 r q)
  refine congrArg A (funext fun a => Fin.ext ?_)
  match a with
  | ⟨0, _⟩ => show win5_1.index t (0 : Fin 2) * 2000 + 1 * p.val = r.val; omega
  | ⟨1, _⟩ => show win5_1.index t (1 : Fin 2) * 256 + 1 * q.val = q.val; omega

/-- Row `p` of the column's block at point `t` is row `2000 t + p` of the column. -/
theorem read_col (A : S50000x1.Idx → Elt Ideal .f32) (t : Fin cfg5.N) (p : Fin 2000) (r : Fin 50000)
    (hr : r.val = t.val * 2000 + p.val) : ((cfg5.win 2).blk t).view.read (Elt Ideal) A (ix2 p 0) = A (ix2 r 0) := by
  obtain ⟨-, -, -, -, e0, e1, -⟩ := idx_facts t
  show A (((cfg5.win 2).blk t).view.emb (ix2 p 0)) = A (ix2 r 0)
  refine congrArg A (funext fun a => Fin.ext ?_)
  match a with
  | ⟨0, _⟩ => show win5_2.index t (0 : Fin 2) * 2000 + 1 * p.val = r.val; omega
  | ⟨1, _⟩ => show win5_2.index t (1 : Fin 2) * 1 + 1 * 0 = 0; omega

/-- The bias row's block is the whole row at every point. -/
theorem read_row (A : S1x256.Idx → Elt Ideal .f32) (t : Fin cfg5.N) (q : Fin 256) :
    ((cfg5.win 3).blk t).view.read (Elt Ideal) A (ix2 0 q) = A (ix2 0 q) := by
  obtain ⟨-, -, -, -, -, -, e0, e1, -⟩ := idx_facts t
  show A (((cfg5.win 3).blk t).view.emb (ix2 0 q)) = A (ix2 0 q)
  refine congrArg A (funext fun a => Fin.ext ?_)
  match a with
  | ⟨0, _⟩ => show win5_3.index t (0 : Fin 2) * 1 + 1 * 0 = 0; omega
  | ⟨1, _⟩ => show win5_3.index t (1 : Fin 2) * 256 + 1 * q.val = q.val; omega

/-- What point `t` writes back is block `t` of the layer of the region's inputs. -/
theorem flushed_eq (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v71 = shapeCast S1x256 b Facts₀.shapeCasts_S256_S1x256)
    (t : Fin cfg5.N) :
    (dat5 (F := Ideal) V c).flushed 4 t
      = ((cfg5.win 4).blk t).view.read (Elt Ideal) (Cert.Spec.combine d (V c main_v70) (V c main_v58) b) := by
  show (cfg5.win 4).cut (grid5.coords t) ((dat5 V c).after 4 t) = _
  rw [after5_4]
  unfold out5_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  have hN : t.val < 25 := Nat.lt_of_lt_of_eq t.isLt N_5
  funext j
  have hj0 : (j 0).val < 2000 := (j 0).isLt
  have hj1 : (j 1).val < 256 := (j 1).isLt
  obtain ⟨p, hp⟩ : ∃ p : Fin 2000, p.val = (j 0).val := ⟨⟨(j 0).val, hj0⟩, rfl⟩
  obtain ⟨q, hq⟩ : ∃ q : Fin 256, q.val = (j 1).val := ⟨⟨(j 1).val, hj1⟩, rfl⟩
  obtain ⟨r, hr⟩ : ∃ r : Fin 50000, r.val = t.val * 2000 + p.val := ⟨⟨t.val * 2000 + p.val, by have := p.isLt; omega⟩, rfl⟩
  have hx : (cfg5.win 4).xinj (grid5.coords t) j = ix2 p q := funext fun a => Fin.ext (by
    match a with
    | ⟨0, _⟩ => exact hp.symm
    | ⟨1, _⟩ => exact hq.symm)
  have hy : ((cfg5.win 4).blk t).view.emb j = ix2 r q := funext fun a => Fin.ext (by
    match a with
    | ⟨0, _⟩ => show win5_4.index t (0 : Fin 2) * 2000 + 1 * (j 0).val = r.val; omega
    | ⟨1, _⟩ => show win5_4.index t (1 : Fin 2) * 256 + 1 * (j 1).val = q.val; omega)
  show k5_pay1 (iblk5 V c 2 t) (iblk5 V c 0 t) (iblk5 V c 1 t) (iblk5 V c 3 t) ((cfg5.win 4).xinj (grid5.coords t) j)
    = (Cert.Spec.combine d (V c main_v70) (V c main_v58) b) (((cfg5.win 4).blk t).view.emb j)
  rw [hx, hy, pay_apply, layer_apply]
  have h0 : iblk5 V c 0 t (ix2 p q) = V c main_v70 (ix2 r q) := read_sum (V c main_v70) t p q r hr
  have h1 : iblk5 V c 1 t (ix2 p q) = V c main_v58 (ix2 r q) := read_proj (V c main_v58) t p q r hr
  have h2 : iblk5 V c 2 t (ix2 p 0) = d (ix1 r) :=
    (read_col (V c main_v11) t p r hr).trans ((congrFun hd (ix2 r 0)).trans (col_apply d r))
  have h3 : iblk5 V c 3 t (ix2 0 q) = b (ix1 q) :=
    (read_row (V c main_v71) t q).trans ((congrFun hb (ix2 0 q)).trans (row_apply b q))
  rw [h0, h1, h2, h3]

/-! ## The blocks tile the array -/

/-- An index of the output array is in point `t`'s block iff each coordinate is in the block's range on its axis. -/
theorem mem_blk (t : Fin cfg5.N) (i : S50000x256.Idx) :
    i ∈ ((cfg5.win 4).blk t).view.set
      ↔ ∀ a : Fin 2, win5_4.index t a * S2000x256.size a ≤ (i a).val ∧ (i a).val < win5_4.index t a * S2000x256.size a + S2000x256.size a := by
  show i ∈ ((View.whole main_v72).slice (win5_4.rect t)).set ↔ _
  rw [View.set_slice_whole, Rect.mem_set_unit]
  exact Iff.rfl

/-- Row `i` is in the block of point `i / 2000`, which writes back. -/
theorem cover (i : S50000x256.Idx) : ∃ t : Fin cfg5.N, (cfg5.win 4).flush t = true ∧ i ∈ ((cfg5.win 4).blk t).view.set := by
  have hi0 : (i 0).val < 50000 := (i 0).isLt
  have hi1 : (i 1).val < 256 := (i 1).isLt
  obtain ⟨t, ht⟩ : ∃ t : Fin cfg5.N, t.val = (i 0).val / 2000 :=
    ⟨⟨(i 0).val / 2000, Nat.lt_of_lt_of_eq (by omega : (i 0).val / 2000 < 25) N_5.symm⟩, rfl⟩
  obtain ⟨-, -, -, -, -, -, -, -, e0, e1⟩ := idx_facts t
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 256 ≤ (i 1).val ∧ (i 1).val < win5_4.index t (1 : Fin 2) * 256 + 256; omega

/-- After region 5 its output array is the layer of its inputs, given what its column and row windows hold. -/
theorem comb5_value (V : (c : Dev nD) → (b : Ref sig .tc) → Buf (Elt Ideal) ((c : Thread nD τ).loc b)) (c : Dev nD)
    (d : Cert.Spec.Arr (F := Ideal) S50000 .f32) (b : Cert.Spec.Arr (F := Ideal) S256 .f32)
    (hd : V c main_v11 = Cert.Spec.colOf d) (hb : V c main_v71 = shapeCast S1x256 b Facts₀.shapeCasts_S256_S1x256) :
    (dat5 (F := Ideal) V c).arrAt 4 cfg5.N = Cert.Spec.combine d (V c main_v70) (V c main_v58) b :=
  (dat5 (F := Ideal) V c).arrAt_eq_of_cover 4 _ (fun t _ => flushed_eq V c d b hd hb t) cover

end Cert.KernelIdeal.Comb5

end
-- ==== Proof.ScatterRead.lean ====
/-
  The pooling sums read at an index.

  A host scatter-add of updates `u` at start indices `bc` into zeros holds, at a result index, the sum of the updates
  that land there. For the two pooling scatters (one start index per node, read signed and not clamped; a node whose
  index is outside 0..63 lands nowhere) the update of node `n` and feature `q` lands at graph `g`, feature `q`
  exactly when `bc[n]` reads `g`.
-/
import proofs.«415408_j54211077210246_1_alg».proof.Proof.Spec
import Idealize.ShloMosaic.Lib.ValueIdx
import Idealize.ShloMosaic.Lib.Pipeline.Value
import Idealize.ShloMosaic.PureOps.Ideal.Laws

noncomputable section

namespace Cert.Spec

open Cert.ReferenceIdeal Cert.ReferenceIdeal.Gen Idealize.ShloMosaic Idealize.ShloMosaic.TcCoe

namespace Pool

/-- The dimension numbers of the feature scatter: graph axis from the start index, feature axis from the update. -/
abbrev sumDims := scatter_S64x256_S50000x1_S50000x256_1_0_0_1
/-- The dimension numbers of the counting scatter: the one axis from the start index. -/
abbrev cntDims := scatter_S64_S50000x1_S50000_n_0_0_1

/-! ## Where an update of the feature scatter lands -/

/-- On the graph axis the window starts at the node's graph word, read signed. -/
theorem sumDims_start0 (j : S50000x256.Idx) (idx : IVec S50000x1 32) :
    sumDims.start j idx 0 = (idx (ValueIdx.ix2 (j 0) (0 : Fin 1))).toInt := by
  unfold ScatterDims.start
  rw [dif_pos (show (0 : Fin 2) ∈ sumDims.scatterDimsToOperandDims from List.mem_singleton.mpr rfl)]
  have hsi : sumDims.siIdx j ⟨List.idxOf (0 : Fin 2) sumDims.scatterDimsToOperandDims,
      List.idxOf_lt_length_iff.2 (List.mem_singleton.mpr rfl)⟩ = ValueIdx.ix2 (j 0) (0 : Fin 1) := by
    funext b; refine Fin.ext ?_
    match b with
    | ⟨0, _⟩ => rfl
    | ⟨1, _⟩ => rfl
  rw [hsi]
  rfl

/-- On the feature axis the window starts at `0`: no start-index component names that axis. -/
theorem sumDims_start1 (j : S50000x256.Idx) (idx : IVec S50000x1 32) : sumDims.start j idx 1 = 0 := by
  unfold ScatterDims.start
  rw [dif_neg (show ¬ (1 : Fin 2) ∈ sumDims.scatterDimsToOperandDims by decide)]

/-- The graph axis is an inserted axis: its window coordinate is `0`. -/
theorem sumDims_window0 (j : S50000x256.Idx) : sumDims.window j 0 = 0 := by
  unfold ScatterDims.window
  rw [dif_neg (show ¬ (0 : Fin 2) ∈ sumDims.sKept by decide)]

/-- The feature axis carries the update's feature coordinate. -/
theorem sumDims_window1 (j : S50000x256.Idx) : sumDims.window j 1 = (j 1).val := by
  unfold ScatterDims.window
  rw [dif_pos (show (1 : Fin 2) ∈ sumDims.sKept by decide)]
  rfl

/-- Update `(n, q')` lands at `(g, q)` exactly when node `n`'s graph word reads `g` and `q' = q`. -/
theorem sumDims_resultIdx (j : S50000x256.Idx) (idx : IVec S50000x1 32) (g : Fin 64) (q : Fin 256) :
    sumDims.resultIdx? j idx = some (ValueIdx.ix2 g q)
      ↔ (idx (ValueIdx.ix2 (j 0) (0 : Fin 1))).toInt = (g.val : Int) ∧ j 1 = q := by
  have hq := ValueIdx.idx2_lt1 j
  unfold ScatterDims.resultIdx?
  split
  · rename_i h
    rw [Option.some.injEq]
    constructor
    · intro e
      have e0 : (sumDims.start j idx 0 + sumDims.window j 0).toNat = g.val := congrArg (fun f => (f 0).val) e
      have e1 : (sumDims.start j idx 1 + sumDims.window j 1).toNat = q.val := congrArg (fun f => (f 1).val) e
      have h0 := (h 0).1
      rw [sumDims_start0, sumDims_window0] at e0 h0
      rw [sumDims_start1, sumDims_window1] at e1
      constructor
      · omega
      · exact Fin.ext (by omega)
    · rintro ⟨e0, e1⟩
      funext a
      refine Fin.ext ?_
      match a with
      | ⟨0, _⟩ =>
        show (sumDims.start j idx 0 + sumDims.window j 0).toNat = g.val
        rw [sumDims_start0, sumDims_window0, e0]; omega
      | ⟨1, _⟩ =>
        show (sumDims.start j idx 1 + sumDims.window j 1).toNat = q.val
        rw [sumDims_start1, sumDims_window1, ← e1]; omega
  · rename_i h
    constructor
    · intro e; cases e
    · rintro ⟨e0, e1⟩
      exfalso; apply h
      intro a
      match a with
      | ⟨0, _⟩ =>
        show 0 ≤ sumDims.start j idx 0 + sumDims.window j 0
          ∧ sumDims.start j idx 0 + sumDims.window j 0 < ((64 : Nat) : Int)
        rw [sumDims_start0, sumDims_window0, e0]; omega
      | ⟨1, _⟩ =>
        show 0 ≤ sumDims.start j idx 1 + sumDims.window j 1
          ∧ sumDims.start j idx 1 + sumDims.window j 1 < ((256 : Nat) : Int)
        rw [sumDims_start1, sumDims_window1]; omega

/-! ## Where an update of the counting scatter lands -/

/-- On the one axis the window starts at the node's graph word, read signed. -/
theorem cntDims_start0 (j : S50000.Idx) (idx : IVec S50000x1 32) :
    cntDims.start j idx 0 = (idx (ValueIdx.ix2 (j 0) (0 : Fin 1))).toInt := by
  unfold ScatterDims.start
  rw [dif_pos (show (0 : Fin 1) ∈ cntDims.scatterDimsToOperandDims from List.mem_singleton.mpr rfl)]
  have hsi : cntDims.siIdx j ⟨List.idxOf (0 : Fin 1) cntDims.scatterDimsToOperandDims,
      List.idxOf_lt_length_iff.2 (List.mem_singleton.mpr rfl)⟩ = ValueIdx.ix2 (j 0) (0 : Fin 1) := by
    funext b; refine Fin.ext ?_
    match b with
    | ⟨0, _⟩ => rfl
    | ⟨1, _⟩ => rfl
  rw [hsi]
  rfl

/-- The one axis is an inserted axis: its window coordinate is `0`. -/
theorem cntDims_window0 (j : S50000.Idx) : cntDims.window j 0 = 0 := by
  unfold ScatterDims.window
  rw [dif_neg (show ¬ (0 : Fin 1) ∈ cntDims.sKept by decide)]

/-- Update `n` lands at `g` exactly when node `n`'s graph word reads `g`. -/
theorem cntDims_resultIdx (j : S50000.Idx) (idx : IVec S50000x1 32) (g : Fin 64) :
    cntDims.resultIdx? j idx = some (ValueIdx.ix1 g)
      ↔ (idx (ValueIdx.ix2 (j 0) (0 : Fin 1))).toInt = (g.val : Int) := by
  unfold ScatterDims.resultIdx?
  split
  · rename_i h
    rw [Option.some.injEq]
    constructor
    · intro e
      have e0 : (cntDims.start j idx 0 + cntDims.window j 0).toNat = g.val := congrArg (fun f => (f 0).val) e
      have h0 := (h 0).1
      rw [cntDims_start0, cntDims_window0] at e0 h0
      omega
    · intro e0
      funext a
      refine Fin.ext ?_
      match a with
      | ⟨0, _⟩ =>
        show (cntDims.start j idx 0 + cntDims.window j 0).toNat = g.val
        rw [cntDims_start0, cntDims_window0, e0]; omega
  · rename_i h
    constructor
    · intro e; cases e
    · intro e0
      exfalso; apply h
      intro a
      match a with
      | ⟨0, _⟩ =>
        show 0 ≤ cntDims.start j idx 0 + cntDims.window j 0
          ∧ cntDims.start j idx 0 + cntDims.window j 0 < ((64 : Nat) : Int)
        rw [cntDims_start0, cntDims_window0, e0]; omega

/-! ## The operands at an index -/

/-- The zero operand of the feature scatter reads `0` at every index. -/
theorem zeros64x256_apply (i : S64x256.Idx) :
    broadcastInDim S64x256 ![] bcast_S_S64x256 (constant (F := Ideal) S_ .f32 0x00000000#32) i = 0 := by
  rw [broadcastInDim_apply _ _ _ i ValueIdx.ix0 (fun a => a.elim0), ValueIdx.constant_apply, Ideal.ofBits_zero_f32]

/-- The zero operand of the counting scatter reads `0` at every index. -/
theorem zeros64_apply (i : S64.Idx) :
    broadcastInDim S64 ![] bcast_S_S64 (constant (F := Ideal) S_ .f32 0x00000000#32) i = 0 := by
  rw [broadcastInDim_apply _ _ _ i ValueIdx.ix0 (fun a => a.elim0), ValueIdx.constant_apply, Ideal.ofBits_zero_f32]

/-- The counting scatter's updates read the one word at every node. -/
theorem ones50000_apply (j : S50000.Idx) :
    broadcastInDim S50000 ![] bcast_S_S50000 (constant (F := Ideal) S_ .f32 0x3F800000#32) j
      = Ideal.ofBits .f32 0x3F800000#32 := by
  rw [broadcastInDim_apply _ _ _ j ValueIdx.ix0 (fun a => a.elim0), ValueIdx.constant_apply]

/-- A rank-1 index set is its one coordinate's range … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

end Pool

open Pool

/-- Per graph `g` and feature `q`: the sum over the nodes whose graph word reads `g` of that node's feature `q`. -/
theorem poolSum_apply (bc : Arr (F := Ideal) S50000x1 .i32) (h : Arr (F := Ideal) S50000x256 .f32) (g : Fin 64) (q : Fin 256) :
    poolSum (F := Ideal) bc h (ValueIdx.ix2 g q)
      = ∑ n : Fin 50000, if (bc (ValueIdx.ix2 n (0 : Fin 1))).toInt = (g.val : Int) then h (ValueIdx.ix2 n q) else 0 := by
  -- the scatter at an index: the zero operand there plus the sum of the updates landing there
  show broadcastInDim S64x256 ![] bcast_S_S64x256 (constant (F := Ideal) S_ .f32 0x00000000#32) (ValueIdx.ix2 g q)
      + ∑ j ∈ Finset.univ.filter (fun j => sumDims.resultIdx? j bc = some (ValueIdx.ix2 g q)), h j = _
  -- the update index as (node, feature): a double sum whose inner sum keeps the one feature `q`
  rw [zeros64x256_apply, zero_add, Finset.sum_filter, ValueIdx.sum_idx2]
  refine Finset.sum_congr rfl fun n _ => ?_
  by_cases hn : (bc (ValueIdx.ix2 n (0 : Fin 1))).toInt = (g.val : Int)
  · rw [if_pos hn]
    have hb : ∀ b : Fin 256,
        (if sumDims.resultIdx? (ValueIdx.ix2 n b) bc = some (ValueIdx.ix2 g q) then h (ValueIdx.ix2 n b) else 0)
          = if b = q then h (ValueIdx.ix2 n b) else 0 := fun b =>
      if_congr ((sumDims_resultIdx (ValueIdx.ix2 n b) bc g q).trans (and_iff_right hn)) rfl rfl
    rw [Finset.sum_congr rfl fun b _ => hb b]
    exact (Finset.sum_ite_eq' Finset.univ q fun b => h (ValueIdx.ix2 n b)).trans (if_pos (Finset.mem_univ q))
  · rw [if_neg hn]
    exact Finset.sum_eq_zero fun b _ => if_neg fun e => hn ((sumDims_resultIdx (ValueIdx.ix2 n b) bc g q).mp e).1

/-- Per graph `g`: one `1.0` for every node whose graph word reads `g`. -/
theorem poolCnt_apply (bc : Arr (F := Ideal) S50000x1 .i32) (g : Fin 64) :
    poolCnt (F := Ideal) bc (ValueIdx.ix1 g)
      = ∑ n : Fin 50000, if (bc (ValueIdx.ix2 n (0 : Fin 1))).toInt = (g.val : Int) then Ideal.ofBits .f32 0x3F800000#32 else 0 := by
  -- the scatter at an index: the zero operand there plus the sum of the updates landing there
  show broadcastInDim S64 ![] bcast_S_S64 (constant (F := Ideal) S_ .f32 0x00000000#32) (ValueIdx.ix1 g)
      + ∑ j ∈ Finset.univ.filter (fun j => cntDims.resultIdx? j bc = some (ValueIdx.ix1 g)),
          broadcastInDim S50000 ![] bcast_S_S50000 (constant (F := Ideal) S_ .f32 0x3F800000#32) j = _
  rw [zeros64_apply, zero_add, Finset.sum_filter, sum_idx1]
  refine Finset.sum_congr rfl fun n _ => ?_
  rw [ones50000_apply]
  exact if_congr (cntDims_resultIdx (ValueIdx.ix1 n) bc g) rfl rfl

end Cert.Spec

end
-- ==== Proof.Pool.lean ====
/-
  The pooling kernel. Over 25 grid points (the same two output blocks at every point, written back once at the end),
  point 0 zeroes the sum [64, 256] and the count [64, 1]; every point t then adds, for its rows n = 2000·t … 2000·t+1999,
  onehot[n, g] · h[n, q] to sum[g, q] and onehot[n, g] · 1 to count[g, 0], where onehot[n, g] is 1 when node n's graph
  word equals g (g = 0 … 63) and 0 otherwise. After the last point sum[g, q] is the sum of h[n, q] over the nodes of graph g
  and count[g, 0] their number: the host's scatter-adds `Cert.Spec.poolSum` and `Cert.Spec.poolCnt`, the count as a column.
-/
import proofs.«415408_j54211077210246_1_alg».proof.Proof.Gen.KernelIdeal.Frame
import proofs.«415408_j54211077210246_1_alg».proof.Proof.Spec
import proofs.«415408_j54211077210246_1_alg».proof.Proof.ScatterRead
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pool

open Idealize.ShloMosaic Idealize.ShloMosaic.TcCoe Idealize.SL.Sem
open Idealize.ShloMosaic.Pipeline (Dat Cfg Window)
open Cert.KernelIdeal Cert.KernelIdeal.Gen

/-! ## What one grid point leaves in the two output blocks -/

section Pieces
variable {F : FTy → Type} [FloatOps F]

theorem hz : (![0, 0] : Fin 2 → Nat) = fun _ => 0 := funext fun a => by fin_cases a <;> rfl

/-- A later point leaves, in the sum block holding `xo2`, `xo2` plus the one-hot product with the feature block. -/
theorem outB2 (c : Dev nD) (i : grid6.Coords) (a1 : Memref sig .tc .vmem S2000x256 .f32) (h1 : a1.IsWhole)
    (a2 : Memref sig .tc .vmem S2000x1 .i32) (h2 : a2.IsWhole) (a3 : Memref sig .tc .vmem S64x256 .f32) (h3 : a3.IsWhole)
    (a4 : Memref sig .tc .vmem S64x1 .f32) (h4 : a4.IsWhole) (hc : ¬cond6_0 i)
    (x0 : Vec F S2000x256 .f32) (x1 : Vec F S2000x1 .i32) (xo2 : Vec F S64x256 .f32) (xo3 : Vec F S64x1 .f32) :
    out6_B_2 c i a1 h1 a2 h2 a3 h3 a4 h4 hc x0 x1 xo2 xo3 = k6_pay4 x1 x0 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h3.read_unread, h4.read_unread,
    View.ld_unit_zero (S := S2000x256) hz, View.ld_unit_zero (S := S2000x1) hz, View.ld_unit_zero (S := S64x256) hz,
    View.ld_unit_zero (S := S64x1) hz]

/-- A later point leaves, in the count block holding `xo3`, `xo3` plus the one-hot product with the ones. -/
theorem outB3 (c : Dev nD) (i : grid6.Coords) (a1 : Memref sig .tc .vmem S2000x256 .f32) (h1 : a1.IsWhole)
    (a2 : Memref sig .tc .vmem S2000x1 .i32) (h2 : a2.IsWhole) (a3 : Memref sig .tc .vmem S64x256 .f32) (h3 : a3.IsWhole)
    (a4 : Memref sig .tc .vmem S64x1 .f32) (h4 : a4.IsWhole) (hc : ¬cond6_0 i)
    (x0 : Vec F S2000x256 .f32) (x1 : Vec F S2000x1 .i32) (xo2 : Vec F S64x256 .f32) (xo3 : Vec F S64x1 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h3.read_unread, h4.read_unread,
    View.ld_unit_zero (S := S2000x256) hz, View.ld_unit_zero (S := S2000x1) hz, View.ld_unit_zero (S := S64x256) hz,
    View.ld_unit_zero (S := S64x1) hz]

/-- The first point stores zeros in the sum block, reads them back and leaves them plus the one-hot product. -/
theorem outA2 (c : Dev nD) (i : grid6.Coords) (a1 : Memref sig .tc .vmem S2000x256 .f32) (h1 : a1.IsWhole)
    (a2 : Memref sig .tc .vmem S2000x1 .i32) (h2 : a2.IsWhole) (a3 : Memref sig .tc .vmem S64x256 .f32) (h3 : a3.IsWhole)
    (a4 : Memref sig .tc .vmem S64x1 .f32) (h4 : a4.IsWhole) (hc : cond6_0 i)
    (x0 : Vec F S2000x256 .f32) (x1 : Vec F S2000x1 .i32) :
    out6_A_2 c i a1 h1 a2 h2 a3 h3 a4 h4 hc x0 x1 = k6_pay4 x1 x0 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S64x256) hz, View.readCov_unit_zero (S := S64x256) _ hz]
  simp only [View.readAt_eq_ld, h1.read_unread, h2.read_unread,
    View.ld_unit_zero (S := S2000x256) hz, View.ld_unit_zero (S := S2000x1) hz, View.ld_unit_zero (S := S64x256) hz,
    View.ld_unit_zero (S := S64x1) hz]

/-- The first point stores zeros in the count block, reads them back and leaves them plus the one-hot product with the ones. -/
theorem outA3 (c : Dev nD) (i : grid6.Coords) (a1 : Memref sig .tc .vmem S2000x256 .f32) (h1 : a1.IsWhole)
    (a2 : Memref sig .tc .vmem S2000x1 .i32) (h2 : a2.IsWhole) (a3 : Memref sig .tc .vmem S64x256 .f32) (h3 : a3.IsWhole)
    (a4 : Memref sig .tc .vmem S64x1 .f32) (h4 : a4.IsWhole) (hc : cond6_0 i)
    (x0 : Vec F S2000x256 .f32) (x1 : Vec F S2000x1 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S64x1) hz, View.readCov_unit_zero (S := S64x1) _ hz]
  simp only [View.readAt_eq_ld, h1.read_unread, h2.read_unread,
    View.ld_unit_zero (S := S2000x256) hz, View.ld_unit_zero (S := S2000x1) hz, View.ld_unit_zero (S := S64x256) hz,
    View.ld_unit_zero (S := S64x1) hz]
end Pieces

/-! ## The one-hot rows and the two products, read at an index -/

open Idealize.ShloMosaic.ValueIdx

/-- A word equals the 32-bit word of a number below 64 exactly when it reads that number signed. -/
theorem word_eq_iff (w : BitVec 32) (g : ℕ) (hg : g < 64) : w = BitVec.ofNat 32 g ↔ w.toInt = (g : Int) := by
  have hs : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  constructor
  · rintro rfl; exact hs
  · intro h; exact BitVec.eq_of_toInt_eq (h.trans hs.symm)

/-- The equality bit of two words, widened and read as a number: 1 when they are equal, else 0. -/
theorem eq_bit_value (a b : BitVec 32) :
    ((((IntOp.cmpi .eq a b).setWidth 32).toInt : ℝ) : EReal) = if a = b then (1 : EReal) else 0 := by
  by_cases h : a = b
  · subst h; rw [if_pos rfl]
    have : IntOp.cmpi .eq a a = 1#1 := by simp [IntOp.cmpi]
    rw [this]; simp
  · rw [if_neg h]
    have : IntOp.cmpi .eq a b = 0#1 := by
      unfold IntOp.cmpi; rw [show (a == b) = false from beq_eq_false_iff_ne.mpr h]; rfl
    rw [this]; simp

/-- The one-hot row of node `p` of a block at graph `g`: 1 when the node's graph word reads `g`, else 0. -/
theorem onehot_apply (v3 : Vec Ideal S2000x1 .i32) (p : Fin 2000) (g : Fin 64) :
    k6_pay3 (F := Ideal) v3 (ix2 p g) = if (v3 (ix2 p (0 : Fin 1))).toInt = (g.val : Int) then (1 : EReal) else 0 := by
  unfold k6_pay3
  show ((((IntOp.cmpi .eq (broadcastTo S2000x64 (shapeCast S2000x1 v3 shapeCasts_S2000x1_S2000x1) broadcasts_S2000x1_S2000x64 (ix2 p g))
      (broadcastTo S2000x64 (iota .tc S1x64 32 [1] iota_S1x64_d1_w32) broadcasts_S1x64_S2000x64 (ix2 p g))).setWidth 32).toInt : ℝ) : EReal) = _
  have e1 : broadcastTo S2000x64 (shapeCast S2000x1 v3 shapeCasts_S2000x1_S2000x1) broadcasts_S2000x1_S2000x64 (ix2 p g)
      = v3 (ix2 p (0 : Fin 1)) := by
    refine (broadcastTo_apply _ broadcasts_S2000x1_S2000x64 (ix2 p g) (ix2 p (0 : Fin 1)) fun ax => ?_).trans ?_
    · match ax with
      | ⟨0, _⟩ => rfl
      | ⟨1, _⟩ => rfl
    · rw [shapeCast_self]
  have e2 : broadcastTo S2000x64 (iota .tc S1x64 32 [1] iota_S1x64_d1_w32) broadcasts_S1x64_S2000x64 (ix2 p g)
      = BitVec.ofNat 32 g.val := by
    refine (broadcastTo_1b_ab_apply _ broadcasts_S1x64_S2000x64 p g).trans ?_
    exact iota_single_apply .tc S1x64 32 1 iota_S1x64_d1_w32 (ix2 (0 : Fin 1) g)
  rw [e1, e2, eq_bit_value]
  exact if_congr (word_eq_iff _ g.val g.isLt) rfl rfl

/-- The sum product contracts the 2000 rows: at output (g, q) and row p the one-hot is read at (p, g), -/
theorem sum_lhs (g : Fin 64) (q : Fin 256) (p : Fin 2000) :
    dot_S2000x64_S2000x256_S64x256_0_0_1_1_n_n.lhsIdx (ix2 g q)
      ((contrEquiv1 dot_S2000x64_S2000x256_S64x256_0_0_1_1_n_n 2000 rfl rfl).symm p) = ix2 p g := by
  have c2 := contrEquiv1_symm_val dot_S2000x64_S2000x256_S64x256_0_0_1_1_n_n 2000 rfl rfl p
  funext ax; apply Fin.ext
  match ax with
  | ⟨0, _⟩ => simp [DotDims.lhsIdx, dot_S2000x64_S2000x256_S64x256_0_0_1_1_n_n]; exact c2
  | ⟨1, _⟩ => simp [DotDims.lhsIdx, dot_S2000x64_S2000x256_S64x256_0_0_1_1_n_n]; rfl

/-- and the feature block at (p, q). -/
theorem sum_rhs (g : Fin 64) (q : Fin 256) (p : Fin 2000) :
    dot_S2000x64_S2000x256_S64x256_0_0_1_1_n_n.rhsIdx (ix2 g q)
      ((contrEquiv1 dot_S2000x64_S2000x256_S64x256_0_0_1_1_n_n 2000 rfl rfl).symm p) = ix2 p q := by
  have c2 := contrEquiv1_symm_val dot_S2000x64_S2000x256_S64x256_0_0_1_1_n_n 2000 rfl rfl p
  funext ax; apply Fin.ext
  match ax with
  | ⟨0, _⟩ => simp [DotDims.rhsIdx, dot_S2000x64_S2000x256_S64x256_0_0_1_1_n_n]; exact c2
  | ⟨1, _⟩ => simp [DotDims.rhsIdx, dot_S2000x64_S2000x256_S64x256_0_0_1_1_n_n]; rfl

/-- The count product likewise: the one-hot at (p, g), -/
theorem cnt_lhs (g : Fin 64) (z : Fin 1) (p : Fin 2000) :
    dot_S2000x64_S2000x1_S64x1_0_0_1_1_n_n.lhsIdx (ix2 g z)
      ((contrEquiv1 dot_S2000x64_S2000x1_S64x1_0_0_1_1_n_n 2000 rfl rfl).symm p) = ix2 p g := by
  have c2 := contrEquiv1_symm_val dot_S2000x64_S2000x1_S64x1_0_0_1_1_n_n 2000 rfl rfl p
  funext ax; apply Fin.ext
  match ax with
  | ⟨0, _⟩ => simp [DotDims.lhsIdx, dot_S2000x64_S2000x1_S64x1_0_0_1_1_n_n]; exact c2
  | ⟨1, _⟩ => simp [DotDims.lhsIdx, dot_S2000x64_S2000x1_S64x1_0_0_1_1_n_n]; rfl

/-- and the ones at (p, 0). -/
theorem cnt_rhs (g : Fin 64) (z : Fin 1) (p : Fin 2000) :
    dot_S2000x64_S2000x1_S64x1_0_0_1_1_n_n.rhsIdx (ix2 g z)
      ((contrEquiv1 dot_S2000x64_S2000x1_S64x1_0_0_1_1_n_n 2000 rfl rfl).symm p) = ix2 p z := by
  have c2 := contrEquiv1_symm_val dot_S2000x64_S2000x1_S64x1_0_0_1_1_n_n 2000 rfl rfl p
  funext ax; apply Fin.ext
  match ax with
  | ⟨0, _⟩ => simp [DotDims.rhsIdx, dot_S2000x64_S2000x1_S64x1_0_0_1_1_n_n]; exact c2
  | ⟨1, _⟩ => simp [DotDims.rhsIdx, dot_S2000x64_S2000x1_S64x1_0_0_1_1_n_n]

/-- One point's new sum block at (g, q): the old entry plus the features of the block's nodes whose graph word reads `g`. -/
theorem pay4_apply (v3 : Vec Ideal S2000x1 .i32) (v11 : Vec Ideal S2000x256 .f32) (v13 : Vec Ideal S64x256 .f32)
    (g : Fin 64) (q : Fin 256) :
    k6_pay4 (F := Ideal) v3 v11 v13 (ix2 g q)
      = v13 (ix2 g q) + ∑ p : Fin 2000, if (v3 (ix2 p (0 : Fin 1))).toInt = (g.val : Int) then v11 (ix2 p q) else 0 := by
  unfold k6_pay4
  show shapeCast S64x256 v13 shapeCasts_S64x256_S64x256 (ix2 g q)
      + FloatOps.matmul dot_S2000x64_S2000x256_S64x256_0_0_1_1_n_n none (k6_pay3 (F := Ideal) v3)
          (shapeCast S2000x256 v11 shapeCasts_S2000x256_S2000x256) (constant (F := Ideal) S64x256 .f32 0x00000000#32) (ix2 g q) = _
  rw [shapeCast_self, shapeCast_self, Ideal.matmul_constant_zero_apply,
    ← Equiv.sum_comp (contrEquiv1 dot_S2000x64_S2000x256_S64x256_0_0_1_1_n_n 2000 rfl rfl).symm]
  refine congrArg (v13 (ix2 g q) + ·) (Finset.sum_congr rfl fun p _ => ?_)
  rw [sum_lhs, sum_rhs, onehot_apply]
  split
  · exact one_mul _
  · exact zero_mul _

/-- One point's new count block at (g, 0): the old entry plus a one for every node of the block whose graph word reads `g`. -/
theorem pay5_apply (v3 : Vec Ideal S2000x1 .i32) (v19 : Vec Ideal S64x1 .f32) (g : Fin 64) (z : Fin 1) :
    k6_pay5 (F := Ideal) v3 v19 (ix2 g z)
      = v19 (ix2 g z) + ∑ p : Fin 2000, if (v3 (ix2 p (0 : Fin 1))).toInt = (g.val : Int) then Ideal.ofBits .f32 0x3F800000#32 else 0 := by
  unfold k6_pay5
  show shapeCast S64x1 v19 shapeCasts_S64x1_S64x1 (ix2 g z)
      + FloatOps.matmul dot_S2000x64_S2000x1_S64x1_0_0_1_1_n_n none (k6_pay3 (F := Ideal) v3)
          (broadcast S2000x1 (Scalar.ofBits (F := Ideal) .f32 0x3F800000#32)) (constant (F := Ideal) S64x1 .f32 0x00000000#32) (ix2 g z) = _
  rw [shapeCast_self, Ideal.matmul_constant_zero_apply,
    ← Equiv.sum_comp (contrEquiv1 dot_S2000x64_S2000x1_S64x1_0_0_1_1_n_n 2000 rfl rfl).symm]
  refine congrArg (v19 (ix2 g z) + ·) (Finset.sum_congr rfl fun p _ => ?_)
  rw [cnt_lhs, cnt_rhs, onehot_apply]
  show _ * Ideal.ofBits .f32 0x3F800000#32 = _
  split
  · exact one_mul _
  · exact zero_mul _

/-! ## The running sums over the blocks -/

/-- Node `p` of block `t` among the 50000 nodes. -/
abbrev node (t : Fin 25) (p : Fin 2000) : Fin 50000 :=
  ⟨2000 * t.val + p.val, by have := t.isLt; have := p.isLt; omega⟩

/-- The blocks' contributions up to and including block `n`. -/
def running (B : Fin 25 → EReal) (n : ℕ) : EReal := ∑ t : Fin 25, if t.val ≤ n then B t else 0

theorem running_zero (B : Fin 25 → EReal) : running B 0 = B 0 := by
  unfold running
  rw [Finset.sum_eq_single (0 : Fin 25)]
  · exact if_pos (le_refl _)
  · intro t _ ht
    exact if_neg fun h => ht (Fin.ext (by show t.val = 0; omega))
  · intro h; exact absurd (Finset.mem_univ _) h

theorem running_succ (B : Fin 25 → EReal) (n : ℕ) (h : n + 1 < 25) :
    running B (n + 1) = running B n + B ⟨n + 1, h⟩ := by
  unfold running
  have e : ∀ t : Fin 25, (if t.val ≤ n + 1 then B t else 0)
      = (if t.val ≤ n then B t else 0) + (if t = ⟨n + 1, h⟩ then B t else 0) := by
    intro t
    by_cases h1 : t.val ≤ n
    · have h2 : ¬t = ⟨n + 1, h⟩ := fun e => by rw [e] at h1; exact absurd h1 (by show ¬n + 1 ≤ n; omega)
      rw [if_pos (by omega), if_pos h1, if_neg h2, add_zero]
    · by_cases h2 : t = ⟨n + 1, h⟩
      · subst h2; rw [if_pos (le_refl _), if_neg h1, if_pos rfl, zero_add]
      · have h3 : ¬t.val ≤ n + 1 := fun h3 => h2 (Fin.ext (by show t.val = n + 1; omega))
        rw [if_neg h3, if_neg h1, if_neg h2, add_zero]
  rw [Finset.sum_congr rfl fun t _ => e t, Finset.sum_add_distrib, Finset.sum_ite_eq', if_pos (Finset.mem_univ _)]

theorem running_last (B : Fin 25 → EReal) : running B 24 = ∑ t : Fin 25, B t := by
  unfold running
  exact Finset.sum_congr rfl fun t _ => if_pos (by have := t.isLt; omega)

/-- The 25 blocks of 2000 nodes are the 50000 nodes. -/
theorem sum_blocks (f : Fin 50000 → EReal) : ∑ t : Fin 25, ∑ p : Fin 2000, f (node t p) = ∑ k : Fin 50000, f k := by
  refine Eq.trans ?_ (Equiv.sum_comp (finProdFinEquiv (m := 25) (n := 2000)) f)
  rw [Fintype.sum_prod_type]
  refine Finset.sum_congr rfl fun t _ => Finset.sum_congr rfl fun p _ => congrArg f (Fin.ext ?_)
  show 2000 * t.val + p.val = p.val + 2000 * t.val
  omega

/-! ## The blocks a point reads, in the arrays -/

section Value
variable (V : (c : Dev nD) → (b : Ref sig .tc) → Buf (Elt Ideal) ((c : Thread nD τ).loc b))

/-- The node features the region is given, -/
abbrev hArr (c : Dev nD) : Vec Ideal S50000x256 .f32 := V c main_v72
/-- the nodes' graph words, -/
abbrev bArr (c : Dev nD) : Vec Ideal S50000x1 .i32 := V c main_v73
/-- and their blocks at a point. -/
abbrev hBlk (c : Dev nD) (t : Fin cfg6.N) : Vec Ideal S2000x256 .f32 := iblk6 V c 0 t
abbrev bBlk (c : Dev nD) (t : Fin cfg6.N) : Vec Ideal S2000x1 .i32 := iblk6 V c 1 t

/-- Both input blocks of point `t` start at row 2000·t, column 0. -/
theorem idx_in : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0)

/-- Row `p` of the feature block at point `t` is node 2000·t + p. -/
theorem hBlk_apply (c : Dev nD) (t : Fin cfg6.N) (t' : Fin 25) (ht : t'.val = t.val) (p : Fin 2000) (q : Fin 256) :
    hBlk V c t (ix2 p q) = hArr V c (ix2 (node t' p) q) := by
  unfold hBlk iblk6
  rw [View.read_apply]
  show V c main_v72 _ = V c main_v72 _
  congr 1
  funext a
  apply Fin.ext
  match a with
  | ⟨0, _⟩ => show win6_0.index t 0 * 2000 + 1 * p.val = 2000 * t'.val + p.val; rw [(idx_in t).1, ht]; omega
  | ⟨1, _⟩ => show win6_0.index t 1 * 256 + 1 * q.val = q.val; rw [(idx_in t).2.1]; omega

/-- Row `p` of the graph-word block at point `t` is node 2000·t + p. -/
theorem bBlk_apply (c : Dev nD) (t : Fin cfg6.N) (t' : Fin 25) (ht : t'.val = t.val) (p : Fin 2000) (z : Fin 1) :
    bBlk V c t (ix2 p z) = bArr V c (ix2 (node t' p) z) := by
  unfold bBlk iblk6
  rw [View.read_apply]
  show V c main_v73 _ = V c main_v73 _
  congr 1
  funext a
  apply Fin.ext
  match a with
  | ⟨0, _⟩ => show win6_1.index t 0 * 2000 + 1 * p.val = 2000 * t'.val + p.val; rw [(idx_in t).2.2.1, ht]; omega
  | ⟨1, _⟩ => show win6_1.index t 1 * 1 + 1 * z.val = z.val; rw [(idx_in t).2.2.2]; omega

end Value

/-! ## The two output blocks after each point -/

section Value
variable (V : (c : Dev nD) → (b : Ref sig .tc) → Buf (Elt Ideal) ((c : Thread nD τ).loc b))

/-- What node `k` adds to graph `g` at feature `q`, and to graph `g`'s count. -/
def sumTerm (c : Dev nD) (g : Fin 64) (q : Fin 256) (k : Fin 50000) : EReal :=
  if (bArr V c (ix2 k (0 : Fin 1))).toInt = (g.val : Int) then hArr V c (ix2 k q) else 0
def cntTerm (c : Dev nD) (g : Fin 64) (k : Fin 50000) : EReal :=
  if (bArr V c (ix2 k (0 : Fin 1))).toInt = (g.val : Int) then Ideal.ofBits .f32 0x3F800000#32 else 0

/-- What the 2000 nodes of block `t` add. -/
def sumBlock (c : Dev nD) (g : Fin 64) (q : Fin 256) (t : Fin 25) : EReal := ∑ p : Fin 2000, sumTerm V c g q (node t p)
def cntBlock (c : Dev nD) (g : Fin 64) (t : Fin 25) : EReal := ∑ p : Fin 2000, cntTerm V c g (node t p)

theorem block_sum_eq (c : Dev nD) (t : Fin cfg6.N) (t' : Fin 25) (ht : t'.val = t.val) (g : Fin 64) (q : Fin 256) :
    (∑ p : Fin 2000, if (bBlk V c t (ix2 p (0 : Fin 1))).toInt = (g.val : Int) then hBlk V c t (ix2 p q) else 0)
      = sumBlock V c g q t' := by
  unfold sumBlock sumTerm
  exact Finset.sum_congr rfl fun p _ => by rw [bBlk_apply V c t t' ht p 0, hBlk_apply V c t t' ht p q]

theorem block_cnt_eq (c : Dev nD) (t : Fin cfg6.N) (t' : Fin 25) (ht : t'.val = t.val) (g : Fin 64) :
    (∑ p : Fin 2000, if (bBlk V c t (ix2 p (0 : Fin 1))).toInt = (g.val : Int) then Ideal.ofBits .f32 0x3F800000#32 else 0)
      = cntBlock V c g t' := by
  unfold cntBlock cntTerm
  exact Finset.sum_congr rfl fun p _ => by rw [bBlk_apply V c t t' ht p 0]

/-- The first point leaves the two products over zeros. -/
theorem outs_A (c : Dev nD) (t : Fin cfg6.N) (h0 : t.val % 25 = 0) :
    outsAt6 V c t.val t.isLt = (k6_pay4 (F := Ideal) (bBlk V c t) (hBlk V c t) (k6_pay1 (F := Ideal)),
      k6_pay5 (F := Ideal) (bBlk V c t) (k6_pay2 (F := Ideal))) := by
  rw [outsAt6_A V c t h0,
    outA2 (F := Ideal) c (grid6.coords t) (ms6_0 t) (hs6_0 t) (ms6_1 t) (hs6_1 t) (ms6_2 t) (hs6_2 t) (ms6_3 t) (hs6_3 t)
      ((hcond6_0 t).mpr h0) (iblk6 V c 0 t) (iblk6 V c 1 t),
    outA3 (F := Ideal) c (grid6.coords t) (ms6_0 t) (hs6_0 t) (ms6_1 t) (hs6_1 t) (ms6_2 t) (hs6_2 t) (ms6_3 t) (hs6_3 t)
      ((hcond6_0 t).mpr h0) (iblk6 V c 0 t) (iblk6 V c 1 t)]

/-- A later point leaves the two products over what the point before left. -/
theorem outs_B (c : Dev nD) (t : Fin cfg6.N) (h0 : ¬t.val % 25 = 0) :
    outsAt6 V c t.val t.isLt
      = (k6_pay4 (F := Ideal) (bBlk V c t) (hBlk V c t) (outsAt6 V c (t.val - 1) (Nat.lt_of_le_of_lt (Nat.sub_le _ _) t.isLt)).1,
        k6_pay5 (F := Ideal) (bBlk V c t) (outsAt6 V c (t.val - 1) (Nat.lt_of_le_of_lt (Nat.sub_le _ _) t.isLt)).2) := by
  rw [outsAt6_B V c t h0,
    outB2 (F := Ideal) c (grid6.coords t) (ms6_0 t) (hs6_0 t) (ms6_1 t) (hs6_1 t) (ms6_2 t) (hs6_2 t) (ms6_3 t) (hs6_3 t)
      (fun h => h0 ((hcond6_0 t).mp h)) (iblk6 V c 0 t) (iblk6 V c 1 t)
      (outsAt6 V c (t.val - 1) (Nat.lt_of_le_of_lt (Nat.sub_le _ _) t.isLt)).1
      (outsAt6 V c (t.val - 1) (Nat.lt_of_le_of_lt (Nat.sub_le _ _) t.isLt)).2,
    outB3 (F := Ideal) c (grid6.coords t) (ms6_0 t) (hs6_0 t) (ms6_1 t) (hs6_1 t) (ms6_2 t) (hs6_2 t) (ms6_3 t) (hs6_3 t)
      (fun h => h0 ((hcond6_0 t).mp h)) (iblk6 V c 0 t) (iblk6 V c 1 t)
      (outsAt6 V c (t.val - 1) (Nat.lt_of_le_of_lt (Nat.sub_le _ _) t.isLt)).1
      (outsAt6 V c (t.val - 1) (Nat.lt_of_le_of_lt (Nat.sub_le _ _) t.isLt)).2]

/-- After point `n` the sum block holds the sums over the nodes of blocks 0 … n, the count block their counts. -/
theorem outs_inv (c : Dev nD) : ∀ (n : ℕ) (hn : n < cfg6.N),
    (∀ (g : Fin 64) (q : Fin 256), (outsAt6 V c n hn).1 (ix2 g q) = running (sumBlock V c g q) n)
    ∧ (∀ (g : Fin 64) (z : Fin 1), (outsAt6 V c n hn).2 (ix2 g z) = running (cntBlock V c g) n)
  | 0, hn => by
    have hA : outsAt6 V c 0 hn = _ := outs_A V c ⟨0, hn⟩ rfl
    constructor
    · intro g q
      rw [hA]; dsimp only
      refine (pay4_apply (bBlk V c ⟨0, hn⟩) (hBlk V c ⟨0, hn⟩) (k6_pay1 (F := Ideal)) g q).trans ?_
      rw [block_sum_eq V c ⟨0, hn⟩ 0 rfl g q, running_zero]
      show Ideal.ofBits .f32 0x00000000#32 + _ = _
      rw [Ideal.ofBits_zero_f32, zero_add]
    · intro g z
      rw [hA]; dsimp only
      refine (pay5_apply (bBlk V c ⟨0, hn⟩) (k6_pay2 (F := Ideal)) g z).trans ?_
      rw [block_cnt_eq V c ⟨0, hn⟩ 0 rfl g, running_zero]
      show Ideal.ofBits .f32 0x00000000#32 + _ = _
      rw [Ideal.ofBits_zero_f32, zero_add]
  | n + 1, hn => by
    have hN : cfg6.N = 25 := N_6
    have h25 : n + 1 < 25 := by omega
    have hB : ¬(⟨n + 1, hn⟩ : Fin cfg6.N).val % 25 = 0 := by show ¬(n + 1) % 25 = 0; omega
    have ih := outs_inv c n (Nat.lt_of_succ_lt hn)
    have hS : outsAt6 V c (n + 1) hn
        = (k6_pay4 (F := Ideal) (bBlk V c ⟨n + 1, hn⟩) (hBlk V c ⟨n + 1, hn⟩) (outsAt6 V c n (Nat.lt_of_succ_lt hn)).1,
          k6_pay5 (F := Ideal) (bBlk V c ⟨n + 1, hn⟩) (outsAt6 V c n (Nat.lt_of_succ_lt hn)).2) :=
      outs_B V c ⟨n + 1, hn⟩ hB
    constructor
    · intro g q
      rw [hS]; dsimp only
      refine (pay4_apply (bBlk V c ⟨n + 1, hn⟩) (hBlk V c ⟨n + 1, hn⟩) (outsAt6 V c n (Nat.lt_of_succ_lt hn)).1 g q).trans ?_
      rw [ih.1 g q, block_sum_eq V c ⟨n + 1, hn⟩ ⟨n + 1, h25⟩ rfl g q, running_succ _ n h25]
    · intro g z
      rw [hS]; dsimp only
      refine (pay5_apply (bBlk V c ⟨n + 1, hn⟩) (outsAt6 V c n (Nat.lt_of_succ_lt hn)).2 g z).trans ?_
      rw [ih.2 g z, block_cnt_eq V c ⟨n + 1, hn⟩ ⟨n + 1, h25⟩ rfl g, running_succ _ n h25]

end Value

/-! ## The two result arrays after the region -/

section Value
variable (V : (c : Dev nD) → (b : Ref sig .tc) → Buf (Elt Ideal) ((c : Thread nD τ).loc b))

/-- After the last point the sum block holds the host's per-graph sums, -/
theorem sum_last (c : Dev nD) (hn : 24 < cfg6.N) :
    (outsAt6 V c 24 hn).1 = Cert.Spec.poolSum (F := Ideal) (V c main_v73) (V c main_v72) := by
  funext j
  obtain ⟨g, q, rfl⟩ : ∃ (g : Fin 64) (q : Fin 256), j = ix2 g q := ⟨j 0, j 1, eq_ix2 j⟩
  rw [(outs_inv V c 24 hn).1 g q, running_last, Cert.Spec.poolSum_apply]
  exact sum_blocks (sumTerm V c g q)

/-- and the count block the host's per-graph counts, as a column. -/
theorem cnt_last (c : Dev nD) (hn : 24 < cfg6.N) :
    (outsAt6 V c 24 hn).2 = Cert.Spec.cntCol (Cert.Spec.poolCnt (F := Ideal) (V c main_v73)) := by
  funext j
  obtain ⟨g, z, rfl⟩ : ∃ (g : Fin 64) (z : Fin 1), j = ix2 g z := ⟨j 0, j 1, eq_ix2 j⟩
  rw [(outs_inv V c 24 hn).2 g z, running_last]
  unfold Cert.Spec.cntCol
  refine Eq.trans ?_ (broadcastInDim_apply _ _ (Cert.Spec.poolCnt (F := Ideal) (V c main_v73)) (ix2 g z) (ix1 g) fun a => ?_).symm
  · rw [Cert.Spec.poolCnt_apply]; exact sum_blocks (cntTerm V c g)
  · match a with
    | ⟨0, _⟩ => rfl

/-- Both output blocks sit at block index (0, 0) at every point. -/
theorem idx_out : ∀ t : Fin cfg6.N, win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, win6_2.index t (0 : Fin 2) = 0 ∧ win6_2.index t (1 : Fin 2) = 0
    ∧ win6_3.index t (0 : Fin 2) = 0 ∧ win6_3.index t (1 : Fin 2) = 0)

/-- The last point. -/
abbrev tLast : Fin cfg6.N := ⟨24, by decide⟩

/-- The one write-back of the sums, after the last point, writes the host's sums: the block is the whole array. -/
theorem flushed_sum (c : Dev nD) (t : Fin cfg6.N) (hf : (cfg6.win 2).flush t = true) :
    (dat6 V c).flushed 2 t = ((cfg6.win 2).blk t).view.read (Elt Ideal) (Cert.Spec.poolSum (F := Ideal) (V c main_v73) (V c main_v72)) := by
  have hN : cfg6.N = 25 := N_6
  obtain ⟨n, hn⟩ := t
  have h24 : n = 24 := by have := (flush6_2 ⟨n, hn⟩).mp hf; dsimp only at this; omega
  subst h24
  show (cfg6.win 2).cut (grid6.coords ⟨24, hn⟩) ((dat6 V c).after 2 ⟨24, hn⟩) = _
  rw [after6_2, sum_last V c hn]
  have hz' : (fun a => win6_2.index ⟨24, hn⟩ a * main_v74_0.ty.shape.size a) = fun _ => 0 := funext fun a => by
    match a with
    | ⟨0, _⟩ => show win6_2.index ⟨24, hn⟩ 0 * 64 = 0; rw [(idx_out ⟨24, hn⟩).1]
    | ⟨1, _⟩ => show win6_2.index ⟨24, hn⟩ 1 * 256 = 0; rw [(idx_out ⟨24, hn⟩).2.1]
  exact (Memref.read_access_unit_zero (Elt Ideal) main_v74_0 hz' (fun a => by rw [congrFun hz' a]; simp)
    (Cert.Spec.poolSum (F := Ideal) (V c main_v73) (V c main_v72))).symm

/-- The one write-back of the counts likewise. -/
theorem flushed_cnt (c : Dev nD) (t : Fin cfg6.N) (hf : (cfg6.win 3).flush t = true) :
    (dat6 V c).flushed 3 t = ((cfg6.win 3).blk t).view.read (Elt Ideal) (Cert.Spec.cntCol (Cert.Spec.poolCnt (F := Ideal) (V c main_v73))) := by
  have hN : cfg6.N = 25 := N_6
  obtain ⟨n, hn⟩ := t
  have h24 : n = 24 := by have := (flush6_3 ⟨n, hn⟩).mp hf; dsimp only at this; omega
  subst h24
  show (cfg6.win 3).cut (grid6.coords ⟨24, hn⟩) ((dat6 V c).after 3 ⟨24, hn⟩) = _
  rw [after6_3, cnt_last V c hn]
  have hz' : (fun a => win6_3.index ⟨24, hn⟩ a * main_v74_1.ty.shape.size a) = fun _ => 0 := funext fun a => by
    match a with
    | ⟨0, _⟩ => show win6_3.index ⟨24, hn⟩ 0 * 64 = 0; rw [(idx_out ⟨24, hn⟩).2.2.1]
    | ⟨1, _⟩ => show win6_3.index ⟨24, hn⟩ 1 * 1 = 0; rw [(idx_out ⟨24, hn⟩).2.2.2]
  exact (Memref.read_access_unit_zero (Elt Ideal) main_v74_1 hz' (fun a => by rw [congrFun hz' a]; simp)
    (Cert.Spec.cntCol (Cert.Spec.poolCnt (F := Ideal) (V c main_v73)))).symm

end Value

/-- After region 6 its first output array is the per-graph sum of the node features it was given. -/
theorem pool_sum_value (V : (c : Dev nD) → (b : Ref sig .tc) → Buf (Elt Ideal) ((c : Thread nD τ).loc b)) (c : Dev nD) :
    (dat6 (F := Ideal) V c).arrAt 2 cfg6.N = Cert.Spec.poolSum (F := Ideal) (V c main_v73) (V c main_v72) :=
  (dat6 V c).arrAt_eq_of_cover 2 (Cert.Spec.poolSum (F := Ideal) (V c main_v73) (V c main_v72)) (flushed_sum V c) fun i =>
    ⟨tLast, (flush6_2 tLast).mpr rfl, by
      show i ∈ ((View.whole main_v74_0).slice (win6_2.rect tLast)).set
      rw [View.set_slice_whole, Rect.mem_set_unit]
      intro a
      have h0 : (i 0 : Nat) < 64 := (i 0).isLt
      have h1 : (i 1 : Nat) < 256 := (i 1).isLt
      match a with
      | ⟨0, _⟩ =>
        show win6_2.index tLast 0 * win6_2.size 0 ≤ (i 0 : Nat)
          ∧ (i 0 : Nat) < win6_2.index tLast 0 * win6_2.size 0 + win6_2.xsize (grid6.coords tLast) 0
        rw [show win6_2.index tLast 0 * win6_2.size 0 = 0 from by decide +kernel,
          show win6_2.xsize (grid6.coords tLast) 0 = 64 from by decide +kernel]; omega
      | ⟨1, _⟩ =>
        show win6_2.index tLast 1 * win6_2.size 1 ≤ (i 1 : Nat)
          ∧ (i 1 : Nat) < win6_2.index tLast 1 * win6_2.size 1 + win6_2.xsize (grid6.coords tLast) 1
        rw [show win6_2.index tLast 1 * win6_2.size 1 = 0 from by decide +kernel,
          show win6_2.xsize (grid6.coords tLast) 1 = 256 from by decide +kernel]; omega⟩

/-- After region 6 its second output array is the per-graph node count, as a column. -/
theorem pool_cnt_value (V : (c : Dev nD) → (b : Ref sig .tc) → Buf (Elt Ideal) ((c : Thread nD τ).loc b)) (c : Dev nD) :
    (dat6 (F := Ideal) V c).arrAt 3 cfg6.N = Cert.Spec.cntCol (Cert.Spec.poolCnt (F := Ideal) (V c main_v73)) :=
  (dat6 V c).arrAt_eq_of_cover 3 (Cert.Spec.cntCol (Cert.Spec.poolCnt (F := Ideal) (V c main_v73))) (flushed_cnt V c) fun i =>
    ⟨tLast, (flush6_3 tLast).mpr rfl, by
      show i ∈ ((View.whole main_v74_1).slice (win6_3.rect tLast)).set
      rw [View.set_slice_whole, Rect.mem_set_unit]
      intro a
      have h0 : (i 0 : Nat) < 64 := (i 0).isLt
      have h1 : (i 1 : Nat) < 1 := (i 1).isLt
      match a with
      | ⟨0, _⟩ =>
        show win6_3.index tLast 0 * win6_3.size 0 ≤ (i 0 : Nat)
          ∧ (i 0 : Nat) < win6_3.index tLast 0 * win6_3.size 0 + win6_3.xsize (grid6.coords tLast) 0
        rw [show win6_3.index tLast 0 * win6_3.size 0 = 0 from by decide +kernel,
          show win6_3.xsize (grid6.coords tLast) 0 = 64 from by decide +kernel]; omega
      | ⟨1, _⟩ =>
        show win6_3.index tLast 1 * win6_3.size 1 ≤ (i 1 : Nat)
          ∧ (i 1 : Nat) < win6_3.index tLast 1 * win6_3.size 1 + win6_3.xsize (grid6.coords tLast) 1
        rw [show win6_3.index tLast 1 * win6_3.size 1 = 0 from by decide +kernel,
          show win6_3.xsize (grid6.coords tLast) 1 = 1 from by decide +kernel]; omega⟩

end Cert.KernelIdeal.Pool

end
-- ==== Proof.Fin.lean ====
/-
  The output kernel, one grid point: out = g · Wl + bl, the product of g [64, 256] and Wl [256, 768] into a zero
  accumulator plus the bias row [1, 768] spread over the 64 rows: `Cert.Spec.outLayer` when the row window holds the bias
  vector reshaped.
-/
import proofs.«415408_j54211077210246_1_alg».proof.Proof.Gen.KernelIdeal.Frame
import proofs.«415408_j54211077210246_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Fin

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- The two programs name the product's dimensions by the same record. -/
theorem dot_record_eq : Cert.KernelIdeal.dot_S64x256_S256x768_S64x768_1_0_0_1_n_n
    = Cert.ReferenceIdeal.dot_S64x256_S256x768_S64x768_1_0_0_1_n_n := rfl

/-- The bias row spread over the 64 rows, read at (p, q): the bias at q, on the kernel's side. -/
theorem bias_spread_kernel (bl : Cert.Spec.Arr (F := Ideal) S768 .f32) (p : Fin 64) (q : Fin 768) :
    broadcastTo S64x768 (shapeCast S1x768 bl Facts₀.shapeCasts_S768_S1x768) Facts₀.broadcasts_S1x768_S64x768 (ix2 p q) = bl (ix1 q) := by
  refine (broadcastTo_apply _ _ (ix2 p q) (ix2 (0 : Fin 1) q) (by
    intro a
    match a with
    | ⟨0, _⟩ => rfl
    | ⟨1, _⟩ => rfl)).trans ?_
  exact shapeCast_a_1a_apply bl _ 0 q

/-- The same on the reference's side. -/
theorem bias_spread_ref (bl : Cert.Spec.Arr (F := Ideal) S768 .f32) (p : Fin 64) (q : Fin 768) :
    broadcastInDim Cert.ReferenceIdeal.S64x768 ![0, 1] Cert.ReferenceIdeal.Facts₀.bcast_S1x768_S64x768_0_1
      (broadcastInDim Cert.ReferenceIdeal.S1x768 ![1] Cert.ReferenceIdeal.Facts₀.bcast_S768_S1x768_1 bl) (ix2 p q) = bl (ix1 q) := by
  refine (broadcastInDim_apply _ _ _ (ix2 p q) (ix2 (0 : Fin 1) q) (by
    intro a
    match a with
    | ⟨0, _⟩ => rfl
    | ⟨1, _⟩ => rfl)).trans ?_
  exact broadcastInDim_apply _ _ bl (ix2 (0 : Fin 1) q) (ix1 q) (by
    intro a
    match a with
    | ⟨0, _⟩ => rfl)

/-- The body's arithmetic is the output layer, when the row block is the bias vector reshaped. -/
theorem arith_eq_outLayer (x0 : Vec Ideal S64x256 .f32) (x1 : Vec Ideal S256x768 .f32) (bl : Cert.Spec.Arr (F := Ideal) S768 .f32) :
    k7_pay1 (F := Ideal) x0 x1 (shapeCast S1x768 bl Facts₀.shapeCasts_S768_S1x768) = Cert.Spec.outLayer (F := Ideal) x0 x1 bl := by
  funext j
  obtain ⟨p, q, rfl⟩ : ∃ (p : Fin 64) (q : Fin 768), j = ix2 p q := ⟨j 0, j 1, eq_ix2 j⟩
  unfold k7_pay1 Cert.Spec.outLayer
  simp only [matmul, Host.dotGeneral]
  rw [addf_apply, addf_apply, shapeCast_self, shapeCast_self, bias_spread_kernel, bias_spread_ref]
  congr 1
  rw [Ideal.matmul_constant_zero_apply, Ideal.dotGeneral_apply, dot_record_eq]
  rfl

/-- The offsets of a whole block, however spelt, are zero. -/
theorem zero_offsets : (![0, 0] : Fin 2 → Nat) = fun _ => 0 := funext fun a => by fin_cases a <;> rfl

/-- What the body leaves in the output block, from whole blocks, is the output layer. -/
theorem body_out_eq (x0 : Vec Ideal S64x256 .f32) (x1 : Vec Ideal S256x768 .f32) (bl : Cert.Spec.Arr (F := Ideal) S768 .f32) :
    out7_3 (F := Ideal) x0 x1 (shapeCast S1x768 bl Facts₀.shapeCasts_S768_S1x768) = Cert.Spec.outLayer (F := Ideal) x0 x1 bl := by
  unfold out7_3
  rw [View.canon_unit_zero zero_offsets]
  simp only [View.ld_unit_zero (S := S64x256) zero_offsets, View.ld_unit_zero (S := S256x768) zero_offsets, View.ld_unit_zero (S := S1x768) zero_offsets]
  exact arith_eq_outLayer x0 x1 bl

/-- At the one grid point every window's block is block (0, 0) of its array. -/
theorem block_index_zero : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

section Point

variable (V : (c : Dev nD) → (b : Ref sig .tc) → Buf (Elt Ideal) ((c : Thread nD τ).loc b)) (c : Dev nD)

/-- Window 0's block is the whole of its array. -/
theorem lhs_block_whole (t : Fin cfg7.N) : (iblk7 (F := Ideal) V c 0 t : Vec Ideal S64x256 .f32) = V c main_v78 := by
  obtain ⟨e0, e1, -⟩ := block_index_zero t
  funext j
  show V c main_v78 (((cfg7.win 0).blk t).view.emb j) = V c main_v78 j
  refine congrArg _ (funext fun a => Fin.ext ?_)
  match a with
  | ⟨0, _⟩ => show win7_0.index t (0 : Fin 2) * 64 + 1 * (j 0).val = (j 0).val; omega
  | ⟨1, _⟩ => show win7_0.index t (1 : Fin 2) * 256 + 1 * (j 1).val = (j 1).val; omega

/-- Window 1's block is the whole of its array. -/
theorem rhs_block_whole (t : Fin cfg7.N) : (iblk7 (F := Ideal) V c 1 t : Vec Ideal S256x768 .f32) = V c main_arg9 := by
  obtain ⟨-, -, e0, e1, -⟩ := block_index_zero t
  funext j
  show V c main_arg9 (((cfg7.win 1).blk t).view.emb j) = V c main_arg9 j
  refine congrArg _ (funext fun a => Fin.ext ?_)
  match a with
  | ⟨0, _⟩ => show win7_1.index t (0 : Fin 2) * 256 + 1 * (j 0).val = (j 0).val; omega
  | ⟨1, _⟩ => show win7_1.index t (1 : Fin 2) * 768 + 1 * (j 1).val = (j 1).val; omega

/-- Window 2's block is the whole of its array. -/
theorem bias_block_whole (t : Fin cfg7.N) : (iblk7 (F := Ideal) V c 2 t : Vec Ideal S1x768 .f32) = V c main_v79 := by
  obtain ⟨-, -, -, -, e0, e1, -⟩ := block_index_zero t
  funext j
  show V c main_v79 (((cfg7.win 2).blk t).view.emb j) = V c main_v79 j
  refine congrArg _ (funext fun a => Fin.ext ?_)
  match a with
  | ⟨0, _⟩ => show win7_2.index t (0 : Fin 2) * 1 + 1 * (j 0).val = (j 0).val; omega
  | ⟨1, _⟩ => show win7_2.index t (1 : Fin 2) * 768 + 1 * (j 1).val = (j 1).val; omega

/-- What the point writes back is its block — the whole — of the output layer of the region's input arrays. -/
theorem written_back_eq (bl : Cert.Spec.Arr (F := Ideal) S768 .f32)
    (hb : V c main_v79 = shapeCast S1x768 bl Facts₀.shapeCasts_S768_S1x768) (t : Fin cfg7.N) :
    (dat7 (F := Ideal) V c).flushed 3 t
      = ((cfg7.win 3).blk t).view.read (Elt Ideal) (Cert.Spec.outLayer (F := Ideal) (V c main_v78) (V c main_arg9) bl) := by
  show (cfg7.win 3).cut (grid7.coords t) ((dat7 V c).after 3 t) = _
  rw [after7_3]
  have e : out7_3 (F := Ideal) (iblk7 V c 0 t) (iblk7 V c 1 t) (iblk7 V c 2 t)
      = Cert.Spec.outLayer (F := Ideal) (V c main_v78) (V c main_arg9) bl := by
    rw [lhs_block_whole V c t, rhs_block_whole V c t, bias_block_whole V c t, hb]
    exact body_out_eq _ _ bl
  rw [e]
  obtain ⟨-, -, -, -, -, -, e0, e1⟩ := block_index_zero t
  funext j
  show Cert.Spec.outLayer (F := Ideal) (V c main_v78) (V c main_arg9) bl j
    = Cert.Spec.outLayer (F := Ideal) (V c main_v78) (V c main_arg9) bl (((cfg7.win 3).blk t).view.emb j)
  refine congrArg _ (funext fun a => Fin.ext ?_)
  match a with
  | ⟨0, _⟩ => show (j 0).val = win7_3.index t (0 : Fin 2) * 64 + 1 * (j 0).val; omega
  | ⟨1, _⟩ => show (j 1).val = win7_3.index t (1 : Fin 2) * 768 + 1 * (j 1).val; omega

/-- An index of the output array is in the point's block iff each coordinate is in the block's range on its axis. -/
theorem mem_out_block (t : Fin cfg7.N) (i : S64x768.Idx) :
    i ∈ ((cfg7.win 3).blk t).view.set ↔ ∀ a : Fin 2, win7_3.index t a * S64x768.size a ≤ (i a).val ∧ (i a).val < win7_3.index t a * S64x768.size a + S64x768.size a := by
  show i ∈ ((View.whole main_v80).slice (win7_3.rect t)).set ↔ _
  rw [View.set_slice_whole, Rect.mem_set_unit]
  exact Iff.rfl

/-- The one block covers the output array. -/
theorem out_block_covers (i : S64x768.Idx) : ∃ t : Fin cfg7.N, (cfg7.win 3).flush t = true ∧ i ∈ ((cfg7.win 3).blk t).view.set := by
  refine ⟨t7_0, flush7_3 t7_0, ?_⟩
  rw [mem_out_block]
  obtain ⟨-, -, -, -, -, -, e0, e1⟩ := block_index_zero t7_0
  have hi0 : (i 0).val < 64 := (i 0).isLt
  have hi1 : (i 1).val < 768 := (i 1).isLt
  intro a
  match a with
  | ⟨0, _⟩ => show win7_3.index t7_0 (0 : Fin 2) * 64 ≤ (i 0).val ∧ (i 0).val < win7_3.index t7_0 (0 : Fin 2) * 64 + 64; omega
  | ⟨1, _⟩ => show win7_3.index t7_0 (1 : Fin 2) * 768 ≤ (i 1).val ∧ (i 1).val < win7_3.index t7_0 (1 : Fin 2) * 768 + 768; omega

end Point

/-- After region 7 its output array is the output layer of its inputs, given what its bias window holds. -/
theorem fin_value (V : (c : Dev nD) → (b : Ref sig .tc) → Buf (Elt Ideal) ((c : Thread nD τ).loc b)) (c : Dev nD) (bl : Cert.Spec.Arr (F := Ideal) S768 .f32)
    (hb : V c main_v79 = shapeCast S1x768 bl Facts₀.shapeCasts_S768_S1x768) :
    (dat7 (F := Ideal) V c).arrAt 3 cfg7.N = Cert.Spec.outLayer (F := Ideal) (V c main_v78) (V c main_arg9) bl :=
  (dat7 (F := Ideal) V c).arrAt_eq_of_cover 3 _ (fun t _ => written_back_eq V c bl hb t) out_block_covers

end Cert.KernelIdeal.Fin

end
-- ==== Proof.Chain.lean ====
/-
  The kernel program's result array after its run is the network of its argument arrays.

  Its @main is six stretches of host operations around eight kernels. Boundary by boundary, from the launch contents:
  each stretch leaves in the buffers the next kernel reads the host operations of `Cert.Spec` applied to what it read
  (HostSide), each kernel leaves in its output array the function its region lemma names of its input arrays (Lin, Comb,
  Pool, Fin), and a buffer nobody writes in between is carried unchanged (Keep). The three layers, the pooling and the
  output layer compose to `Cert.Spec.result`.
-/
import proofs.«415408_j54211077210246_1_alg».proof.Proof.Gen.KernelIdeal.Frame
import proofs.«415408_j54211077210246_1_alg».proof.Proof.Spec
import proofs.«415408_j54211077210246_1_alg».proof.Proof.Keep
import proofs.«415408_j54211077210246_1_alg».proof.Proof.HostSide
import proofs.«415408_j54211077210246_1_alg».proof.Proof.Glue
import proofs.«415408_j54211077210246_1_alg».proof.Proof.Lin0
import proofs.«415408_j54211077210246_1_alg».proof.Proof.Lin2
import proofs.«415408_j54211077210246_1_alg».proof.Proof.Lin4
import proofs.«415408_j54211077210246_1_alg».proof.Proof.Comb1
import proofs.«415408_j54211077210246_1_alg».proof.Proof.Comb3
import proofs.«415408_j54211077210246_1_alg».proof.Proof.Comb5
import proofs.«415408_j54211077210246_1_alg».proof.Proof.Pool
import proofs.«415408_j54211077210246_1_alg».proof.Proof.Fin
import Idealize.ShloMosaic.PureOps.Ideal

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## Buffers carried unchanged from the launch: what each boundary up to `K` finds in a buffer nothing before it writes -/

section Carry
variable (b : Ref sig .tc)

theorem up1 (h0 : b ∉ Keep.written0) : W1 m ρ c (Proc.devRef .tc b) = W0 m ρ c (Proc.devRef .tc b) := Keep.keep0 (W0 m ρ c) b h0
theorem up2 (h0 : b ∉ Keep.written0) (r0 : ∀ w, Pipeline.arrRef spec0 w ≠ b) : W2 m ρ c (Proc.devRef .tc b) = W0 m ρ c (Proc.devRef .tc b) :=
  (W2_of_ne m ρ c b r0).trans (up1 m ρ c b h0)
theorem up3 (h0 : b ∉ Keep.written0) (r0 : ∀ w, Pipeline.arrRef spec0 w ≠ b) (h1 : b ∉ Keep.written1) :
    W3 m ρ c (Proc.devRef .tc b) = W0 m ρ c (Proc.devRef .tc b) :=
  (Keep.keep1 (W2 m ρ c) b h1).trans (up2 m ρ c b h0 r0)
theorem up4 (h0 : b ∉ Keep.written0) (r0 : ∀ w, Pipeline.arrRef spec0 w ≠ b) (h1 : b ∉ Keep.written1)
    (r1 : ∀ w, Pipeline.arrRef spec1 w ≠ b) : W4 m ρ c (Proc.devRef .tc b) = W0 m ρ c (Proc.devRef .tc b) :=
  (W4_of_ne m ρ c b r1).trans (up3 m ρ c b h0 r0 h1)
theorem up5 (h0 : b ∉ Keep.written0) (r0 : ∀ w, Pipeline.arrRef spec0 w ≠ b) (h1 : b ∉ Keep.written1)
    (r1 : ∀ w, Pipeline.arrRef spec1 w ≠ b) (r2 : ∀ w, Pipeline.arrRef spec2 w ≠ b) : W5 m ρ c (Proc.devRef .tc b) = W0 m ρ c (Proc.devRef .tc b) :=
  (W5_of_ne m ρ c b r2).trans (up4 m ρ c b h0 r0 h1 r1)
theorem up6 (h0 : b ∉ Keep.written0) (r0 : ∀ w, Pipeline.arrRef spec0 w ≠ b) (h1 : b ∉ Keep.written1)
    (r1 : ∀ w, Pipeline.arrRef spec1 w ≠ b) (r2 : ∀ w, Pipeline.arrRef spec2 w ≠ b) (h3 : b ∉ Keep.written3) :
    W6 m ρ c (Proc.devRef .tc b) = W0 m ρ c (Proc.devRef .tc b) :=
  (Keep.keep3 (W5 m ρ c) b h3).trans (up5 m ρ c b h0 r0 h1 r1 r2)
theorem up7 (h0 : b ∉ Keep.written0) (r0 : ∀ w, Pipeline.arrRef spec0 w ≠ b) (h1 : b ∉ Keep.written1)
    (r1 : ∀ w, Pipeline.arrRef spec1 w ≠ b) (r2 : ∀ w, Pipeline.arrRef spec2 w ≠ b) (h3 : b ∉ Keep.written3)
    (r3 : ∀ w, Pipeline.arrRef spec3 w ≠ b) : W7 m ρ c (Proc.devRef .tc b) = W0 m ρ c (Proc.devRef .tc b) :=
  (W7_of_ne m ρ c b r3).trans (up6 m ρ c b h0 r0 h1 r1 r2 h3)
theorem up8 (h0 : b ∉ Keep.written0) (r0 : ∀ w, Pipeline.arrRef spec0 w ≠ b) (h1 : b ∉ Keep.written1)
    (r1 : ∀ w, Pipeline.arrRef spec1 w ≠ b) (r2 : ∀ w, Pipeline.arrRef spec2 w ≠ b) (h3 : b ∉ Keep.written3)
    (r3 : ∀ w, Pipeline.arrRef spec3 w ≠ b) (r4 : ∀ w, Pipeline.arrRef spec4 w ≠ b) : W8 m ρ c (Proc.devRef .tc b) = W0 m ρ c (Proc.devRef .tc b) :=
  (W8_of_ne m ρ c b r4).trans (up7 m ρ c b h0 r0 h1 r1 r2 h3 r3)

/-! From the last boundary backwards: a buffer nothing after boundary `K` writes holds at `K` what it holds at the end. -/

theorem down13 (r7 : ∀ w, Pipeline.arrRef spec7 w ≠ b) : W13 m ρ c (Proc.devRef .tc b) = W14 m ρ c (Proc.devRef .tc b) :=
  (W14_of_ne m ρ c b r7).symm
theorem down12 (r7 : ∀ w, Pipeline.arrRef spec7 w ≠ b) (h7 : b ∉ Keep.written7) : W12 m ρ c (Proc.devRef .tc b) = W14 m ρ c (Proc.devRef .tc b) :=
  (Keep.keep7 (W12 m ρ c) b h7).symm.trans (down13 m ρ c b r7)
theorem down11 (r7 : ∀ w, Pipeline.arrRef spec7 w ≠ b) (h7 : b ∉ Keep.written7) (r6 : ∀ w, Pipeline.arrRef spec6 w ≠ b) :
    W11 m ρ c (Proc.devRef .tc b) = W14 m ρ c (Proc.devRef .tc b) :=
  (W12_of_ne m ρ c b r6).symm.trans (down12 m ρ c b r7 h7)
theorem down10 (r7 : ∀ w, Pipeline.arrRef spec7 w ≠ b) (h7 : b ∉ Keep.written7) (r6 : ∀ w, Pipeline.arrRef spec6 w ≠ b)
    (h6 : b ∉ Keep.written6) : W10 m ρ c (Proc.devRef .tc b) = W14 m ρ c (Proc.devRef .tc b) :=
  (Keep.keep6 (W10 m ρ c) b h6).symm.trans (down11 m ρ c b r7 h7 r6)
theorem down9 (r7 : ∀ w, Pipeline.arrRef spec7 w ≠ b) (h7 : b ∉ Keep.written7) (r6 : ∀ w, Pipeline.arrRef spec6 w ≠ b)
    (h6 : b ∉ Keep.written6) (r5 : ∀ w, Pipeline.arrRef spec5 w ≠ b) : W9 m ρ c (Proc.devRef .tc b) = W14 m ρ c (Proc.devRef .tc b) :=
  (W10_of_ne m ρ c b r5).symm.trans (down10 m ρ c b r7 h7 r6 h6)
theorem down8 (r7 : ∀ w, Pipeline.arrRef spec7 w ≠ b) (h7 : b ∉ Keep.written7) (r6 : ∀ w, Pipeline.arrRef spec6 w ≠ b)
    (h6 : b ∉ Keep.written6) (r5 : ∀ w, Pipeline.arrRef spec5 w ≠ b) (h5 : b ∉ Keep.written5) :
    W8 m ρ c (Proc.devRef .tc b) = W14 m ρ c (Proc.devRef .tc b) :=
  (Keep.keep5 (W8 m ρ c) b h5).symm.trans (down9 m ρ c b r7 h7 r6 h6 r5)

end Carry

/-! ## The argument arrays where they are read -/

theorem w1_a0 : W1 m ρ c (Proc.devRef .tc main_arg0) = (m ((c : Thread nD τ).loc main_arg0)) := (up1 m ρ c main_arg0 (by decide)).trans rfl
theorem w1_a3 : W1 m ρ c (Proc.devRef .tc main_arg3) = (m ((c : Thread nD τ).loc main_arg3)) := (up1 m ρ c main_arg3 (by decide)).trans rfl
theorem w2_a4 : W2 m ρ c (Proc.devRef .tc main_arg4) = (m ((c : Thread nD τ).loc main_arg4)) := (up2 m ρ c main_arg4 (by decide) (by decide)).trans rfl
theorem w4_a5 : W4 m ρ c (Proc.devRef .tc main_arg5) = (m ((c : Thread nD τ).loc main_arg5)) :=
  (up4 m ρ c main_arg5 (by decide) (by decide) (by decide) (by decide)).trans rfl
theorem w5_a6 : W5 m ρ c (Proc.devRef .tc main_arg6) = (m ((c : Thread nD τ).loc main_arg6)) :=
  (up5 m ρ c main_arg6 (by decide) (by decide) (by decide) (by decide) (by decide)).trans rfl
theorem w7_a7 : W7 m ρ c (Proc.devRef .tc main_arg7) = (m ((c : Thread nD τ).loc main_arg7)) :=
  (up7 m ρ c main_arg7 (by decide) (by decide) (by decide) (by decide) (by decide) (by decide) (by decide)).trans rfl
theorem w8_a8 : W8 m ρ c (Proc.devRef .tc main_arg8) = (m ((c : Thread nD τ).loc main_arg8)) :=
  (down8 m ρ c main_arg8 (by decide) (by decide) (by decide) (by decide) (by decide) (by decide)).trans (W14_main_arg8 m ρ c)
theorem w10_a2 : W10 m ρ c (Proc.devRef .tc main_arg2) = (m ((c : Thread nD τ).loc main_arg2)) :=
  (down10 m ρ c main_arg2 (by decide) (by decide) (by decide) (by decide)).trans (W14_main_arg2 m ρ c)
theorem w12_a10 : W12 m ρ c (Proc.devRef .tc main_arg10) = (m ((c : Thread nD τ).loc main_arg10)) :=
  (down12 m ρ c main_arg10 (by decide) (by decide)).trans (W14_main_arg10 m ρ c)
/-- The last weight matrix is an input window of the output kernel, which leaves it as it found it. -/
theorem w13_a9 : W13 m ρ c (Proc.devRef .tc main_arg9) = (m ((c : Thread nD τ).loc main_arg9)) :=
  ((W14_arr m ρ c 1).trans (((dat7 (V13 m ρ) c).arrAt_in 1 rfl _).trans (A_eq7 (V13 m ρ) c 1))).symm.trans (W14_main_arg9 m ρ c)

/-! ## After the first stretch: the edge list's rows, `dinv` as a column, the edge weights as a column; carried to where they are read -/

theorem w1_src : W1 m ρ c (Proc.devRef .tc main_v1) = Cert.Spec.srcOf (F := Ideal) (m ((c : Thread nD τ).loc main_arg1)) := (HostSide.h0_src (W0 m ρ c)).trans rfl
theorem w1_dst : W1 m ρ c (Proc.devRef .tc main_v3) = Cert.Spec.dstOf (F := Ideal) (m ((c : Thread nD τ).loc main_arg1)) := (HostSide.h0_dst (W0 m ρ c)).trans rfl
theorem w1_dcol : W1 m ρ c (Proc.devRef .tc main_v11) = Cert.Spec.dinvCol (F := Ideal) (m ((c : Thread nD τ).loc main_arg1)) := (HostSide.h0_dinvCol (W0 m ρ c)).trans rfl
theorem w1_nrm : W1 m ρ c (Proc.devRef .tc main_v27) = Cert.Spec.normCol (F := Ideal) (m ((c : Thread nD τ).loc main_arg1)) := (HostSide.h0_normCol (W0 m ρ c)).trans rfl

section FromFirst
variable (b : Ref sig .tc)
/-- A buffer of the first stretch that only later stretches read: unchanged at the entries of the second, third and fourth. -/
theorem at2 (r0 : ∀ w, Pipeline.arrRef spec0 w ≠ b) : W2 m ρ c (Proc.devRef .tc b) = W1 m ρ c (Proc.devRef .tc b) := W2_of_ne m ρ c b r0
theorem at5 (r0 : ∀ w, Pipeline.arrRef spec0 w ≠ b) (h1 : b ∉ Keep.written1) (r1 : ∀ w, Pipeline.arrRef spec1 w ≠ b)
    (r2 : ∀ w, Pipeline.arrRef spec2 w ≠ b) : W5 m ρ c (Proc.devRef .tc b) = W1 m ρ c (Proc.devRef .tc b) :=
  (W5_of_ne m ρ c b r2).trans ((W4_of_ne m ρ c b r1).trans ((Keep.keep1 (W2 m ρ c) b h1).trans (at2 m ρ c b r0)))
theorem at8 (r0 : ∀ w, Pipeline.arrRef spec0 w ≠ b) (h1 : b ∉ Keep.written1) (r1 : ∀ w, Pipeline.arrRef spec1 w ≠ b)
    (r2 : ∀ w, Pipeline.arrRef spec2 w ≠ b) (h3 : b ∉ Keep.written3) (r3 : ∀ w, Pipeline.arrRef spec3 w ≠ b)
    (r4 : ∀ w, Pipeline.arrRef spec4 w ≠ b) : W8 m ρ c (Proc.devRef .tc b) = W1 m ρ c (Proc.devRef .tc b) :=
  (W8_of_ne m ρ c b r4).trans ((W7_of_ne m ρ c b r3).trans ((Keep.keep3 (W5 m ρ c) b h3).trans (at5 m ρ c b r0 h1 r1 r2)))
end FromFirst

theorem w2_src : W2 m ρ c (Proc.devRef .tc main_v1) = Cert.Spec.srcOf (F := Ideal) (m ((c : Thread nD τ).loc main_arg1)) := (at2 m ρ c main_v1 (by decide)).trans (w1_src m ρ c)
theorem w2_dst : W2 m ρ c (Proc.devRef .tc main_v3) = Cert.Spec.dstOf (F := Ideal) (m ((c : Thread nD τ).loc main_arg1)) := (at2 m ρ c main_v3 (by decide)).trans (w1_dst m ρ c)
theorem w2_nrm : W2 m ρ c (Proc.devRef .tc main_v27) = Cert.Spec.normCol (F := Ideal) (m ((c : Thread nD τ).loc main_arg1)) := (at2 m ρ c main_v27 (by decide)).trans (w1_nrm m ρ c)
theorem w5_src : W5 m ρ c (Proc.devRef .tc main_v1) = Cert.Spec.srcOf (F := Ideal) (m ((c : Thread nD τ).loc main_arg1)) :=
  (at5 m ρ c main_v1 (by decide) (by decide) (by decide) (by decide)).trans (w1_src m ρ c)
theorem w5_dst : W5 m ρ c (Proc.devRef .tc main_v3) = Cert.Spec.dstOf (F := Ideal) (m ((c : Thread nD τ).loc main_arg1)) :=
  (at5 m ρ c main_v3 (by decide) (by decide) (by decide) (by decide)).trans (w1_dst m ρ c)
theorem w5_nrm : W5 m ρ c (Proc.devRef .tc main_v27) = Cert.Spec.normCol (F := Ideal) (m ((c : Thread nD τ).loc main_arg1)) :=
  (at5 m ρ c main_v27 (by decide) (by decide) (by decide) (by decide)).trans (w1_nrm m ρ c)
theorem w8_src : W8 m ρ c (Proc.devRef .tc main_v1) = Cert.Spec.srcOf (F := Ideal) (m ((c : Thread nD τ).loc main_arg1)) :=
  (at8 m ρ c main_v1 (by decide) (by decide) (by decide) (by decide) (by decide) (by decide) (by decide)).trans (w1_src m ρ c)
theorem w8_dst : W8 m ρ c (Proc.devRef .tc main_v3) = Cert.Spec.dstOf (F := Ideal) (m ((c : Thread nD τ).loc main_arg1)) :=
  (at8 m ρ c main_v3 (by decide) (by decide) (by decide) (by decide) (by decide) (by decide) (by decide)).trans (w1_dst m ρ c)
theorem w8_nrm : W8 m ρ c (Proc.devRef .tc main_v27) = Cert.Spec.normCol (F := Ideal) (m ((c : Thread nD τ).loc main_arg1)) :=
  (at8 m ρ c main_v27 (by decide) (by decide) (by decide) (by decide) (by decide) (by decide) (by decide)).trans (w1_nrm m ρ c)

/-! The `dinv` column is an input window of the three combine kernels: an input window's array is left as the kernel found it. -/

theorem w3_dcol : W3 m ρ c (Proc.devRef .tc main_v11) = Cert.Spec.dinvCol (F := Ideal) (m ((c : Thread nD τ).loc main_arg1)) :=
  (Keep.keep1 (W2 m ρ c) main_v11 (by decide)).trans ((at2 m ρ c main_v11 (by decide)).trans (w1_dcol m ρ c))
theorem w4_dcol : W4 m ρ c (Proc.devRef .tc main_v11) = Cert.Spec.dinvCol (F := Ideal) (m ((c : Thread nD τ).loc main_arg1)) :=
  ((W4_arr m ρ c 2).trans (((dat1 (V3 m ρ) c).arrAt_in 2 rfl _).trans (A_eq1 (V3 m ρ) c 2))).trans (w3_dcol m ρ c)
theorem w6_dcol : W6 m ρ c (Proc.devRef .tc main_v11) = Cert.Spec.dinvCol (F := Ideal) (m ((c : Thread nD τ).loc main_arg1)) :=
  (Keep.keep3 (W5 m ρ c) main_v11 (by decide)).trans ((W5_of_ne m ρ c main_v11 (by decide)).trans (w4_dcol m ρ c))
theorem w7_dcol : W7 m ρ c (Proc.devRef .tc main_v11) = Cert.Spec.dinvCol (F := Ideal) (m ((c : Thread nD τ).loc main_arg1)) :=
  ((W7_arr m ρ c 2).trans (((dat3 (V6 m ρ) c).arrAt_in 2 rfl _).trans (A_eq3 (V6 m ρ) c 2))).trans (w6_dcol m ρ c)
theorem w9_dcol : W9 m ρ c (Proc.devRef .tc main_v11) = Cert.Spec.dinvCol (F := Ideal) (m ((c : Thread nD τ).loc main_arg1)) :=
  (Keep.keep5 (W8 m ρ c) main_v11 (by decide)).trans ((W8_of_ne m ρ c main_v11 (by decide)).trans (w7_dcol m ρ c))

/-! ## The first layer -/

/-- The first projection. -/
abbrev p1 : Cert.Spec.Arr (F := Ideal) Cert.ReferenceIdeal.S50000x256 .f32 := Cert.Spec.mmIn (F := Ideal) (m ((c : Thread nD τ).loc main_arg0)) (m ((c : Thread nD τ).loc main_arg3))

theorem w2_p1 : W2 m ρ c (Proc.devRef .tc main_v28) = p1 m c :=
  (W2_arr m ρ c 2).trans ((Lin0.lin0_value (V1 m ρ) c).trans (by
    show Cert.Spec.mmIn (F := Ideal) (W1 m ρ c (Proc.devRef .tc main_arg0)) (W1 m ρ c (Proc.devRef .tc main_arg3)) = _
    rw [w1_a0, w1_a3]))

theorem w3_p1 : W3 m ρ c (Proc.devRef .tc main_v28) = p1 m c := (Keep.keep1 (W2 m ρ c) main_v28 (by decide)).trans (w2_p1 m ρ c)

theorem w3_agg1 : W3 m ρ c (Proc.devRef .tc main_v40) = Cert.Spec.agg (F := Ideal) (m ((c : Thread nD τ).loc main_arg1)) (p1 m c) :=
  (HostSide.h1_agg (W2 m ρ c)).trans (by rw [w2_src, w2_dst, w2_nrm, w2_p1]; rfl)

theorem w3_b1 : W3 m ρ c (Proc.devRef .tc main_v41) = shapeCast S1x256 (m ((c : Thread nD τ).loc main_arg4)) Facts₀.shapeCasts_S256_S1x256 :=
  (HostSide.h1_bias (W2 m ρ c)).trans (by rw [w2_a4])

/-- The first layer's node features. -/
abbrev l1 : Cert.Spec.Arr (F := Ideal) Cert.ReferenceIdeal.S50000x256 .f32 :=
  Cert.Spec.relu (Cert.Spec.conv (F := Ideal) (m ((c : Thread nD τ).loc main_arg1)) (p1 m c) (m ((c : Thread nD τ).loc main_arg4)))

theorem w4_l1 : W4 m ρ c (Proc.devRef .tc main_v42) = l1 m c :=
  (W4_arr m ρ c 4).trans ((Comb1.comb1_value (V3 m ρ) c (Cert.Spec.dinv (F := Ideal) (m ((c : Thread nD τ).loc main_arg1))) (m ((c : Thread nD τ).loc main_arg4))
    (w3_dcol m ρ c) (w3_b1 m ρ c)).trans (by
      show Cert.Spec.relu (Cert.Spec.combine _ (W3 m ρ c (Proc.devRef .tc main_v40)) (W3 m ρ c (Proc.devRef .tc main_v28)) _) = _
      rw [w3_agg1, w3_p1]; rfl))

/-! ## The second layer -/

abbrev p2 : Cert.Spec.Arr (F := Ideal) Cert.ReferenceIdeal.S50000x256 .f32 := Cert.Spec.mmHid (F := Ideal) (l1 m c) (m ((c : Thread nD τ).loc main_arg5))

theorem w5_p2 : W5 m ρ c (Proc.devRef .tc main_v43) = p2 m c :=
  (W5_arr m ρ c 2).trans ((Lin2.lin2_value (V4 m ρ) c).trans (by
    show Cert.Spec.mmHid (F := Ideal) (W4 m ρ c (Proc.devRef .tc main_v42)) (W4 m ρ c (Proc.devRef .tc main_arg5)) = _
    rw [w4_l1, w4_a5]))

theorem w6_p2 : W6 m ρ c (Proc.devRef .tc main_v43) = p2 m c := (Keep.keep3 (W5 m ρ c) main_v43 (by decide)).trans (w5_p2 m ρ c)

theorem w6_agg2 : W6 m ρ c (Proc.devRef .tc main_v55) = Cert.Spec.agg (F := Ideal) (m ((c : Thread nD τ).loc main_arg1)) (p2 m c) :=
  (HostSide.h3_agg (W5 m ρ c)).trans (by rw [w5_src, w5_dst, w5_nrm, w5_p2]; rfl)

theorem w6_b2 : W6 m ρ c (Proc.devRef .tc main_v56) = shapeCast S1x256 (m ((c : Thread nD τ).loc main_arg6)) Facts₀.shapeCasts_S256_S1x256 :=
  (HostSide.h3_bias (W5 m ρ c)).trans (by rw [w5_a6])

abbrev l2 : Cert.Spec.Arr (F := Ideal) Cert.ReferenceIdeal.S50000x256 .f32 :=
  Cert.Spec.relu (Cert.Spec.conv (F := Ideal) (m ((c : Thread nD τ).loc main_arg1)) (p2 m c) (m ((c : Thread nD τ).loc main_arg6)))

theorem w7_l2 : W7 m ρ c (Proc.devRef .tc main_v57) = l2 m c :=
  (W7_arr m ρ c 4).trans ((Comb3.comb3_value (V6 m ρ) c (Cert.Spec.dinv (F := Ideal) (m ((c : Thread nD τ).loc main_arg1))) (m ((c : Thread nD τ).loc main_arg6))
    (w6_dcol m ρ c) (w6_b2 m ρ c)).trans (by
      show Cert.Spec.relu (Cert.Spec.combine _ (W6 m ρ c (Proc.devRef .tc main_v55)) (W6 m ρ c (Proc.devRef .tc main_v43)) _) = _
      rw [w6_agg2, w6_p2]; rfl))

/-! ## The third layer -/

abbrev p3 : Cert.Spec.Arr (F := Ideal) Cert.ReferenceIdeal.S50000x256 .f32 := Cert.Spec.mmHid (F := Ideal) (l2 m c) (m ((c : Thread nD τ).loc main_arg7))

theorem w8_p3 : W8 m ρ c (Proc.devRef .tc main_v58) = p3 m c :=
  (W8_arr m ρ c 2).trans ((Lin4.lin4_value (V7 m ρ) c).trans (by
    show Cert.Spec.mmHid (F := Ideal) (W7 m ρ c (Proc.devRef .tc main_v57)) (W7 m ρ c (Proc.devRef .tc main_arg7)) = _
    rw [w7_l2, w7_a7]))

theorem w9_p3 : W9 m ρ c (Proc.devRef .tc main_v58) = p3 m c := (Keep.keep5 (W8 m ρ c) main_v58 (by decide)).trans (w8_p3 m ρ c)

theorem w9_agg3 : W9 m ρ c (Proc.devRef .tc main_v70) = Cert.Spec.agg (F := Ideal) (m ((c : Thread nD τ).loc main_arg1)) (p3 m c) :=
  (HostSide.h5_agg (W8 m ρ c)).trans (by rw [w8_src, w8_dst, w8_nrm, w8_p3]; rfl)

theorem w9_b3 : W9 m ρ c (Proc.devRef .tc main_v71) = shapeCast S1x256 (m ((c : Thread nD τ).loc main_arg8)) Facts₀.shapeCasts_S256_S1x256 :=
  (HostSide.h5_bias (W8 m ρ c)).trans (by rw [w8_a8])

/-- The node features after the three layers. -/
abbrev l3 : Cert.Spec.Arr (F := Ideal) Cert.ReferenceIdeal.S50000x256 .f32 := Cert.Spec.conv (F := Ideal) (m ((c : Thread nD τ).loc main_arg1)) (p3 m c) (m ((c : Thread nD τ).loc main_arg8))

theorem w10_l3 : W10 m ρ c (Proc.devRef .tc main_v72) = l3 m c :=
  (W10_arr m ρ c 4).trans ((Comb5.comb5_value (V9 m ρ) c (Cert.Spec.dinv (F := Ideal) (m ((c : Thread nD τ).loc main_arg1))) (m ((c : Thread nD τ).loc main_arg8))
    (w9_dcol m ρ c) (w9_b3 m ρ c)).trans (by
      show Cert.Spec.combine _ (W9 m ρ c (Proc.devRef .tc main_v70)) (W9 m ρ c (Proc.devRef .tc main_v58)) _ = _
      rw [w9_agg3, w9_p3]; rfl))

/-! ## Pooling -/

theorem w11_l3 : W11 m ρ c (Proc.devRef .tc main_v72) = l3 m c := (Keep.keep6 (W10 m ρ c) main_v72 (by decide)).trans (w10_l3 m ρ c)

theorem w11_bc : W11 m ρ c (Proc.devRef .tc main_v73) = Cert.Spec.batchCol (F := Ideal) (m ((c : Thread nD τ).loc main_arg2)) :=
  (HostSide.h6_batch (W10 m ρ c)).trans (by rw [w10_a2]; exact Glue.batch_col _)

theorem w12_sum : W12 m ρ c (Proc.devRef .tc main_v74_0) = Cert.Spec.poolSum (F := Ideal) (Cert.Spec.batchCol (m ((c : Thread nD τ).loc main_arg2))) (l3 m c) :=
  (W12_arr m ρ c 2).trans ((Pool.pool_sum_value (V11 m ρ) c).trans (by
    show Cert.Spec.poolSum (F := Ideal) (W11 m ρ c (Proc.devRef .tc main_v73)) (W11 m ρ c (Proc.devRef .tc main_v72)) = _
    rw [w11_bc, w11_l3]))

theorem w12_cnt : W12 m ρ c (Proc.devRef .tc main_v74_1) = Cert.Spec.cntCol (Cert.Spec.poolCnt (F := Ideal) (Cert.Spec.batchCol (m ((c : Thread nD τ).loc main_arg2)))) :=
  (W12_arr m ρ c 3).trans ((Pool.pool_cnt_value (V11 m ρ) c).trans (by
    show Cert.Spec.cntCol (Cert.Spec.poolCnt (F := Ideal) (W11 m ρ c (Proc.devRef .tc main_v73))) = _
    rw [w11_bc]))

theorem w13_mean : W13 m ρ c (Proc.devRef .tc main_v78) = Cert.Spec.pool (F := Ideal) (m ((c : Thread nD τ).loc main_arg2)) (l3 m c) :=
  (HostSide.h7_mean (W12 m ρ c)).trans (by rw [w12_sum, w12_cnt]; exact Glue.mean_of_col _ _)

theorem w13_bl : W13 m ρ c (Proc.devRef .tc main_v79) = shapeCast S1x768 (m ((c : Thread nD τ).loc main_arg10)) Facts₀.shapeCasts_S768_S1x768 :=
  (HostSide.h7_bias (W12 m ρ c)).trans (by rw [w12_a10])

/-! ## The output layer -/

/-- After the run the result array holds the network of the argument arrays. -/
theorem result_value : W14 m ρ c (Proc.devRef .tc main_v80)
    = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((Cert.KernelIdeal.Fin.fin_value (V13 m ρ) c (m ((c : Thread nD τ).loc main_arg10)) (w13_bl m ρ c)).trans (by
    show Cert.Spec.outLayer (F := Ideal) (W13 m ρ c (Proc.devRef .tc main_v78)) (W13 m ρ c (Proc.devRef .tc main_arg9)) _ = _
    rw [w13_mean, w13_a9]; rfl))

end Cert.KernelIdeal.Chain

end
-- ==== Proof.RefSide.lean ====
/-
  The reference program's run ends with its result array at the network of `Cert.Spec.result` of its argument arrays:
  the composed term its run states is that composition of host operations, operation for operation.
-/
import proofs.«415408_j54211077210246_1_alg».proof.Proof.Gen.ReferenceIdeal.Run
import proofs.«415408_j54211077210246_1_alg».proof.Proof.Spec

noncomputable section

namespace Cert.RefSide

open Cert.ReferenceIdeal Cert.ReferenceIdeal.Gen Idealize.ShloMosaic Idealize.ShloMosaic.TcCoe Idealize.SL.Sem

variable {F : FTy → Type} [FloatOps F]

set_option maxRecDepth 8192 in
set_option maxHeartbeats 4000000 in
/-- The reference's result term is the network of its arguments. -/
theorem ref_is_spec (m : (ℓ : Loc nD τ sig) → Buf (Elt F) ℓ) (c : Dev nD) :
    Cert.ReferenceIdeal.Value.res_main_v153 (F := F) m c
      = Cert.Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v153
  rfl

end Cert.RefSide

end
-- ==== Proof.lean ====
/-
  The certificate of a three-layer graph convolution network with mean pooling and an output layer: the kernel program
  (eight kernels among stretches of host operations) against its reference (host operations only).

  Both programs compute `Cert.Spec.result` of their argument arrays (Proof/Spec.lean). The reference's run states its
  result as that composition of host operations literally (Proof/RefSide.lean). The kernel program's run, with its result
  array named (Proof/ResultRun.lean), ends with that array at the same function: its host stretches apply the same host
  operations (Proof/HostSide.lean), its projection kernels compute the host products row block by row block
  (Proof/Lin0.lean, Lin2.lean, Lin4.lean), its combine kernels the layers' pointwise part (Proof/Comb1.lean, Comb3.lean,
  Comb5.lean), its pooling kernel the per-graph sums and counts as one-hot products accumulated over the row blocks,
  which are the host's scatter-adds read at an index (Proof/Pool.lean, Proof/ScatterRead.lean), and its output kernel the
  last product plus bias (Proof/Fin.lean); Proof/Chain.lean composes them boundary by boundary. No law of the extended
  reals beyond commutative, associative sums and `0 · x = 0`, `1 · x = x` is used, so the precondition is never opened.
  The three frames are the generated ones (the reference's is its generated run with the result dropped); the ideal pass
  rewrote nothing, so `preserves` is trivial.
-/
import proofs.«415408_j54211077210246_1_alg».proof.Defs
import proofs.«415408_j54211077210246_1_alg».proof.Proof.Gen.Kernel
import proofs.«415408_j54211077210246_1_alg».proof.Proof.Gen.Kernel.Frame
import proofs.«415408_j54211077210246_1_alg».proof.Proof.Gen.KernelIdeal
import proofs.«415408_j54211077210246_1_alg».proof.Proof.Gen.KernelIdeal.Frame
import proofs.«415408_j54211077210246_1_alg».proof.Proof.Gen.ReferenceIdeal
import proofs.«415408_j54211077210246_1_alg».proof.Proof.Gen.ReferenceIdeal.Run
import proofs.«415408_j54211077210246_1_alg».proof.Proof.Gen.Pre_finite_inputs
import proofs.«415408_j54211077210246_1_alg».proof.Proof.ResultRun
import proofs.«415408_j54211077210246_1_alg».proof.Proof.Chain
import proofs.«415408_j54211077210246_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result array at the network of the arguments. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_value m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.RefSide.ref_is_spec, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
